-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x768 : Shape := ⟨3, ![64, 128, 768]⟩
abbrev S768x768 : Shape := ⟨2, ![768, 768]⟩
abbrev S768 : Shape := ⟨1, ![768]⟩
abbrev S_ : Shape := ⟨0, ![]⟩

class Facts : Prop where
  bcast_S_S64x128x768 : S_.BroadcastsInDim S64x128x768 (![] : Fin 0 → Fin S64x128x768.rank)
  reducesTo_S64x128x768_S_d0_1_2 : S64x128x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part3 {F : FTy → Type} [FloatOps F] (main_v48 : IVec S_ 1) (main_v49 : FVec F S768 .f32) (main_v50 : FVec F S768 .f32) : IVec S_ 1 :=
  let main_v51 : IVec S768 1 := cmpf .olt main_v49 main_v50
  let main_c_19 : IVec S_ 1 := constantI S_ 1 1#1
  let main_v52 : IVec S_ 1 := (fun x v => Host.reduce IntOp.andi x v reducesTo_S768_S_d0 h_S_) main_v51 main_c_19
  let main_v53 : IVec S_ 1 := andi main_v48 main_v52
  main_v53

def fn_part2 {F : FTy → Type} [FloatOps F] (main_arg7 : FVec F S768 .f32) (main_arg8 : FVec F S768 .f32) (main_arg9 : FVec F S768 .f32) (main_arg10 : FVec F S768 .f32) (main_v33 : IVec S_ 1) : IVec S_ 1 :=
  let main_v34 : FVec F S768 .f32 := Host.absf main_arg7
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  let main_v44 : FVec F S768 .f32 := Host.absf main_arg9
  let main_cst_16 : FVec F S_ .f32 := constant S_ .f32 0x7F800000#32
  let main_v45 : FVec F S768 .f32 := broadcastInDim S768 ![] bcast_S_S768 main_cst_16
  let main_v46 : IVec S768 1 := cmpf .olt main_v44 main_v45
  let main_c_17 : IVec S_ 1 := constantI S_ 1 1#1
  let main_v47 : IVec S_ 1 := (fun x v => Host.reduce IntOp.andi x v reducesTo_S768_S_d0 h_S_) main_v46 main_c_17
  let main_v48 : IVec S_ 1 := andi main_v43 main_v47
  let main_v49 : FVec F S768 .f32 := Host.absf main_arg10
  let main_cst_18 : FVec F S_ .f32 := constant S_ .f32 0x7F800000#32
  let main_v50 : FVec F S768 .f32 := broadcastInDim S768 ![] bcast_S_S768 main_cst_18
  fn_part3 (F := F) main_v48 main_v49 main_v50

def fn_part1 {F : FTy → Type} [FloatOps F] (main_arg4 : FVec F S768x768 .f32) (main_arg5 : FVec F S768 .f32) (main_arg6 : FVec F S768 .f32) (main_arg7 : FVec F S768 .f32) (main_arg8 : FVec F S768 .f32) (main_arg9 : FVec F S768 .f32) (main_arg10 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768x768 .f32 := Host.absf main_arg4
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S64x128x768 .f32) (main_arg1 : FVec F S768x768 .f32) (main_arg2 : FVec F S768x768 .f32) (main_arg3 : FVec F S768x768 .f32) (main_arg4 : FVec F S768x768 .f32) (main_arg5 : FVec F S768 .f32) (main_arg6 : FVec F S768 .f32) (main_arg7 : FVec F S768 .f32) (main_arg8 : FVec F S768 .f32) (main_arg9 : FVec F S768 .f32) (main_arg10 : FVec F S768 .f32) : IVec S_ 1 :=
  let main_v0 : FVec F S64x128x768 .f32 := Host.absf main_arg0
  let main_cst : FVec F S_ .f32 := constant S_ .f32 0x7F800000#32
  let main_v1 : FVec F S64x128x768 .f32 := broadcastInDim S64x128x768 ![] bcast_S_S64x128x768 main_cst
  let main_v2 : IVec S64x128x768 1 := cmpf .olt main_v0 main_v1
  let main_c : IVec S_ 1 := constantI S_ 1 1#1
  let main_v3 : IVec S_ 1 := (fun x v => Host.reduce IntOp.andi x v reducesTo_S64x128x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_arg5 main_arg6 main_arg7 main_arg8 main_arg9 main_arg10 main_v13 main_v16
-- ==== Kernel.lean ====
abbrev S64x128x768 : Shape := ⟨3, ![64, 128, 768]⟩
abbrev S768x768 : Shape := ⟨2, ![768, 768]⟩
abbrev S768 : Shape := ⟨1, ![768]⟩
abbrev S8192x768 : Shape := ⟨2, ![8192, 768]⟩
abbrev S1x768 : Shape := ⟨2, ![1, 768]⟩
abbrev S1024x768 : Shape := ⟨2, ![1024, 768]⟩
abbrev S128x64 : Shape := ⟨2, ![128, 64]⟩
abbrev S128x128 : Shape := ⟨2, ![128, 128]⟩
abbrev S128 : Shape := ⟨1, ![128]⟩
abbrev S1x128 : Shape := ⟨2, ![1, 128]⟩
abbrev S128x768 : Shape := ⟨2, ![128, 768]⟩
abbrev S1024 : Shape := ⟨1, ![1024]⟩
abbrev S1024x1 : Shape := ⟨2, ![1024, 1]⟩

abbrev nBuf : Space → Nat
  | .hbm => 24
  | .vmem => 14
  | .smem => 0
  | _ => 0

abbrev bufTy : (tb : Table) → Fin (tcTables nBuf tb) → BufTy
  | .hbm, ⟨0, _⟩ => ⟨S64x128x768, .f32⟩
  | .hbm, ⟨1, _⟩ => ⟨S768x768, .f32⟩
  | .hbm, ⟨2, _⟩ => ⟨S768x768, .f32⟩
  | .hbm, ⟨3, _⟩ => ⟨S768x768, .f32⟩
  | .hbm, ⟨4, _⟩ => ⟨S768x768, .f32⟩
  | .hbm, ⟨5, _⟩ => ⟨S768, .f32⟩
  | .hbm, ⟨6, _⟩ => ⟨S768, .f32⟩
  | .hbm, ⟨7, _⟩ => ⟨S768, .f32⟩
  | .hbm, ⟨8, _⟩ => ⟨S768, .f32⟩
  | .hbm, ⟨9, _⟩ => ⟨S768, .f32⟩
  | .hbm, ⟨10, _⟩ => ⟨S768, .f32⟩
  | .hbm, ⟨11, _⟩ => ⟨S8192x768, .f32⟩
  | .hbm, ⟨12, _⟩ => ⟨S768x768, .bf16⟩
  | .hbm, ⟨13, _⟩ => ⟨S768x768, .bf16⟩
  | .hbm, ⟨14, _⟩ => ⟨S768x768, .bf16⟩
  | .hbm, ⟨15, _⟩ => ⟨S768x768, .bf16⟩
  | .hbm, ⟨16, _⟩ => ⟨S1x768, .f32⟩
  | .hbm, ⟨17, _⟩ => ⟨S1x768, .f32⟩
  | .hbm, ⟨18, _⟩ => ⟨S1x768, .f32⟩
  | .hbm, ⟨19, _⟩ => ⟨S1x768, .f32⟩
  | .hbm, ⟨20, _⟩ => ⟨S1x768, .f32⟩
  | .hbm, ⟨21, _⟩ => ⟨S1x768, .f32⟩
  | .hbm, ⟨22, _⟩ => ⟨S8192x768, .f32⟩
  | .hbm, ⟨23, _⟩ => ⟨S64x128x768, .f32⟩
  | .local _ .vmem, ⟨0, _⟩ => ⟨S1024x768, .f32⟩
  | .local _ .vmem, ⟨1, _⟩ => ⟨S1024x768, .f32⟩
  | .local _ .vmem, ⟨2, _⟩ => ⟨S768x768, .bf16⟩
  | .local _ .vmem, ⟨3, _⟩ => ⟨S768x768, .bf16⟩
  | .local _ .vmem, ⟨4, _⟩ => ⟨S768x768, .bf16⟩
  | .local _ .vmem, ⟨5, _⟩ => ⟨S768x768, .bf16⟩
  | .local _ .vmem, ⟨6, _⟩ => ⟨S1x768, .f32⟩
  | .local _ .vmem, ⟨7, _⟩ => ⟨S1x768, .f32⟩
  | .local _ .vmem, ⟨8, _⟩ => ⟨S1x768, .f32⟩
  | .local _ .vmem, ⟨9, _⟩ => ⟨S1x768, .f32⟩
  | .local _ .vmem, ⟨10, _⟩ => ⟨S1x768, .f32⟩
  | .local _ .vmem, ⟨11, _⟩ => ⟨S1x768, .f32⟩
  | .local _ .vmem, ⟨12, _⟩ => ⟨S1024x768, .f32⟩
  | .local _ .vmem, ⟨13, _⟩ => ⟨S1024x768, .f32⟩
  | _, _ => ⟨S64x128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S64x128x768_S8192x768 : S64x128x768.ShapeCasts S8192x768
  bitsLt_bf16_f32 : FTy.bits .bf16 < FTy.bits .f32
  shapeCasts_S768_S1x768 : S768.ShapeCasts S1x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  slices_S1024x768_o0_0_S128x64 : S1024x768.Slices ![0, 0] S128x64
  reduces_S128x128_S128 : S128x128.Reduces [0] S128
  shapeCasts_S128_S1x128 : S128.ShapeCasts S1x128
  broadcasts_S1x128_S128x128 : S1x128.Broadcasts S128x128
  slices_S1024x768_o0_64_S128x64 : S1024x768.Slices ![0, 64] S128x64
  slices_S1024x768_o0_128_S128x64 : S1024x768.Slices ![0, 128] S128x64
  slices_S1024x768_o0_192_S128x64 : S1024x768.Slices ![0, 192] S128x64
  slices_S1024x768_o0_256_S128x64 : S1024x768.Slices ![0, 256] S128x64
  slices_S1024x768_o0_320_S128x64 : S1024x768.Slices ![0, 320] S128x64
  slices_S1024x768_o0_384_S128x64 : S1024x768.Slices ![0, 384] S128x64
  slices_S1024x768_o0_448_S128x64 : S1024x768.Slices ![0, 448] S128x64
  slices_S1024x768_o0_512_S128x64 : S1024x768.Slices ![0, 512] S128x64
  slices_S1024x768_o0_576_S128x64 : S1024x768.Slices ![0, 576] S128x64
  slices_S1024x768_o0_640_S128x64 : S1024x768.Slices ![0, 640] S128x64
  slices_S1024x768_o0_704_S128x64 : S1024x768.Slices ![0, 704] S128x64
  concatenates_S128x64_S128x64_S128x64_S128x64_S128x64_S128x64_S128x64_S128x64_S128x64_S128x64_S128x64_S128x64_S128x768_d1 : Shape.Concatenates [S128x64, S128x64, S128x64, S128x64, S128x64, S128x64, S128x64, S128x64, S128x64, S128x64, S128x64, S128x64] S128x768 1
  slices_S1024x768_o128_0_S128x64 : S1024x768.Slices ![128, 0] S128x64
  slices_S1024x768_o128_64_S128x64 : S1024x768.Slices ![128, 64] S128x64
  slices_S1024x768_o128_128_S128x64 : S1024x768.Slices ![128, 128] S128x64
  slices_S1024x768_o128_192_S128x64 : S1024x768.Slices ![128, 192] S128x64
  slices_S1024x768_o128_256_S128x64 : S1024x768.Slices ![128, 256] S128x64
  slices_S1024x768_o128_320_S128x64 : S1024x768.Slices ![128, 320] S128x64
  slices_S1024x768_o128_384_S128x64 : S1024x768.Slices ![128, 384] S128x64
  slices_S1024x768_o128_448_S128x64 : S1024x768.Slices ![128, 448] S128x64
  slices_S1024x768_o128_512_S128x64 : S1024x768.Slices ![128, 512] S128x64
  slices_S1024x768_o128_576_S128x64 : S1024x768.Slices ![128, 576] S128x64
  slices_S1024x768_o128_640_S128x64 : S1024x768.Slices ![128, 640] S128x64
  slices_S1024x768_o128_704_S128x64 : S1024x768.Slices ![128, 704] S128x64
  slices_S1024x768_o256_0_S128x64 : S1024x768.Slices ![256, 0] S128x64
  slices_S1024x768_o256_64_S128x64 : S1024x768.Slices ![256, 64] S128x64
  slices_S1024x768_o256_128_S128x64 : S1024x768.Slices ![256, 128] S128x64
  slices_S1024x768_o256_192_S128x64 : S1024x768.Slices ![256, 192] S128x64
  slices_S1024x768_o256_256_S128x64 : S1024x768.Slices ![256, 256] S128x64
  slices_S1024x768_o256_320_S128x64 : S1024x768.Slices ![256, 320] S128x64
  slices_S1024x768_o256_384_S128x64 : S1024x768.Slices ![256, 384] S128x64
  slices_S1024x768_o256_448_S128x64 : S1024x768.Slices ![256, 448] S128x64
  slices_S1024x768_o256_512_S128x64 : S1024x768.Slices ![256, 512] S128x64
  slices_S1024x768_o256_576_S128x64 : S1024x768.Slices ![256, 576] S128x64
  slices_S1024x768_o256_640_S128x64 : S1024x768.Slices ![256, 640] S128x64
  slices_S1024x768_o256_704_S128x64 : S1024x768.Slices ![256, 704] S128x64
  slices_S1024x768_o384_0_S128x64 : S1024x768.Slices ![384, 0] S128x64
  slices_S1024x768_o384_64_S128x64 : S1024x768.Slices ![384, 64] S128x64
  slices_S1024x768_o384_128_S128x64 : S1024x768.Slices ![384, 128] S128x64
  slices_S1024x768_o384_192_S128x64 : S1024x768.Slices ![384, 192] S128x64
  slices_S1024x768_o384_256_S128x64 : S1024x768.Slices ![384, 256] S128x64
  slices_S1024x768_o384_320_S128x64 : S1024x768.Slices ![384, 320] S128x64
  slices_S1024x768_o384_384_S128x64 : S1024x768.Slices ![384, 384] S128x64
  slices_S1024x768_o384_448_S128x64 : S1024x768.Slices ![384, 448] S128x64
  slices_S1024x768_o384_512_S128x64 : S1024x768.Slices ![384, 512] S128x64
  slices_S1024x768_o384_576_S128x64 : S1024x768.Slices ![384, 576] S128x64
  slices_S1024x768_o384_640_S128x64 : S1024x768.Slices ![384, 640] S128x64
  slices_S1024x768_o384_704_S128x64 : S1024x768.Slices ![384, 704] S128x64
  slices_S1024x768_o512_0_S128x64 : S1024x768.Slices ![512, 0] S128x64
  slices_S1024x768_o512_64_S128x64 : S1024x768.Slices ![512, 64] S128x64
  slices_S1024x768_o512_128_S128x64 : S1024x768.Slices ![512, 128] S128x64
  slices_S1024x768_o512_192_S128x64 : S1024x768.Slices ![512, 192] S128x64
  slices_S1024x768_o512_256_S128x64 : S1024x768.Slices ![512, 256] S128x64
  slices_S1024x768_o512_320_S128x64 : S1024x768.Slices ![512, 320] S128x64
  slices_S1024x768_o512_384_S128x64 : S1024x768.Slices ![512, 384] S128x64
  slices_S1024x768_o512_448_S128x64 : S1024x768.Slices ![512, 448] S128x64
  slices_S1024x768_o512_512_S128x64 : S1024x768.Slices ![512, 512] S128x64
  slices_S1024x768_o512_576_S128x64 : S1024x768.Slices ![512, 576] S128x64
  slices_S1024x768_o512_640_S128x64 : S1024x768.Slices ![512, 640] S128x64
  slices_S1024x768_o512_704_S128x64 : S1024x768.Slices ![512, 704] S128x64
  slices_S1024x768_o640_0_S128x64 : S1024x768.Slices ![640, 0] S128x64
  slices_S1024x768_o640_64_S128x64 : S1024x768.Slices ![640, 64] S128x64
  slices_S1024x768_o640_128_S128x64 : S1024x768.Slices ![640, 128] S128x64
  slices_S1024x768_o640_192_S128x64 : S1024x768.Slices ![640, 192] S128x64
  slices_S1024x768_o640_256_S128x64 : S1024x768.Slices ![640, 256] S128x64
  slices_S1024x768_o640_320_S128x64 : S1024x768.Slices ![640, 320] S128x64
  slices_S1024x768_o640_384_S128x64 : S1024x768.Slices ![640, 384] S128x64
  slices_S1024x768_o640_448_S128x64 : S1024x768.Slices ![640, 448] S128x64
  slices_S1024x768_o640_512_S128x64 : S1024x768.Slices ![640, 512] S128x64
  slices_S1024x768_o640_576_S128x64 : S1024x768.Slices ![640, 576] S128x64
  slices_S1024x768_o640_640_S128x64 : S1024x768.Slices ![640, 640] S128x64
  slices_S1024x768_o640_704_S128x64 : S1024x768.Slices ![640, 704] S128x64
  slices_S1024x768_o768_0_S128x64 : S1024x768.Slices ![768, 0] S128x64
  slices_S1024x768_o768_64_S128x64 : S1024x768.Slices ![768, 64] S128x64
  slices_S1024x768_o768_128_S128x64 : S1024x768.Slices ![768, 128] S128x64
  slices_S1024x768_o768_192_S128x64 : S1024x768.Slices ![768, 192] S128x64
  slices_S1024x768_o768_256_S128x64 : S1024x768.Slices ![768, 256] S128x64
  slices_S1024x768_o768_320_S128x64 : S1024x768.Slices ![768, 320] S128x64
  slices_S1024x768_o768_384_S128x64 : S1024x768.Slices ![768, 384] S128x64
  slices_S1024x768_o768_448_S128x64 : S1024x768.Slices ![768, 448] S128x64
  slices_S1024x768_o768_512_S128x64 : S1024x768.Slices ![768, 512] S128x64
  slices_S1024x768_o768_576_S128x64 : S1024x768.Slices ![768, 576] S128x64
  slices_S1024x768_o768_640_S128x64 : S1024x768.Slices ![768, 640] S128x64
  slices_S1024x768_o768_704_S128x64 : S1024x768.Slices ![768, 704] S128x64
  slices_S1024x768_o896_0_S128x64 : S1024x768.Slices ![896, 0] S128x64
  slices_S1024x768_o896_64_S128x64 : S1024x768.Slices ![896, 64] S128x64
  slices_S1024x768_o896_128_S128x64 : S1024x768.Slices ![896, 128] S128x64
  slices_S1024x768_o896_192_S128x64 : S1024x768.Slices ![896, 192] S128x64
  slices_S1024x768_o896_256_S128x64 : S1024x768.Slices ![896, 256] S128x64
  slices_S1024x768_o896_320_S128x64 : S1024x768.Slices ![896, 320] S128x64
  slices_S1024x768_o896_384_S128x64 : S1024x768.Slices ![896, 384] S128x64
  slices_S1024x768_o896_448_S128x64 : S1024x768.Slices ![896, 448] S128x64
  slices_S1024x768_o896_512_S128x64 : S1024x768.Slices ![896, 512] S128x64
  slices_S1024x768_o896_576_S128x64 : S1024x768.Slices ![896, 576] S128x64
  slices_S1024x768_o896_640_S128x64 : S1024x768.Slices ![896, 640] S128x64
  slices_S1024x768_o896_704_S128x64 : S1024x768.Slices ![896, 704] S128x64
  concatenates_S128x768_S128x768_S128x768_S128x768_S128x768_S128x768_S128x768_S128x768_S1024x768_d0 : Shape.Concatenates [S128x768, S128x768, S128x768, S128x768, S128x768, S128x768, S128x768, S128x768] S1024x768 0
  reduces_S1024x768_S1024 : S1024x768.Reduces [1] S1024
  shapeCasts_S1024_S1024x1 : S1024.ShapeCasts S1024x1
  broadcasts_S1024x1_S1024x768 : S1024x1.Broadcasts S1024x768
  shapeCasts_S8192x768_S64x128x768 : S8192x768.ShapeCasts S64x128x768
  dot_S1024x768_S768x768_S1024x768_1_1_0_0_n_n_wf : DotDims.WF S1024x768 S768x768 S1024x768 [1] [1] [0] [0] [] []
  dot_S128x64_S128x64_S128x128_1_1_0_0_n_n_wf : DotDims.WF S128x64 S128x64 S128x128 [1] [1] [0] [0] [] []
  dot_S128x128_S128x64_S128x64_0_0_1_1_n_n_wf : DotDims.WF S128x128 S128x64 S128x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S8192x768.size a
  hwx0_0 : ∀ i : grid0.Coords, EltTy.bits .f32 = 32 ∨ (Rect.block (s := S8192x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .bf16 = 32 ∨ (Rect.block (s := S768x768) S768x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .bf16 = 32 ∨ (Rect.block (s := S768x768) S768x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x768.size a ≤ S768x768.size a
  hwx0_4 : ∀ i : grid0.Coords, EltTy.bits .bf16 = 32 ∨ (Rect.block (s := S768x768) S768x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x768.size a ≤ S1x768.size a
  hwx0_6 : ∀ i : grid0.Coords, EltTy.bits .f32 = 32 ∨ (Rect.block (s := S1x768) S1x768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x768.size a ≤ S1x768.size a
  hwx0_7 : ∀ i : grid0.Coords, EltTy.bits .f32 = 32 ∨ (Rect.block (s := S1x768) S1x768.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x768.size a ≤ S1x768.size a
  hwx0_8 : ∀ i : grid0.Coords, EltTy.bits .f32 = 32 ∨ (Rect.block (s := S1x768) S1x768.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x768.size a ≤ S1x768.size a
  hwx0_9 : ∀ i : grid0.Coords, EltTy.bits .f32 = 32 ∨ (Rect.block (s := S1x768) S1x768.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x768.size a ≤ S1x768.size a
  hwx0_10 : ∀ i : grid0.Coords, EltTy.bits .f32 = 32 ∨ (Rect.block (s := S1x768) S1x768.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x768.size a ≤ S8192x768.size a
  hwx0_11 : ∀ i : grid0.Coords, EltTy.bits .f32 = 32 ∨ (Rect.block (s := S8192x768) S1024x768.size (cc0_transform_11 i) (hinb0_11 i)).WholeWords (EltTy.packing .f32)

variable [Facts₀]

def dot_S1024x768_S768x768_S1024x768_1_1_0_0_n_n : DotDims S1024x768 S768x768 S1024x768 where
  lhsContracting := [1]
  rhsContracting := [1]
  lhsNonContracting := [0]
  rhsNonContracting := [0]
  lhsBatch := []
  rhsBatch := []
  wf := dot_S1024x768_S768x768_S1024x768_1_1_0_0_n_n_wf
def dot_S128x64_S128x64_S128x128_1_1_0_0_n_n : DotDims S128x64 S128x64 S128x128 where
  lhsContracting := [1]
  rhsContracting := [1]
  lhsNonContracting := [0]
  rhsNonContracting := [0]
  lhsBatch := []
  rhsBatch := []
  wf := dot_S128x64_S128x64_S128x128_1_1_0_0_n_n_wf
def dot_S128x128_S128x64_S128x64_0_0_1_1_n_n : DotDims S128x128 S128x64 S128x64 where
  lhsContracting := [0]
  rhsContracting := [0]
  lhsNonContracting := [1]
  rhsNonContracting := [1]
  lhsBatch := []
  rhsBatch := []
  wf := dot_S128x128_S128x64_S128x64_0_0_1_1_n_n_wf

abbrev win0_0 : Pipeline.Window sig grid0 :=
  Pipeline.Window.ofSpec (Memref.whole main_v0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S768x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1x768.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1x768.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S1024x768.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S64x128x768 : Shape := ⟨3, ![64, 128, 768]⟩
abbrev S768x768 : Shape := ⟨2, ![768, 768]⟩
abbrev S768 : Shape := ⟨1, ![768]⟩
abbrev S8192x768 : Shape := ⟨2, ![8192, 768]⟩
abbrev S1x768 : Shape := ⟨2, ![1, 768]⟩
abbrev S512x768 : Shape := ⟨2, ![512, 768]⟩
abbrev S64x128x12x64 : Shape := ⟨4, ![64, 128, 12, 64]⟩
abbrev S64x12x128x64 : Shape := ⟨4, ![64, 12, 128, 64]⟩
abbrev S768x128x64 : Shape := ⟨3, ![768, 128, 64]⟩
abbrev S1x128x64 : Shape := ⟨3, ![1, 128, 64]⟩
abbrev S128x64 : Shape := ⟨2, ![128, 64]⟩
abbrev S128x128 : Shape := ⟨2, ![128, 128]⟩
abbrev S128 : Shape := ⟨1, ![128]⟩
abbrev S128x1 : Shape := ⟨2, ![128, 1]⟩
abbrev S512 : Shape := ⟨1, ![512]⟩
abbrev S512x1 : Shape := ⟨2, ![512, 1]⟩

abbrev nBuf : Space → Nat
  | .hbm => 40
  | .vmem => 32
  | .smem => 0
  | _ => 0

abbrev bufTy : (tb : Table) → Fin (tcTables nBuf tb) → BufTy
  | .hbm, ⟨0, _⟩ => ⟨S64x128x768, .f32⟩
  | .hbm, ⟨1, _⟩ => ⟨S768x768, .f32⟩
  | .hbm, ⟨2, _⟩ => ⟨S768x768, .f32⟩
  | .hbm, ⟨3, _⟩ => ⟨S768x768, .f32⟩
  | .hbm, ⟨4, _⟩ => ⟨S768x768, .f32⟩
  | .hbm, ⟨5, _⟩ => ⟨S768, .f32⟩
  | .hbm, ⟨6, _⟩ => ⟨S768, .f32⟩
  | .hbm, ⟨7, _⟩ => ⟨S768, .f32⟩
  | .hbm, ⟨8, _⟩ => ⟨S768, .f32⟩
  | .hbm, ⟨9, _⟩ => ⟨S768, .f32⟩
  | .hbm, ⟨10, _⟩ => ⟨S768, .f32⟩
  | .hbm, ⟨11, _⟩ => ⟨S8192x768, .f32⟩
  | .hbm, ⟨12, _⟩ => ⟨S768x768, .f32⟩
  | .hbm, ⟨13, _⟩ => ⟨S768x768, .f32⟩
  | .hbm, ⟨14, _⟩ => ⟨S768x768, .f32⟩
  | .hbm, ⟨15, _⟩ => ⟨S768x768, .f32⟩
  | .hbm, ⟨16, _⟩ => ⟨S1x768, .f32⟩
  | .hbm, ⟨17, _⟩ => ⟨S1x768, .f32⟩
  | .hbm, ⟨18, _⟩ => ⟨S1x768, .f32⟩
  | .hbm, ⟨19, _⟩ => ⟨S1x768, .f32⟩
  | .hbm, ⟨20, _⟩ => ⟨S1x768, .f32⟩
  | .hbm, ⟨21, _⟩ => ⟨S1x768, .f32⟩
  | .hbm, ⟨22, _⟩ => ⟨S8192x768, .f32⟩
  | .hbm, ⟨23, _⟩ => ⟨S8192x768, .f32⟩
  | .hbm, ⟨24, _⟩ => ⟨S8192x768, .f32⟩
  | .hbm, ⟨25, _⟩ => ⟨S64x128x12x64, .f32⟩
  | .hbm, ⟨26, _⟩ => ⟨S64x12x128x64, .f32⟩
  | .hbm, ⟨27, _⟩ => ⟨S768x128x64, .f32⟩
  | .hbm, ⟨28, _⟩ => ⟨S64x128x12x64, .f32⟩
  | .hbm, ⟨29, _⟩ => ⟨S64x12x128x64, .f32⟩
  | .hbm, ⟨30, _⟩ => ⟨S768x128x64, .f32⟩
  | .hbm, ⟨31, _⟩ => ⟨S64x128x12x64, .f32⟩
  | .hbm, ⟨32, _⟩ => ⟨S64x12x128x64, .f32⟩
  | .hbm, ⟨33, _⟩ => ⟨S768x128x64, .f32⟩
  | .hbm, ⟨34, _⟩ => ⟨S768x128x64, .f32⟩
  | .hbm, ⟨35, _⟩ => ⟨S64x12x128x64, .f32⟩
  | .hbm, ⟨36, _⟩ => ⟨S64x128x12x64, .f32⟩
  | .hbm, ⟨37, _⟩ => ⟨S8192x768, .f32⟩
  | .hbm, ⟨38, _⟩ => ⟨S8192x768, .f32⟩
  | .hbm, ⟨39, _⟩ => ⟨S64x128x768, .f32⟩
  | .local _ .vmem, ⟨0, _⟩ => ⟨S512x768, .f32⟩
  | .local _ .vmem, ⟨1, _⟩ => ⟨S512x768, .f32⟩
  | .local _ .vmem, ⟨2, _⟩ => ⟨S768x768, .f32⟩
  | .local _ .vmem, ⟨3, _⟩ => ⟨S768x768, .f32⟩
  | .local _ .vmem, ⟨4, _⟩ => ⟨S768x768, .f32⟩
  | .local _ .vmem, ⟨5, _⟩ => ⟨S1x768, .f32⟩
  | .local _ .vmem, ⟨6, _⟩ => ⟨S1x768, .f32⟩
  | .local _ .vmem, ⟨7, _⟩ => ⟨S1x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | .local _ .vmem, ⟨14, _⟩ => ⟨S1x128x64, .f32⟩
  | .local _ .vmem, ⟨15, _⟩ => ⟨S1x128x64, .f32⟩
  | .local _ .vmem, ⟨16, _⟩ => ⟨S1x128x64, .f32⟩
  | .local _ .vmem, ⟨17, _⟩ => ⟨S1x128x64, .f32⟩
  | .local _ .vmem, ⟨18, _⟩ => ⟨S1x128x64, .f32⟩
  | .local _ .vmem, ⟨19, _⟩ => ⟨S1x128x64, .f32⟩
  | .local _ .vmem, ⟨20, _⟩ => ⟨S1x128x64, .f32⟩
  | .local _ .vmem, ⟨21, _⟩ => ⟨S1x128x64, .f32⟩
  | .local _ .vmem, ⟨22, _⟩ => ⟨S512x768, .f32⟩
  | .local _ .vmem, ⟨23, _⟩ => ⟨S512x768, .f32⟩
  | .local _ .vmem, ⟨24, _⟩ => ⟨S512x768, .f32⟩
  | .local _ .vmem, ⟨25, _⟩ => ⟨S512x768, .f32⟩
  | .local _ .vmem, ⟨26, _⟩ => ⟨S768x768, .f32⟩
  | .local _ .vmem, ⟨27, _⟩ => ⟨S1x768, .f32⟩
  | .local _ .vmem, ⟨28, _⟩ => ⟨S1x768, .f32⟩
  | .local _ .vmem, ⟨29, _⟩ => ⟨S1x768, .f32⟩
  | .local _ .vmem, ⟨30, _⟩ => ⟨S512x768, .f32⟩
  | .local _ .vmem, ⟨31, _⟩ => ⟨S512x768, .f32⟩
  | _, _ => ⟨S64x128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![768], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x768 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S768x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x768 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x768 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x768 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x768 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  shapeCasts_S64x128x768_S8192x768 : S64x128x768.ShapeCasts S8192x768
  transposes_S768x768_S768x768_1_0 : S768x768.Transposes [1, 0] S768x768
  shapeCasts_S768_S1x768 : S768.ShapeCasts S1x768
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  shapeCasts_S8192x768_S64x128x12x64 : S8192x768.ShapeCasts S64x128x12x64
  transposes_S64x128x12x64_S64x12x128x64_0_2_1_3 : S64x128x12x64.Transposes [0, 2, 1, 3] S64x12x128x64
  shapeCasts_S64x12x128x64_S768x128x64 : S64x12x128x64.ShapeCasts S768x128x64
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  reduces_S128x128_S128 : S128x128.Reduces [1] S128
  shapeCasts_S128_S128x1 : S128.ShapeCasts S128x1
  broadcasts_S128x1_S128x128 : S128x1.Broadcasts S128x128
  shapeCasts_S128x64_S1x128x64 : S128x64.ShapeCasts S1x128x64
  shapeCasts_S768x128x64_S64x12x128x64 : S768x128x64.ShapeCasts S64x12x128x64
  transposes_S64x12x128x64_S64x128x12x64_0_2_1_3 : S64x12x128x64.Transposes [0, 2, 1, 3] S64x128x12x64
  shapeCasts_S64x128x12x64_S8192x768 : S64x128x12x64.ShapeCasts S8192x768
  reduces_S512x768_S512 : S512x768.Reduces [1] S512
  shapeCasts_S512_S512x1 : S512.ShapeCasts S512x1
  broadcasts_S512x1_S512x768 : S512x1.Broadcasts S512x768
  shapeCasts_S8192x768_S64x128x768 : S8192x768.ShapeCasts S64x128x768
  dot_S512x768_S768x768_S512x768_1_0_0_1_n_n_wf : DotDims.WF S512x768 S768x768 S512x768 [1] [0] [0] [1] [] []
  dot_S128x64_S128x64_S128x128_1_1_0_0_n_n_wf : DotDims.WF S128x64 S128x64 S128x128 [1] [1] [0] [0] [] []
  dot_S128x128_S128x64_S128x64_1_0_0_1_n_n_wf : DotDims.WF S128x128 S128x64 S128x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S8192x768.size a
  hwx0_0 : ∀ i : grid0.Coords, EltTy.bits .f32 = 32 ∨ (Rect.block (s := S8192x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .f32 = 32 ∨ (Rect.block (s := S768x768) S768x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .f32 = 32 ∨ (Rect.block (s := S768x768) S768x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x768.size a ≤ S1x768.size a
  hwx0_6 : ∀ i : grid0.Coords, EltTy.bits .f32 = 32 ∨ (Rect.block (s := S1x768) S1x768.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x768.size a ≤ S8192x768.size a
  hwx0_7 : ∀ i : grid0.Coords, EltTy.bits .f32 = 32 ∨ (Rect.block (s := S8192x768) S512x768.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x768.size a ≤ S8192x768.size a
  hwx0_8 : ∀ i : grid0.Coords, EltTy.bits .f32 = 32 ∨ (Rect.block (s := S8192x768) S512x768.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x768.size a ≤ S8192x768.size a
  hwx0_9 : ∀ i : grid0.Coords, EltTy.bits .f32 = 32 ∨ (Rect.block (s := S8192x768) S512x768.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x64.size a ≤ S768x128x64.size a
  hwx1_0 : ∀ i : grid1.Coords, EltTy.bits .f32 = 32 ∨ (Rect.block (s := S768x128x64) S1x128x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x64.size a ≤ S768x128x64.size a
  hwx1_1 : ∀ i : grid1.Coords, EltTy.bits .f32 = 32 ∨ (Rect.block (s := S768x128x64) S1x128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x64.size a ≤ S768x128x64.size a
  hwx1_2 : ∀ i : grid1.Coords, EltTy.bits .f32 = 32 ∨ (Rect.block (s := S768x128x64) S1x128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x64.size a ≤ S768x128x64.size a
  hwx1_3 : ∀ i : grid1.Coords, EltTy.bits .f32 = 32 ∨ (Rect.block (s := S768x128x64) S1x128x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x768.size a ≤ S8192x768.size a
  hwx2_0 : ∀ i : grid2.Coords, EltTy.bits .f32 = 32 ∨ (Rect.block (s := S8192x768) S512x768.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x768.size a ≤ S8192x768.size a
  hwx2_1 : ∀ i : grid2.Coords, EltTy.bits .f32 = 32 ∨ (Rect.block (s := S8192x768) S512x768.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S768x768.size a ≤ S768x768.size a
  hwx2_2 : ∀ i : grid2.Coords, EltTy.bits .f32 = 32 ∨ (Rect.block (s := S768x768) S768x768.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x768.size a ≤ S1x768.size a
  hwx2_3 : ∀ i : grid2.Coords, EltTy.bits .f32 = 32 ∨ (Rect.block (s := S1x768) S1x768.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x768.size a ≤ S1x768.size a
  hwx2_4 : ∀ i : grid2.Coords, EltTy.bits .f32 = 32 ∨ (Rect.block (s := S1x768) S1x768.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x768.size a ≤ S1x768.size a
  hwx2_5 : ∀ i : grid2.Coords, EltTy.bits .f32 = 32 ∨ (Rect.block (s := S1x768) S1x768.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x768.size a ≤ S8192x768.size a
  hwx2_6 : ∀ i : grid2.Coords, EltTy.bits .f32 = 32 ∨ (Rect.block (s := S8192x768) S512x768.size (cc2_transform_6 i) (hinb2_6 i)).WholeWords (EltTy.packing .f32)

variable [Facts₀]

def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf
def dot_S128x64_S128x64_S128x128_1_1_0_0_n_n : DotDims S128x64 S128x64 S128x128 where
  lhsContracting := [1]
  rhsContracting := [1]
  lhsNonContracting := [0]
  rhsNonContracting := [0]
  lhsBatch := []
  rhsBatch := []
  wf := dot_S128x64_S128x64_S128x128_1_1_0_0_n_n_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf

abbrev win0_0 : Pipeline.Window sig grid0 :=
  Pipeline.Window.ofSpec (Memref.whole main_v0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11_0) S512x768.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v11_1) S512x768.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v11_2) S512x768.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v14) S1x128x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x128x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x128x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x128x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v24) S512x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S512x768.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S768x768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S1x768.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9) S1x768.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v10) S1x768.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v25) S512x768.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== Proof.KDefs.lean ====
/-
  The fused kernel's body as regular definitions, at any float instance.

  The body computes, on a block of 1024 rows (8 batches of 128 positions):
  the three projections (a bf16 matrix product with the weights stored (out, in), plus the bias; the queries also
  scaled by 1/8), then for each of the 8 batches and 12 heads one attention head on the 128 x 64 slices at row offset
  128 * batch and column offset 64 * head (`headT`: transposed scores, column maximum, exponential, two products
  with the values and with a matrix of ones, their quotient), the heads of a batch laid side by side (`rowBlk`), the
  batches stacked (`ctxAll`), the output projection plus bias plus the residual (`hres`), and the row-wise layer
  normalisation (`lnT`).  `body` is the whole value the body stores.
-/
import proofs.«120191_g2000702396236789_pallasbulk_1056_11_alg».proof.Proof.Gen.KernelIdeal

noncomputable section

namespace Cert.KernelIdeal.KV

open Idealize.ShloMosaic Idealize.SL.Sem Cert.KernelIdeal
open Cert.KernelIdeal.Facts₀ Cert.KernelIdeal.Facts

variable {F : FTy → Type} [FloatOps F]

/-- A 128 x 64 window at row offset r, column offset c fits in the 1024 x 768 block. -/
theorem slicesAt (r c : Nat) (hr : r + 128 ≤ 1024) (hc : c + 64 ≤ 768) : S1024x768.Slices ![r, c] S128x64 :=
  ⟨rfl, fun a => match a with
    | ⟨0, _⟩ => by show r + 128 ≤ 1024; omega
    | ⟨1, _⟩ => by show c + 64 ≤ 768; omega⟩

/-- One projection before rounding: the block times the (out, in) weights, plus the bias row. -/
def proj (x : Vec F S1024x768 .f32) (w : Vec F S768x768 .bf16) (b : Vec F S1x768 .f32) : FVec F S1024x768 .f32 :=
  addf (matmul dot_S1024x768_S768x768_S1024x768_1_1_0_0_n_n none
          (truncf .bf16 (shapeCast S1024x768 x shapeCasts_S1024x768_S1024x768) bitsLt_bf16_f32)
          (shapeCast S768x768 w shapeCasts_S768x768_S768x768) (constant S1024x768 .f32 0x00000000#32))
       (broadcastTo S1024x768 (shapeCast S1x768 b shapeCasts_S1x768_S1x768) broadcasts_S1x768_S1024x768)

/-- The queries: the projection scaled by 1/8. -/
def qB (x : Vec F S1024x768 .f32) (w : Vec F S768x768 .bf16) (b : Vec F S1x768 .f32) : FVec F S1024x768 .bf16 :=
  truncf .bf16 (mulf (proj x w b) (broadcast S1024x768 (Scalar.ofBits .f32 0x3E000000#32))) bitsLt_bf16_f32
/-- The keys, and the values: the projection. -/
def kvB (x : Vec F S1024x768 .f32) (w : Vec F S768x768 .bf16) (b : Vec F S1x768 .f32) : FVec F S1024x768 .bf16 :=
  truncf .bf16 (proj x w b) bitsLt_bf16_f32
/-- The 128 x 64 matrix of ones. -/
def onesB : FVec F S128x64 .bf16 := broadcast S128x64 (Scalar.ofBits .bf16 0x3F80#16)

/-- Transposed scores of the head at offset `off`: entry (j, i) is key row j against query row i. -/
def scoreT (q k : FVec F S1024x768 .bf16) (off : Fin 2 → Nat) (hs : S1024x768.Slices off S128x64) : FVec F S128x128 .f32 :=
  matmul dot_S128x64_S128x64_S128x128_1_1_0_0_n_n none (extractStridedSlice S128x64 off k hs)
    (extractStridedSlice S128x64 off q hs) (constant S128x128 .f32 0x00000000#32)

/-- The unnormalised weights: the exponential of the scores less each column's maximum. -/
def wgtT (q k : FVec F S1024x768 .bf16) (off : Fin 2 → Nat) (hs : S1024x768.Slices off S128x64) : FVec F S128x128 .f32 :=
  exp (subf (scoreT q k off hs)
    (broadcastTo S128x128 (shapeCast S1x128 (multiReduction .maximumf [0] S128 (scoreT q k off hs) 0xFF800000#32
      reduces_S128x128_S128 (.inl rfl) rfl) shapeCasts_S128_S1x128) broadcasts_S1x128_S128x128))

/-- One head: the weights against the values, over the weights against ones. -/
def headT (q k v : FVec F S1024x768 .bf16) (ones : FVec F S128x64 .bf16) (off : Fin 2 → Nat)
    (hs : S1024x768.Slices off S128x64) : FVec F S128x64 .bf16 :=
  truncf .bf16 (divf
    (matmul dot_S128x128_S128x64_S128x64_0_0_1_1_n_n none (truncf .bf16 (wgtT q k off hs) bitsLt_bf16_f32)
      (extractStridedSlice S128x64 off v hs) (constant S128x64 .f32 0x00000000#32))
    (matmul dot_S128x128_S128x64_S128x64_0_0_1_1_n_n none (truncf .bf16 (wgtT q k off hs) bitsLt_bf16_f32)
      ones (constant S128x64 .f32 0x00000000#32))) bitsLt_bf16_f32

/-- The 12 heads of the batch at row offset 0, side by side. -/
def rowBlk0 (q k v : FVec F S1024x768 .bf16) (ones : FVec F S128x64 .bf16) : FVec F S128x768 .bf16 :=
  concatenate S128x768 1 [
      ⟨S128x64, headT q k v ones ![0, 0] (slicesAt 0 0 (by omega) (by omega))⟩,
      ⟨S128x64, headT q k v ones ![0, 64] (slicesAt 0 64 (by omega) (by omega))⟩,
      ⟨S128x64, headT q k v ones ![0, 128] (slicesAt 0 128 (by omega) (by omega))⟩,
      ⟨S128x64, headT q k v ones ![0, 192] (slicesAt 0 192 (by omega) (by omega))⟩,
      ⟨S128x64, headT q k v ones ![0, 256] (slicesAt 0 256 (by omega) (by omega))⟩,
      ⟨S128x64, headT q k v ones ![0, 320] (slicesAt 0 320 (by omega) (by omega))⟩,
      ⟨S128x64, headT q k v ones ![0, 384] (slicesAt 0 384 (by omega) (by omega))⟩,
      ⟨S128x64, headT q k v ones ![0, 448] (slicesAt 0 448 (by omega) (by omega))⟩,
      ⟨S128x64, headT q k v ones ![0, 512] (slicesAt 0 512 (by omega) (by omega))⟩,
      ⟨S128x64, headT q k v ones ![0, 576] (slicesAt 0 576 (by omega) (by omega))⟩,
      ⟨S128x64, headT q k v ones ![0, 640] (slicesAt 0 640 (by omega) (by omega))⟩,
      ⟨S128x64, headT q k v ones ![0, 704] (slicesAt 0 704 (by omega) (by omega))⟩]
    concatenates_S128x64_S128x64_S128x64_S128x64_S128x64_S128x64_S128x64_S128x64_S128x64_S128x64_S128x64_S128x64_S128x768_d1

/-- The 12 heads of the batch at row offset 128, side by side. -/
def rowBlk128 (q k v : FVec F S1024x768 .bf16) (ones : FVec F S128x64 .bf16) : FVec F S128x768 .bf16 :=
  concatenate S128x768 1 [
      ⟨S128x64, headT q k v ones ![128, 0] (slicesAt 128 0 (by omega) (by omega))⟩,
      ⟨S128x64, headT q k v ones ![128, 64] (slicesAt 128 64 (by omega) (by omega))⟩,
      ⟨S128x64, headT q k v ones ![128, 128] (slicesAt 128 128 (by omega) (by omega))⟩,
      ⟨S128x64, headT q k v ones ![128, 192] (slicesAt 128 192 (by omega) (by omega))⟩,
      ⟨S128x64, headT q k v ones ![128, 256] (slicesAt 128 256 (by omega) (by omega))⟩,
      ⟨S128x64, headT q k v ones ![128, 320] (slicesAt 128 320 (by omega) (by omega))⟩,
      ⟨S128x64, headT q k v ones ![128, 384] (slicesAt 128 384 (by omega) (by omega))⟩,
      ⟨S128x64, headT q k v ones ![128, 448] (slicesAt 128 448 (by omega) (by omega))⟩,
      ⟨S128x64, headT q k v ones ![128, 512] (slicesAt 128 512 (by omega) (by omega))⟩,
      ⟨S128x64, headT q k v ones ![128, 576] (slicesAt 128 576 (by omega) (by omega))⟩,
      ⟨S128x64, headT q k v ones ![128, 640] (slicesAt 128 640 (by omega) (by omega))⟩,
      ⟨S128x64, headT q k v ones ![128, 704] (slicesAt 128 704 (by omega) (by omega))⟩]
    concatenates_S128x64_S128x64_S128x64_S128x64_S128x64_S128x64_S128x64_S128x64_S128x64_S128x64_S128x64_S128x64_S128x768_d1

/-- The 12 heads of the batch at row offset 256, side by side. -/
def rowBlk256 (q k v : FVec F S1024x768 .bf16) (ones : FVec F S128x64 .bf16) : FVec F S128x768 .bf16 :=
  concatenate S128x768 1 [
      ⟨S128x64, headT q k v ones ![256, 0] (slicesAt 256 0 (by omega) (by omega))⟩,
      ⟨S128x64, headT q k v ones ![256, 64] (slicesAt 256 64 (by omega) (by omega))⟩,
      ⟨S128x64, headT q k v ones ![256, 128] (slicesAt 256 128 (by omega) (by omega))⟩,
      ⟨S128x64, headT q k v ones ![256, 192] (slicesAt 256 192 (by omega) (by omega))⟩,
      ⟨S128x64, headT q k v ones ![256, 256] (slicesAt 256 256 (by omega) (by omega))⟩,
      ⟨S128x64, headT q k v ones ![256, 320] (slicesAt 256 320 (by omega) (by omega))⟩,
      ⟨S128x64, headT q k v ones ![256, 384] (slicesAt 256 384 (by omega) (by omega))⟩,
      ⟨S128x64, headT q k v ones ![256, 448] (slicesAt 256 448 (by omega) (by omega))⟩,
      ⟨S128x64, headT q k v ones ![256, 512] (slicesAt 256 512 (by omega) (by omega))⟩,
      ⟨S128x64, headT q k v ones ![256, 576] (slicesAt 256 576 (by omega) (by omega))⟩,
      ⟨S128x64, headT q k v ones ![256, 640] (slicesAt 256 640 (by omega) (by omega))⟩,
      ⟨S128x64, headT q k v ones ![256, 704] (slicesAt 256 704 (by omega) (by omega))⟩]
    concatenates_S128x64_S128x64_S128x64_S128x64_S128x64_S128x64_S128x64_S128x64_S128x64_S128x64_S128x64_S128x64_S128x768_d1

/-- The 12 heads of the batch at row offset 384, side by side. -/
def rowBlk384 (q k v : FVec F S1024x768 .bf16) (ones : FVec F S128x64 .bf16) : FVec F S128x768 .bf16 :=
  concatenate S128x768 1 [
      ⟨S128x64, headT q k v ones ![384, 0] (slicesAt 384 0 (by omega) (by omega))⟩,
      ⟨S128x64, headT q k v ones ![384, 64] (slicesAt 384 64 (by omega) (by omega))⟩,
      ⟨S128x64, headT q k v ones ![384, 128] (slicesAt 384 128 (by omega) (by omega))⟩,
      ⟨S128x64, headT q k v ones ![384, 192] (slicesAt 384 192 (by omega) (by omega))⟩,
      ⟨S128x64, headT q k v ones ![384, 256] (slicesAt 384 256 (by omega) (by omega))⟩,
      ⟨S128x64, headT q k v ones ![384, 320] (slicesAt 384 320 (by omega) (by omega))⟩,
      ⟨S128x64, headT q k v ones ![384, 384] (slicesAt 384 384 (by omega) (by omega))⟩,
      ⟨S128x64, headT q k v ones ![384, 448] (slicesAt 384 448 (by omega) (by omega))⟩,
      ⟨S128x64, headT q k v ones ![384, 512] (slicesAt 384 512 (by omega) (by omega))⟩,
      ⟨S128x64, headT q k v ones ![384, 576] (slicesAt 384 576 (by omega) (by omega))⟩,
      ⟨S128x64, headT q k v ones ![384, 640] (slicesAt 384 640 (by omega) (by omega))⟩,
      ⟨S128x64, headT q k v ones ![384, 704] (slicesAt 384 704 (by omega) (by omega))⟩]
    concatenates_S128x64_S128x64_S128x64_S128x64_S128x64_S128x64_S128x64_S128x64_S128x64_S128x64_S128x64_S128x64_S128x768_d1

/-- The 12 heads of the batch at row offset 512, side by side. -/
def rowBlk512 (q k v : FVec F S1024x768 .bf16) (ones : FVec F S128x64 .bf16) : FVec F S128x768 .bf16 :=
  concatenate S128x768 1 [
      ⟨S128x64, headT q k v ones ![512, 0] (slicesAt 512 0 (by omega) (by omega))⟩,
      ⟨S128x64, headT q k v ones ![512, 64] (slicesAt 512 64 (by omega) (by omega))⟩,
      ⟨S128x64, headT q k v ones ![512, 128] (slicesAt 512 128 (by omega) (by omega))⟩,
      ⟨S128x64, headT q k v ones ![512, 192] (slicesAt 512 192 (by omega) (by omega))⟩,
      ⟨S128x64, headT q k v ones ![512, 256] (slicesAt 512 256 (by omega) (by omega))⟩,
      ⟨S128x64, headT q k v ones ![512, 320] (slicesAt 512 320 (by omega) (by omega))⟩,
      ⟨S128x64, headT q k v ones ![512, 384] (slicesAt 512 384 (by omega) (by omega))⟩,
      ⟨S128x64, headT q k v ones ![512, 448] (slicesAt 512 448 (by omega) (by omega))⟩,
      ⟨S128x64, headT q k v ones ![512, 512] (slicesAt 512 512 (by omega) (by omega))⟩,
      ⟨S128x64, headT q k v ones ![512, 576] (slicesAt 512 576 (by omega) (by omega))⟩,
      ⟨S128x64, headT q k v ones ![512, 640] (slicesAt 512 640 (by omega) (by omega))⟩,
      ⟨S128x64, headT q k v ones ![512, 704] (slicesAt 512 704 (by omega) (by omega))⟩]
    concatenates_S128x64_S128x64_S128x64_S128x64_S128x64_S128x64_S128x64_S128x64_S128x64_S128x64_S128x64_S128x64_S128x768_d1

/-- The 12 heads of the batch at row offset 640, side by side. -/
def rowBlk640 (q k v : FVec F S1024x768 .bf16) (ones : FVec F S128x64 .bf16) : FVec F S128x768 .bf16 :=
  concatenate S128x768 1 [
      ⟨S128x64, headT q k v ones ![640, 0] (slicesAt 640 0 (by omega) (by omega))⟩,
      ⟨S128x64, headT q k v ones ![640, 64] (slicesAt 640 64 (by omega) (by omega))⟩,
      ⟨S128x64, headT q k v ones ![640, 128] (slicesAt 640 128 (by omega) (by omega))⟩,
      ⟨S128x64, headT q k v ones ![640, 192] (slicesAt 640 192 (by omega) (by omega))⟩,
      ⟨S128x64, headT q k v ones ![640, 256] (slicesAt 640 256 (by omega) (by omega))⟩,
      ⟨S128x64, headT q k v ones ![640, 320] (slicesAt 640 320 (by omega) (by omega))⟩,
      ⟨S128x64, headT q k v ones ![640, 384] (slicesAt 640 384 (by omega) (by omega))⟩,
      ⟨S128x64, headT q k v ones ![640, 448] (slicesAt 640 448 (by omega) (by omega))⟩,
      ⟨S128x64, headT q k v ones ![640, 512] (slicesAt 640 512 (by omega) (by omega))⟩,
      ⟨S128x64, headT q k v ones ![640, 576] (slicesAt 640 576 (by omega) (by omega))⟩,
      ⟨S128x64, headT q k v ones ![640, 640] (slicesAt 640 640 (by omega) (by omega))⟩,
      ⟨S128x64, headT q k v ones ![640, 704] (slicesAt 640 704 (by omega) (by omega))⟩]
    concatenates_S128x64_S128x64_S128x64_S128x64_S128x64_S128x64_S128x64_S128x64_S128x64_S128x64_S128x64_S128x64_S128x768_d1

/-- The 12 heads of the batch at row offset 768, side by side. -/
def rowBlk768 (q k v : FVec F S1024x768 .bf16) (ones : FVec F S128x64 .bf16) : FVec F S128x768 .bf16 :=
  concatenate S128x768 1 [
      ⟨S128x64, headT q k v ones ![768, 0] (slicesAt 768 0 (by omega) (by omega))⟩,
      ⟨S128x64, headT q k v ones ![768, 64] (slicesAt 768 64 (by omega) (by omega))⟩,
      ⟨S128x64, headT q k v ones ![768, 128] (slicesAt 768 128 (by omega) (by omega))⟩,
      ⟨S128x64, headT q k v ones ![768, 192] (slicesAt 768 192 (by omega) (by omega))⟩,
      ⟨S128x64, headT q k v ones ![768, 256] (slicesAt 768 256 (by omega) (by omega))⟩,
      ⟨S128x64, headT q k v ones ![768, 320] (slicesAt 768 320 (by omega) (by omega))⟩,
      ⟨S128x64, headT q k v ones ![768, 384] (slicesAt 768 384 (by omega) (by omega))⟩,
      ⟨S128x64, headT q k v ones ![768, 448] (slicesAt 768 448 (by omega) (by omega))⟩,
      ⟨S128x64, headT q k v ones ![768, 512] (slicesAt 768 512 (by omega) (by omega))⟩,
      ⟨S128x64, headT q k v ones ![768, 576] (slicesAt 768 576 (by omega) (by omega))⟩,
      ⟨S128x64, headT q k v ones ![768, 640] (slicesAt 768 640 (by omega) (by omega))⟩,
      ⟨S128x64, headT q k v ones ![768, 704] (slicesAt 768 704 (by omega) (by omega))⟩]
    concatenates_S128x64_S128x64_S128x64_S128x64_S128x64_S128x64_S128x64_S128x64_S128x64_S128x64_S128x64_S128x64_S128x768_d1

/-- The 12 heads of the batch at row offset 896, side by side. -/
def rowBlk896 (q k v : FVec F S1024x768 .bf16) (ones : FVec F S128x64 .bf16) : FVec F S128x768 .bf16 :=
  concatenate S128x768 1 [
      ⟨S128x64, headT q k v ones ![896, 0] (slicesAt 896 0 (by omega) (by omega))⟩,
      ⟨S128x64, headT q k v ones ![896, 64] (slicesAt 896 64 (by omega) (by omega))⟩,
      ⟨S128x64, headT q k v ones ![896, 128] (slicesAt 896 128 (by omega) (by omega))⟩,
      ⟨S128x64, headT q k v ones ![896, 192] (slicesAt 896 192 (by omega) (by omega))⟩,
      ⟨S128x64, headT q k v ones ![896, 256] (slicesAt 896 256 (by omega) (by omega))⟩,
      ⟨S128x64, headT q k v ones ![896, 320] (slicesAt 896 320 (by omega) (by omega))⟩,
      ⟨S128x64, headT q k v ones ![896, 384] (slicesAt 896 384 (by omega) (by omega))⟩,
      ⟨S128x64, headT q k v ones ![896, 448] (slicesAt 896 448 (by omega) (by omega))⟩,
      ⟨S128x64, headT q k v ones ![896, 512] (slicesAt 896 512 (by omega) (by omega))⟩,
      ⟨S128x64, headT q k v ones ![896, 576] (slicesAt 896 576 (by omega) (by omega))⟩,
      ⟨S128x64, headT q k v ones ![896, 640] (slicesAt 896 640 (by omega) (by omega))⟩,
      ⟨S128x64, headT q k v ones ![896, 704] (slicesAt 896 704 (by omega) (by omega))⟩]
    concatenates_S128x64_S128x64_S128x64_S128x64_S128x64_S128x64_S128x64_S128x64_S128x64_S128x64_S128x64_S128x64_S128x768_d1

/-- The 8 batches stacked. -/
def ctxAll (q k v : FVec F S1024x768 .bf16) (ones : FVec F S128x64 .bf16) : FVec F S1024x768 .bf16 :=
  concatenate S1024x768 0 [⟨S128x768, rowBlk0 q k v ones⟩, ⟨S128x768, rowBlk128 q k v ones⟩, ⟨S128x768, rowBlk256 q k v ones⟩,
      ⟨S128x768, rowBlk384 q k v ones⟩, ⟨S128x768, rowBlk512 q k v ones⟩, ⟨S128x768, rowBlk640 q k v ones⟩,
      ⟨S128x768, rowBlk768 q k v ones⟩, ⟨S128x768, rowBlk896 q k v ones⟩]
    concatenates_S128x768_S128x768_S128x768_S128x768_S128x768_S128x768_S128x768_S128x768_S1024x768_d0

/-- The output projection of the context, plus its bias, plus the residual block. -/
def hres (ctx : FVec F S1024x768 .bf16) (x : Vec F S1024x768 .f32) (wo : Vec F S768x768 .bf16) (bo : Vec F S1x768 .f32) :
    FVec F S1024x768 .f32 :=
  addf (addf (matmul dot_S1024x768_S768x768_S1024x768_1_1_0_0_n_n none ctx
          (shapeCast S768x768 wo shapeCasts_S768x768_S768x768) (constant S1024x768 .f32 0x00000000#32))
        (broadcastTo S1024x768 (shapeCast S1x768 bo shapeCasts_S1x768_S1x768) broadcasts_S1x768_S1024x768))
    (shapeCast S1024x768 x shapeCasts_S1024x768_S1024x768)

/-- The rows less their means. -/
def centred (h : FVec F S1024x768 .f32) : FVec F S1024x768 .f32 :=
  subf h (broadcastTo S1024x768 (divf (shapeCast S1024x1 (multiReduction .add [1] S1024 h 0x00000000#32
      reduces_S1024x768_S1024 (.inl rfl) rfl) shapeCasts_S1024_S1024x1) (broadcast S1024x1 (Scalar.ofBits .f32 0x44400000#32)))
    broadcasts_S1024x1_S1024x768)

/-- Row-wise layer normalisation with scale row `g` and shift row `be`. -/
def lnT (h : FVec F S1024x768 .f32) (g be : Vec F S1x768 .f32) : FVec F S1024x768 .f32 :=
  addf (mulf (mulf (centred h)
      (broadcastTo S1024x768 (rsqrt (addf (divf (shapeCast S1024x1 (multiReduction .add [1] S1024
          (mulf (centred h) (centred h)) 0x00000000#32 reduces_S1024x768_S1024 (.inl rfl) rfl) shapeCasts_S1024_S1024x1)
          (broadcast S1024x1 (Scalar.ofBits .f32 0x44400000#32))) (broadcast S1024x1 (Scalar.ofBits .f32 0x2B8CBCCC#32))))
        broadcasts_S1024x1_S1024x768))
      (broadcastTo S1024x768 (shapeCast S1x768 g shapeCasts_S1x768_S1x768) broadcasts_S1x768_S1024x768))
    (broadcastTo S1024x768 (shapeCast S1x768 be shapeCasts_S1x768_S1x768) broadcasts_S1x768_S1024x768)

/-- Everything the body stores, from the eleven blocks it loads. -/
def body (x0 : Vec F S1024x768 .f32) (x1 x2 x3 x4 : Vec F S768x768 .bf16) (x5 x6 x7 x8 x9 x10 : Vec F S1x768 .f32) :
    FVec F S1024x768 .f32 :=
  lnT (hres (ctxAll (qB x0 x1 x5) (kvB x0 x2 x6) (kvB x0 x3 x7) onesB) x0 x4 x8) x9 x10

end Cert.KernelIdeal.KV

end
-- ==== Proof.KStruct.lean ====
/-
  The value the generated frame records for the output window is the regular body of KDefs: the same operations
  in the same order, only grouped differently.
-/
import proofs.«120191_g2000702396236789_pallasbulk_1056_11_alg».proof.Proof.KDefs
import proofs.«120191_g2000702396236789_pallasbulk_1056_11_alg».proof.Proof.Gen.KernelIdeal.Frame

noncomputable section

namespace Cert.KernelIdeal.KV

open Idealize.ShloMosaic Idealize.SL.Sem Cert.KernelIdeal
open Cert.KernelIdeal.Facts₀ Cert.KernelIdeal.Facts

variable {F : FTy → Type} [FloatOps F]

theorem out_eq_body (x0 : Vec F S1024x768 .f32) (x1 x2 x3 x4 : Vec F S768x768 .bf16) (x5 x6 x7 x8 x9 x10 : Vec F S1x768 .f32) :
    Gen.out0_11 x0 x1 x2 x3 x4 x5 x6 x7 x8 x9 x10
      = View.canon [⟨Gen.r0_0, body (View.ld x0 Gen.r0_0) (View.ld x1 Gen.r0_1) (View.ld x2 Gen.r0_1) (View.ld x3 Gen.r0_1)
          (View.ld x4 Gen.r0_1) (View.ld x5 Gen.r0_2) (View.ld x6 Gen.r0_2) (View.ld x7 Gen.r0_2) (View.ld x8 Gen.r0_2)
          (View.ld x9 Gen.r0_2) (View.ld x10 Gen.r0_2)⟩] := by
  -- both sides unfold to the same term: the same operations on the same operands in the same order
  sl_kernel_rfl

end Cert.KernelIdeal.KV

end
-- ==== Proof.Spec.lean ====
/-
  The mathematics of one BERT self-attention block, stated once over plain functions into the extended reals.

  Rows of the activation are pairs (b, i): batch b of 64, position i of 128. Columns are features n of 768, and a
  feature is also a pair (h, e): head h of 12, lane e of 64, with n = 64 * h + e.

  * `dense x w b n` is one output feature of a dense layer with weights stored (out, in): the sum over k of
    x k * w n k, plus the bias b n.
  * `attnR` is scaled dot-product attention in the order "scale the scores, subtract the row maximum, exponentiate,
    divide by the row sum, then average the values".
  * `attnK` is the same attention in the order "scale the queries first, take scores transposed, subtract the
    maximum, exponentiate, average the values with the unnormalised weights, then divide by the sum of the weights"
    (the sum itself taken as a product with a matrix of ones).
  * `lnRow` is the residual row's layer normalisation: subtract the mean, divide by the root of the variance plus
    epsilon, scale and shift.

  `attnK_eq_attnR`: on real (finite) queries, keys and values the two orders give the same number.  The scale is a
  finite real, so it moves across the finite sum of products; the exponentials are positive reals, so their sum is a
  nonzero real and dividing each weight first or the weighted sum afterwards is the same.
-/
import Idealize.ShloMosaic.PureOps.Ideal
import Idealize.ShloMosaic.Lib.ValueIdx

noncomputable section

open Idealize.ShloMosaic Idealize.ShloMosaic.ValueIdx
open scoped BigOperators

namespace Cert.Attn

/-- The scale 1/8 = 1/sqrt 64, carried by both programs as the same f32 word. -/
abbrev cS : EReal := Ideal.ofBits .f32 0x3E000000#32
/-- The starting value of a running maximum: minus infinity. -/
abbrev negInf : EReal := Ideal.ofBits .f32 0xFF800000#32
/-- The bf16 one. -/
abbrev oneB : EReal := Ideal.ofBits .bf16 0x3F80#16
/-- The feature count 768 as an f32. -/
abbrev c768 : EReal := Ideal.ofBits .f32 0x44400000#32
/-- The layer normalisation's epsilon, the f32 nearest 1e-12. -/
abbrev epsL : EReal := Ideal.ofBits .f32 0x2B8CBCCC#32

/-- Row (b, i) of the 8192-row activation. -/
def rowOf (b : Fin 64) (i : Fin 128) : Fin 8192 := ⟨128 * b.val + i.val, by omega⟩
/-- Feature (h, e) of the 768 features. -/
def colOf (h : Fin 12) (e : Fin 64) : Fin 768 := ⟨64 * h.val + e.val, by omega⟩
/-- The head of a feature. -/
def headOf (n : Fin 768) : Fin 12 := ⟨n.val / 64, by omega⟩
/-- The lane of a feature inside its head. -/
def laneOf (n : Fin 768) : Fin 64 := ⟨n.val % 64, by omega⟩

theorem colOf_headOf_laneOf (n : Fin 768) : colOf (headOf n) (laneOf n) = n := by
  apply Fin.ext; simp only [colOf, headOf, laneOf]; omega
theorem headOf_colOf (h : Fin 12) (e : Fin 64) : headOf (colOf h e) = h := by
  apply Fin.ext; simp only [colOf, headOf]; omega
theorem laneOf_colOf (h : Fin 12) (e : Fin 64) : laneOf (colOf h e) = e := by
  apply Fin.ext; simp only [colOf, laneOf]; omega

/-- One output feature of a dense layer, weights stored (out, in). -/
def dense (x : Fin 768 → EReal) (w : Fin 768 → Fin 768 → EReal) (b : Fin 768 → EReal) (n : Fin 768) : EReal :=
  (∑ k : Fin 768, x k * w n k) + b n

/-- The maximum of 128 numbers, folded from minus infinity. -/
def rowMax (s : Fin 128 → EReal) : EReal := (Finset.univ : Finset (Fin 128)).fold max negInf s

/-- Scores, scaled after the dot product: entry (i, j) is (q i . k j) / 8. -/
def scoreR (q k : Fin 128 → Fin 64 → EReal) (i j : Fin 128) : EReal := (∑ e : Fin 64, q i e * k j e) * cS
/-- Transposed scores over queries already scaled: entry (j, i) is k j . q' i. -/
def scoreK (q' k : Fin 128 → Fin 64 → EReal) (j i : Fin 128) : EReal := ∑ e : Fin 64, k j e * q' i e

/-- The unnormalised softmax weight of key j for query i, scores scaled after the dot. -/
def wgtR (q k : Fin 128 → Fin 64 → EReal) (i j : Fin 128) : EReal :=
  Ideal.exp (scoreR q k i j - rowMax (fun j' => scoreR q k i j'))
/-- The same weight from transposed scores over scaled queries. -/
def wgtK (q' k : Fin 128 → Fin 64 → EReal) (j i : Fin 128) : EReal :=
  Ideal.exp (scoreK q' k j i - rowMax (fun j' => scoreK q' k j' i))

/-- Attention, normalising the weights before averaging the values. -/
def attnR (q k v : Fin 128 → Fin 64 → EReal) (i : Fin 128) (d : Fin 64) : EReal :=
  ∑ j : Fin 128, Ideal.div (wgtR q k i j) (∑ j' : Fin 128, wgtR q k i j') * v j d
/-- Attention, averaging the values first and dividing by the weights' sum (a product with ones) afterwards. -/
def attnK (q' k v : Fin 128 → Fin 64 → EReal) (i : Fin 128) (d : Fin 64) : EReal :=
  Ideal.div (∑ j : Fin 128, wgtK q' k j i * v j d) (∑ j : Fin 128, wgtK q' k j i * oneB)

/-- Layer normalisation of one row `h`, scaled by `g` and shifted by `be`, at feature `n`. -/
def lnRow (h g be : Fin 768 → EReal) (n : Fin 768) : EReal :=
  (h n - Ideal.div (∑ k : Fin 768, h k) c768)
      * Ideal.rsqrt (Ideal.div (∑ k : Fin 768, (h k - Ideal.div (∑ k' : Fin 768, h k') c768)
                                              * (h k - Ideal.div (∑ k' : Fin 768, h k') c768)) c768 + epsL)
      * g n + be n

/-- The block's parameters and input, as plain functions. -/
structure Params where
  X : Fin 64 → Fin 128 → Fin 768 → EReal
  wq : Fin 768 → Fin 768 → EReal
  wk : Fin 768 → Fin 768 → EReal
  wv : Fin 768 → Fin 768 → EReal
  wo : Fin 768 → Fin 768 → EReal
  bq : Fin 768 → EReal
  bk : Fin 768 → EReal
  bv : Fin 768 → EReal
  bo : Fin 768 → EReal
  g : Fin 768 → EReal
  be : Fin 768 → EReal

/-- Every entry of every input is a real number. -/
structure Params.Real (P : Params) : Prop where
  X : ∀ b i n, ∃ r : ℝ, P.X b i n = (r : EReal)
  wq : ∀ n k, ∃ r : ℝ, P.wq n k = (r : EReal)
  wk : ∀ n k, ∃ r : ℝ, P.wk n k = (r : EReal)
  wv : ∀ n k, ∃ r : ℝ, P.wv n k = (r : EReal)
  wo : ∀ n k, ∃ r : ℝ, P.wo n k = (r : EReal)
  bq : ∀ n, ∃ r : ℝ, P.bq n = (r : EReal)
  bk : ∀ n, ∃ r : ℝ, P.bk n = (r : EReal)
  bv : ∀ n, ∃ r : ℝ, P.bv n = (r : EReal)
  bo : ∀ n, ∃ r : ℝ, P.bo n = (r : EReal)
  g : ∀ n, ∃ r : ℝ, P.g n = (r : EReal)
  be : ∀ n, ∃ r : ℝ, P.be n = (r : EReal)

variable (P : Params)

/-- The projected queries, keys and values at row (b, i), feature n. -/
def qM (b : Fin 64) (i : Fin 128) (n : Fin 768) : EReal := dense (P.X b i) P.wq P.bq n
def kM (b : Fin 64) (i : Fin 128) (n : Fin 768) : EReal := dense (P.X b i) P.wk P.bk n
def vM (b : Fin 64) (i : Fin 128) (n : Fin 768) : EReal := dense (P.X b i) P.wv P.bv n

/-- The context, normalising first: head h of batch b attends over the batch's 128 positions. -/
def ctxR (b : Fin 64) (i : Fin 128) (n : Fin 768) : EReal :=
  attnR (fun i' e => qM P b i' (colOf (headOf n) e)) (fun j e => kM P b j (colOf (headOf n) e))
    (fun j e => vM P b j (colOf (headOf n) e)) i (laneOf n)
/-- The context, dividing last, over queries scaled before the dot. -/
def ctxK (b : Fin 64) (i : Fin 128) (n : Fin 768) : EReal :=
  attnK (fun i' e => qM P b i' (colOf (headOf n) e) * cS) (fun j e => kM P b j (colOf (headOf n) e))
    (fun j e => vM P b j (colOf (headOf n) e)) i (laneOf n)

/-- The output dense layer plus the residual, then the layer normalisation, over a given context. -/
def outOf (ctx : Fin 64 → Fin 128 → Fin 768 → EReal) (b : Fin 64) (i : Fin 128) (n : Fin 768) : EReal :=
  lnRow (fun n' => dense (ctx b i) P.wo P.bo n' + P.X b i n') P.g P.be n

/-- What the reference's three calls compute, and what the fused kernel computes. -/
def outR : Fin 64 → Fin 128 → Fin 768 → EReal := outOf P (ctxR P)
def outK : Fin 64 → Fin 128 → Fin 768 → EReal := outOf P (ctxK P)

end Cert.Attn

end
-- ==== Proof.KConcat.lean ====
/-
  The stacked context read at row 128 * batch + i, feature 64 * head + e is the head at that offset read at (i, e).

  A batch's twelve heads lie side by side along the feature axis, each 64 features wide, so feature 64 * head + e
  falls in piece number head at lane e.  The eight batches are stacked along the row axis, each 128 rows tall, so
  row 128 * batch + i falls in piece number batch at row i.
-/
import proofs.«120191_g2000702396236789_pallasbulk_1056_11_alg».proof.Proof.KDefs
import Idealize.ShloMosaic.Lib.Pipeline.Value
import Idealize.ShloMosaic.Lib.ValueLayout
import Mathlib.Tactic.FinCases

noncomputable section

namespace Cert.KernelIdeal.KV

open Idealize.ShloMosaic Idealize.ShloMosaic.ValueIdx Idealize.SL.Sem Cert.KernelIdeal
open Cert.KernelIdeal.Facts₀ Cert.KernelIdeal.Facts
open scoped BigOperators

/-- Twelve heads at row offset r laid side by side, read at feature 64 * head + e: the head at column offset
    64 * head, read at lane e. -/
theorem heads_apply (r : Nat) (hr : r + 128 ≤ 1024) (q k v : FVec Ideal S1024x768 .bf16) (ones : FVec Ideal S128x64 .bf16)
    (hc : Shape.Concatenates ((List.ofFn fun n : Fin 12 => ((⟨S128x64, headT q k v ones ![r, 64 * n.val]
        (slicesAt r (64 * n.val) hr (by omega))⟩ : (s : Shape) × (s.Idx → Ideal .bf16)))).map (·.1)) S128x768 1)
    (i : Fin 128) (h : Fin 12) (e : Fin 64) :
    concatenate S128x768 1 (List.ofFn fun n : Fin 12 => ((⟨S128x64, headT q k v ones ![r, 64 * n.val]
        (slicesAt r (64 * n.val) hr (by omega))⟩ : (s : Shape) × (s.Idx → Ideal .bf16)))) hc
      (ix2 i (⟨64 * h.val + e.val, by omega⟩ : Fin 768))
      = headT q k v ones ![r, 64 * h.val] (slicesAt r (64 * h.val) hr (by omega)) (ix2 i e) := by
  refine concatenate_ofFn_apply (t := S128x768) (s₁ := S128x64) (1 : Fin 2) (fun n : Fin 12 => headT q k v ones ![r, 64 * n.val]
        (slicesAt r (64 * n.val) hr (by omega))) hc rfl 64 rfl _ h ?_ (ix2 i e) ?_ ?_
  · show (64 * h.val + e.val) / 64 = h.val
    omega
  · show e.val = (64 * h.val + e.val) % 64
    omega
  · intro b hb
    match b, hb with
    | ⟨0, _⟩, _ => rfl
    | ⟨1, _⟩, hb => exact absurd rfl hb

/-- Eight row blocks stacked, read at row 128 * batch + i: block number batch, read at row i. -/
theorem rows_apply (f : Fin 8 → FVec Ideal S128x768 .bf16)
    (hc : Shape.Concatenates ((List.ofFn fun n : Fin 8 => ((⟨S128x768, f n⟩ : (s : Shape) × (s.Idx → Ideal .bf16)))).map (·.1))
        S1024x768 0)
    (bb : Fin 8) (i : Fin 128) (c : Fin 768) :
    concatenate S1024x768 0 (List.ofFn fun n : Fin 8 => ((⟨S128x768, f n⟩ : (s : Shape) × (s.Idx → Ideal .bf16)))) hc
      (ix2 (⟨128 * bb.val + i.val, by omega⟩ : Fin 1024) c) = f bb (ix2 i c) := by
  refine concatenate_ofFn_apply (t := S1024x768) (s₁ := S128x768) (0 : Fin 2) f hc rfl 128 rfl _ bb ?_ (ix2 i c) ?_ ?_
  · show (128 * bb.val + i.val) / 128 = bb.val
    omega
  · show i.val = (128 * bb.val + i.val) % 128
    omega
  · intro b hb
    match b, hb with
    | ⟨0, _⟩, hb => exact absurd rfl hb
    | ⟨1, _⟩, _ => rfl

theorem rowBlk0_apply (q k v : FVec Ideal S1024x768 .bf16) (ones : FVec Ideal S128x64 .bf16) (i : Fin 128) (h : Fin 12) (e : Fin 64) :
    rowBlk0 q k v ones (ix2 i (⟨64 * h.val + e.val, by omega⟩ : Fin 768))
      = headT q k v ones ![0, 64 * h.val] (slicesAt 0 (64 * h.val) (by omega) (by omega)) (ix2 i e) :=
  heads_apply 0 (by omega) q k v ones
    concatenates_S128x64_S128x64_S128x64_S128x64_S128x64_S128x64_S128x64_S128x64_S128x64_S128x64_S128x64_S128x64_S128x768_d1 i h e

theorem rowBlk128_apply (q k v : FVec Ideal S1024x768 .bf16) (ones : FVec Ideal S128x64 .bf16) (i : Fin 128) (h : Fin 12) (e : Fin 64) :
    rowBlk128 q k v ones (ix2 i (⟨64 * h.val + e.val, by omega⟩ : Fin 768))
      = headT q k v ones ![128, 64 * h.val] (slicesAt 128 (64 * h.val) (by omega) (by omega)) (ix2 i e) :=
  heads_apply 128 (by omega) q k v ones
    concatenates_S128x64_S128x64_S128x64_S128x64_S128x64_S128x64_S128x64_S128x64_S128x64_S128x64_S128x64_S128x64_S128x768_d1 i h e

theorem rowBlk256_apply (q k v : FVec Ideal S1024x768 .bf16) (ones : FVec Ideal S128x64 .bf16) (i : Fin 128) (h : Fin 12) (e : Fin 64) :
    rowBlk256 q k v ones (ix2 i (⟨64 * h.val + e.val, by omega⟩ : Fin 768))
      = headT q k v ones ![256, 64 * h.val] (slicesAt 256 (64 * h.val) (by omega) (by omega)) (ix2 i e) :=
  heads_apply 256 (by omega) q k v ones
    concatenates_S128x64_S128x64_S128x64_S128x64_S128x64_S128x64_S128x64_S128x64_S128x64_S128x64_S128x64_S128x64_S128x768_d1 i h e

theorem rowBlk384_apply (q k v : FVec Ideal S1024x768 .bf16) (ones : FVec Ideal S128x64 .bf16) (i : Fin 128) (h : Fin 12) (e : Fin 64) :
    rowBlk384 q k v ones (ix2 i (⟨64 * h.val + e.val, by omega⟩ : Fin 768))
      = headT q k v ones ![384, 64 * h.val] (slicesAt 384 (64 * h.val) (by omega) (by omega)) (ix2 i e) :=
  heads_apply 384 (by omega) q k v ones
    concatenates_S128x64_S128x64_S128x64_S128x64_S128x64_S128x64_S128x64_S128x64_S128x64_S128x64_S128x64_S128x64_S128x768_d1 i h e

theorem rowBlk512_apply (q k v : FVec Ideal S1024x768 .bf16) (ones : FVec Ideal S128x64 .bf16) (i : Fin 128) (h : Fin 12) (e : Fin 64) :
    rowBlk512 q k v ones (ix2 i (⟨64 * h.val + e.val, by omega⟩ : Fin 768))
      = headT q k v ones ![512, 64 * h.val] (slicesAt 512 (64 * h.val) (by omega) (by omega)) (ix2 i e) :=
  heads_apply 512 (by omega) q k v ones
    concatenates_S128x64_S128x64_S128x64_S128x64_S128x64_S128x64_S128x64_S128x64_S128x64_S128x64_S128x64_S128x64_S128x768_d1 i h e

theorem rowBlk640_apply (q k v : FVec Ideal S1024x768 .bf16) (ones : FVec Ideal S128x64 .bf16) (i : Fin 128) (h : Fin 12) (e : Fin 64) :
    rowBlk640 q k v ones (ix2 i (⟨64 * h.val + e.val, by omega⟩ : Fin 768))
      = headT q k v ones ![640, 64 * h.val] (slicesAt 640 (64 * h.val) (by omega) (by omega)) (ix2 i e) :=
  heads_apply 640 (by omega) q k v ones
    concatenates_S128x64_S128x64_S128x64_S128x64_S128x64_S128x64_S128x64_S128x64_S128x64_S128x64_S128x64_S128x64_S128x768_d1 i h e

theorem rowBlk768_apply (q k v : FVec Ideal S1024x768 .bf16) (ones : FVec Ideal S128x64 .bf16) (i : Fin 128) (h : Fin 12) (e : Fin 64) :
    rowBlk768 q k v ones (ix2 i (⟨64 * h.val + e.val, by omega⟩ : Fin 768))
      = headT q k v ones ![768, 64 * h.val] (slicesAt 768 (64 * h.val) (by omega) (by omega)) (ix2 i e) :=
  heads_apply 768 (by omega) q k v ones
    concatenates_S128x64_S128x64_S128x64_S128x64_S128x64_S128x64_S128x64_S128x64_S128x64_S128x64_S128x64_S128x64_S128x768_d1 i h e

theorem rowBlk896_apply (q k v : FVec Ideal S1024x768 .bf16) (ones : FVec Ideal S128x64 .bf16) (i : Fin 128) (h : Fin 12) (e : Fin 64) :
    rowBlk896 q k v ones (ix2 i (⟨64 * h.val + e.val, by omega⟩ : Fin 768))
      = headT q k v ones ![896, 64 * h.val] (slicesAt 896 (64 * h.val) (by omega) (by omega)) (ix2 i e) :=
  heads_apply 896 (by omega) q k v ones
    concatenates_S128x64_S128x64_S128x64_S128x64_S128x64_S128x64_S128x64_S128x64_S128x64_S128x64_S128x64_S128x64_S128x768_d1 i h e

theorem ctxAll_rows (q k v : FVec Ideal S1024x768 .bf16) (ones : FVec Ideal S128x64 .bf16) (bb : Fin 8) (i : Fin 128) (h : Fin 12) (e : Fin 64) :
    ctxAll q k v ones (ix2 (⟨128 * bb.val + i.val, by omega⟩ : Fin 1024) (⟨64 * h.val + e.val, by omega⟩ : Fin 768))
      = headT q k v ones ![128 * bb.val, 64 * h.val] (slicesAt (128 * bb.val) (64 * h.val) (by omega) (by omega)) (ix2 i e) := by
  refine (rows_apply ![rowBlk0 q k v ones, rowBlk128 q k v ones, rowBlk256 q k v ones, rowBlk384 q k v ones, rowBlk512 q k v ones, rowBlk640 q k v ones, rowBlk768 q k v ones, rowBlk896 q k v ones]
    concatenates_S128x768_S128x768_S128x768_S128x768_S128x768_S128x768_S128x768_S128x768_S1024x768_d0 bb i (⟨64 * h.val + e.val, by omega⟩ : Fin 768)).trans ?_
  fin_cases bb
  · exact rowBlk0_apply q k v ones i h e
  · exact rowBlk128_apply q k v ones i h e
  · exact rowBlk256_apply q k v ones i h e
  · exact rowBlk384_apply q k v ones i h e
  · exact rowBlk512_apply q k v ones i h e
  · exact rowBlk640_apply q k v ones i h e
  · exact rowBlk768_apply q k v ones i h e
  · exact rowBlk896_apply q k v ones i h e

end Cert.KernelIdeal.KV

end
-- ==== Proof.KHead.lean ====
/-
  One head of the fused body read at an entry: it is the divide-last attention of the three 128 x 64 slices; and the
  stacked context read at row 128 * batch + i, feature 64 * head + e is that head's entry (i, e).

  The steps, innermost first.  A product contracted on both operands' rows (columns) read at an entry is the sum over
  the shared row (column) index.  The column maximum, kept as one row and spread back over the rows, is at (j, i) the
  maximum over j' of the entries (j', i).  A window of the block read at (i, e) is the block at (r + i, c + e).  So the
  transposed scores at (j, i) are key row j against query row i, the weights are their exponentials less the column
  maximum, and the head is the quotient of the two sums over j of the weights against the values and against ones.
-/
import proofs.«120191_g2000702396236789_pallasbulk_1056_11_alg».proof.Proof.KDefs
import proofs.«120191_g2000702396236789_pallasbulk_1056_11_alg».proof.Proof.Spec
import proofs.«120191_g2000702396236789_pallasbulk_1056_11_alg».proof.Proof.KConcat
import Idealize.ShloMosaic.PureOps.Ideal.Laws
import Idealize.ShloMosaic.Lib.Pipeline.Value
import Idealize.ShloMosaic.Lib.ValueLayout

noncomputable section

namespace Cert.KernelIdeal.KV

open Idealize.ShloMosaic Idealize.ShloMosaic.ValueIdx Idealize.SL.Sem Cert.KernelIdeal
open Cert.KernelIdeal.Facts₀ Cert.KernelIdeal.Facts
open scoped BigOperators

/-! The two products' operand indices, axis by axis. -/

theorem lhsV_0 (j : S128x64.Idx) (k : dot_S128x128_S128x64_S128x64_0_0_1_1_n_n.contr.Idx) :
    (dot_S128x128_S128x64_S128x64_0_0_1_1_n_n.lhsIdx j k 0).val = (k ⟨0, by decide⟩).val :=
  DotDims.lhsIdx_val_of_single dot_S128x128_S128x64_S128x64_0_0_1_1_n_n rfl j k
theorem lhsV_1 (j : S128x64.Idx) (k : dot_S128x128_S128x64_S128x64_0_0_1_1_n_n.contr.Idx) :
    (dot_S128x128_S128x64_S128x64_0_0_1_1_n_n.lhsIdx j k 1).val = (j 0).val := rfl
theorem rhsV_0 (j : S128x64.Idx) (k : dot_S128x128_S128x64_S128x64_0_0_1_1_n_n.contr.Idx) :
    (dot_S128x128_S128x64_S128x64_0_0_1_1_n_n.rhsIdx j k 0).val = (k ⟨0, by decide⟩).val :=
  DotDims.rhsIdx_val_of_single dot_S128x128_S128x64_S128x64_0_0_1_1_n_n rfl j k
theorem rhsV_1 (j : S128x64.Idx) (k : dot_S128x128_S128x64_S128x64_0_0_1_1_n_n.contr.Idx) :
    (dot_S128x128_S128x64_S128x64_0_0_1_1_n_n.rhsIdx j k 1).val = (j 1).val := rfl

theorem lhsS_0 (j : S128x128.Idx) (k : dot_S128x64_S128x64_S128x128_1_1_0_0_n_n.contr.Idx) :
    (dot_S128x64_S128x64_S128x128_1_1_0_0_n_n.lhsIdx j k 0).val = (j 0).val := rfl
theorem lhsS_1 (j : S128x128.Idx) (k : dot_S128x64_S128x64_S128x128_1_1_0_0_n_n.contr.Idx) :
    (dot_S128x64_S128x64_S128x128_1_1_0_0_n_n.lhsIdx j k 1).val = (k ⟨0, by decide⟩).val :=
  DotDims.lhsIdx_val_of_single dot_S128x64_S128x64_S128x128_1_1_0_0_n_n rfl j k
theorem rhsS_0 (j : S128x128.Idx) (k : dot_S128x64_S128x64_S128x128_1_1_0_0_n_n.contr.Idx) :
    (dot_S128x64_S128x64_S128x128_1_1_0_0_n_n.rhsIdx j k 0).val = (j 1).val := rfl
theorem rhsS_1 (j : S128x128.Idx) (k : dot_S128x64_S128x64_S128x128_1_1_0_0_n_n.contr.Idx) :
    (dot_S128x64_S128x64_S128x128_1_1_0_0_n_n.rhsIdx j k 1).val = (k ⟨0, by decide⟩).val :=
  DotDims.rhsIdx_val_of_single dot_S128x64_S128x64_S128x128_1_1_0_0_n_n rfl j k

/-- The product contracted on both operands' rows: entry (i, e) is the sum over j of lhs (j, i) * rhs (j, e). -/
theorem matmulV_apply {φ₁ φ₂ : FTy} (lhs : FVec Ideal S128x128 φ₁) (rhs : FVec Ideal S128x64 φ₂) (i : Fin 128) (e : Fin 64) :
    matmul dot_S128x128_S128x64_S128x64_0_0_1_1_n_n none lhs rhs (constant (F := Ideal) S128x64 .f32 0x00000000#32) (ix2 i e)
      = ∑ j : Fin 128, lhs (ix2 j i) * rhs (ix2 j e) := by
  refine (Ideal.matmul_constant_zero_apply _ none _ _ _).trans ?_
  rw [← Equiv.sum_comp (contrEquiv1 dot_S128x128_S128x64_S128x64_0_0_1_1_n_n 128 rfl rfl).symm]
  refine Finset.sum_congr rfl fun j _ => ?_
  have hl : dot_S128x128_S128x64_S128x64_0_0_1_1_n_n.lhsIdx (ix2 i e)
      ((contrEquiv1 dot_S128x128_S128x64_S128x64_0_0_1_1_n_n 128 rfl rfl).symm j) = ix2 j i := by
    funext a
    match a with
    | ⟨0, _⟩ => exact Fin.ext ((lhsV_0 _ _).trans (contrEquiv1_symm_val _ 128 rfl rfl j))
    | ⟨1, _⟩ => exact Fin.ext (lhsV_1 _ _)
  have hr : dot_S128x128_S128x64_S128x64_0_0_1_1_n_n.rhsIdx (ix2 i e)
      ((contrEquiv1 dot_S128x128_S128x64_S128x64_0_0_1_1_n_n 128 rfl rfl).symm j) = ix2 j e := by
    funext a
    match a with
    | ⟨0, _⟩ => exact Fin.ext ((rhsV_0 _ _).trans (contrEquiv1_symm_val _ 128 rfl rfl j))
    | ⟨1, _⟩ => exact Fin.ext (rhsV_1 _ _)
  rw [hl, hr]

/-- The product contracted on both operands' columns: entry (j, i) is the sum over e of lhs (j, e) * rhs (i, e). -/
theorem matmulS_apply {φ₁ φ₂ : FTy} (lhs : FVec Ideal S128x64 φ₁) (rhs : FVec Ideal S128x64 φ₂) (j i : Fin 128) :
    matmul dot_S128x64_S128x64_S128x128_1_1_0_0_n_n none lhs rhs (constant (F := Ideal) S128x128 .f32 0x00000000#32) (ix2 j i)
      = ∑ e : Fin 64, lhs (ix2 j e) * rhs (ix2 i e) := by
  refine (Ideal.matmul_constant_zero_apply _ none _ _ _).trans ?_
  rw [← Equiv.sum_comp (contrEquiv1 dot_S128x64_S128x64_S128x128_1_1_0_0_n_n 64 rfl rfl).symm]
  refine Finset.sum_congr rfl fun e _ => ?_
  have hl : dot_S128x64_S128x64_S128x128_1_1_0_0_n_n.lhsIdx (ix2 j i)
      ((contrEquiv1 dot_S128x64_S128x64_S128x128_1_1_0_0_n_n 64 rfl rfl).symm e) = ix2 j e := by
    funext a
    match a with
    | ⟨0, _⟩ => exact Fin.ext (lhsS_0 _ _)
    | ⟨1, _⟩ => exact Fin.ext ((lhsS_1 _ _).trans (contrEquiv1_symm_val _ 64 rfl rfl e))
  have hr : dot_S128x64_S128x64_S128x128_1_1_0_0_n_n.rhsIdx (ix2 j i)
      ((contrEquiv1 dot_S128x64_S128x64_S128x128_1_1_0_0_n_n 64 rfl rfl).symm e) = ix2 i e := by
    funext a
    match a with
    | ⟨0, _⟩ => exact Fin.ext (rhsS_0 _ _)
    | ⟨1, _⟩ => exact Fin.ext ((rhsS_1 _ _).trans (contrEquiv1_symm_val _ 64 rfl rfl e))
  rw [hl, hr]

/-- The column maximum, kept as one row and spread over the rows: entry (j, i) is the maximum over j' of src (j', i). -/
theorem colMax_apply (src : FVec Ideal S128x128 .f32) (j i : Fin 128) :
    broadcastTo S128x128 (shapeCast S1x128 (multiReduction (F := Ideal) .maximumf [0] S128 src 0xFF800000#32
      reduces_S128x128_S128 (.inl rfl) rfl) shapeCasts_S128_S1x128) broadcasts_S1x128_S128x128 (ix2 j i)
      = Attn.rowMax (fun j' : Fin 128 => src (ix2 j' i)) := by
  refine (broadcastTo_1b_ab_apply _ _ j i).trans ?_
  refine (shapeCast_a_1a_apply _ _ (0 : Fin 1) i).trans ?_
  refine (Ideal.multiReduction_maximumf_single src _ reduces_S128x128_S128 _ _ (ix1 i)).trans ?_
  unfold Attn.rowMax
  have e : (src ∘ reduces_S128x128_S128.lift (ix1 i)) = fun j' : Fin 128 => src (ix2 j' i) :=
    funext fun j' => congrArg src (funext fun a => Fin.ext (by
      match a with
      | ⟨0, _⟩ => rfl
      | ⟨1, _⟩ => rfl))
  exact congrArg (fun f : Fin 128 → EReal => (Finset.univ : Finset (Fin 128)).fold max Attn.negInf f) e

/-- A 128 x 64 window of the block read at (i, e): the block at (r + i, c + e). -/
theorem window_apply (x : FVec Ideal S1024x768 .bf16) (r c : Nat) (hr : r + 128 ≤ 1024) (hc : c + 64 ≤ 768)
    (hs : S1024x768.Slices ![r, c] S128x64) (i : Fin 128) (e : Fin 64) :
    extractStridedSlice S128x64 ![r, c] x hs (ix2 i e)
      = x (ix2 (⟨r + i.val, by omega⟩ : Fin 1024) (⟨c + e.val, by omega⟩ : Fin 768)) :=
  extractStridedSlice_apply _ _ _ _ _ (fun a => by
    match a with
    | ⟨0, _⟩ => rfl
    | ⟨1, _⟩ => rfl)

/-- The entries of the 128 x 64 window at row offset r, column offset c, as a plain function. -/
abbrev win (x : FVec Ideal S1024x768 .bf16) (r c : Nat) (hr : r + 128 ≤ 1024) (hc : c + 64 ≤ 768) : Fin 128 → Fin 64 → EReal :=
  fun i' e' => x (ix2 (⟨r + i'.val, by omega⟩ : Fin 1024) (⟨c + e'.val, by omega⟩ : Fin 768))

/-- The transposed scores at (j, i): key row j against query row i. -/
theorem scoreT_apply (q k : FVec Ideal S1024x768 .bf16) (r c : Nat) (hr : r + 128 ≤ 1024) (hc : c + 64 ≤ 768)
    (hs : S1024x768.Slices ![r, c] S128x64) (j i : Fin 128) :
    scoreT q k ![r, c] hs (ix2 j i) = Attn.scoreK (win q r c hr hc) (win k r c hr hc) j i := by
  unfold scoreT Attn.scoreK
  refine (matmulS_apply _ _ j i).trans ?_
  refine Finset.sum_congr rfl fun e _ => ?_
  rw [window_apply k r c hr hc hs j e, window_apply q r c hr hc hs i e]

/-- The unnormalised weights at (j, i). -/
theorem wgtT_apply (q k : FVec Ideal S1024x768 .bf16) (r c : Nat) (hr : r + 128 ≤ 1024) (hc : c + 64 ≤ 768)
    (hs : S1024x768.Slices ![r, c] S128x64) (j i : Fin 128) :
    wgtT q k ![r, c] hs (ix2 j i) = Attn.wgtK (win q r c hr hc) (win k r c hr hc) j i := by
  unfold wgtT Attn.wgtK
  show Ideal.exp (scoreT q k ![r, c] hs (ix2 j i) - _) = _
  rw [colMax_apply, scoreT_apply q k r c hr hc hs j i]
  have e : (fun j' : Fin 128 => scoreT q k ![r, c] hs (ix2 j' i))
      = fun j' : Fin 128 => Attn.scoreK (win q r c hr hc) (win k r c hr hc) j' i :=
    funext fun j' => scoreT_apply q k r c hr hc hs j' i
  rw [e]

/-- One head at (i, e): the divide-last attention of the three windows. -/
theorem headT_win (q k v : FVec Ideal S1024x768 .bf16) (r c : Nat) (hr : r + 128 ≤ 1024) (hc : c + 64 ≤ 768)
    (hs : S1024x768.Slices ![r, c] S128x64) (i : Fin 128) (e : Fin 64) :
    headT q k v (onesB (F := Ideal)) ![r, c] hs (ix2 i e)
      = Attn.attnK (win q r c hr hc) (win k r c hr hc) (win v r c hr hc) i e := by
  unfold headT Attn.attnK
  show Ideal.div (matmul (F := Ideal) dot_S128x128_S128x64_S128x64_0_0_1_1_n_n none _ _ _ (ix2 i e))
    (matmul (F := Ideal) dot_S128x128_S128x64_S128x64_0_0_1_1_n_n none _ _ _ (ix2 i e)) = _
  rw [matmulV_apply, matmulV_apply]
  congr 1
  · refine Finset.sum_congr rfl fun j _ => ?_
    rw [window_apply v r c hr hc hs j e]
    exact congrArg (· * _) (wgtT_apply q k r c hr hc hs j i)
  · refine Finset.sum_congr rfl fun j _ => ?_
    exact congrArg (· * _) (wgtT_apply q k r c hr hc hs j i)

theorem headT_apply (q k v : FVec Ideal S1024x768 .bf16) (r c : Nat) (hr : r + 128 ≤ 1024) (hc : c + 64 ≤ 768)
    (hs : S1024x768.Slices ![r, c] S128x64) (i : Fin 128) (e : Fin 64) :
    headT q k v (onesB (F := Ideal)) ![r, c] hs (ix2 i e)
      = Attn.attnK (fun (i' : Fin 128) (e' : Fin 64) => q (ix2 (⟨r + i'.val, by omega⟩ : Fin 1024) (⟨c + e'.val, by omega⟩ : Fin 768)))
          (fun (i' : Fin 128) (e' : Fin 64) => k (ix2 (⟨r + i'.val, by omega⟩ : Fin 1024) (⟨c + e'.val, by omega⟩ : Fin 768)))
          (fun (i' : Fin 128) (e' : Fin 64) => v (ix2 (⟨r + i'.val, by omega⟩ : Fin 1024) (⟨c + e'.val, by omega⟩ : Fin 768))) i e :=
  headT_win q k v r c hr hc hs i e

/-- The stacked context at row 128 * batch + i, feature 64 * head + e: that batch's, that head's attention at (i, e). -/
theorem ctxAll_apply (q k v : FVec Ideal S1024x768 .bf16) (bb : Fin 8) (i : Fin 128) (h : Fin 12) (e : Fin 64) :
    ctxAll q k v (onesB (F := Ideal)) (ix2 (⟨128 * bb.val + i.val, by omega⟩ : Fin 1024) (⟨64 * h.val + e.val, by omega⟩ : Fin 768))
      = Attn.attnK (fun (i' : Fin 128) (e' : Fin 64) => q (ix2 (⟨128 * bb.val + i'.val, by omega⟩ : Fin 1024) (⟨64 * h.val + e'.val, by omega⟩ : Fin 768)))
          (fun (i' : Fin 128) (e' : Fin 64) => k (ix2 (⟨128 * bb.val + i'.val, by omega⟩ : Fin 1024) (⟨64 * h.val + e'.val, by omega⟩ : Fin 768)))
          (fun (i' : Fin 128) (e' : Fin 64) => v (ix2 (⟨128 * bb.val + i'.val, by omega⟩ : Fin 1024) (⟨64 * h.val + e'.val, by omega⟩ : Fin 768))) i e :=
  (ctxAll_rows q k v (onesB (F := Ideal)) bb i h e).trans
    (headT_apply q k v (128 * bb.val) (64 * h.val) (by omega) (by omega) _ i e)

end Cert.KernelIdeal.KV

end
-- ==== Proof.KRow.lean ====
/-
  The fused body's row-wise pieces read at an entry: a projection is the dense layer of the row, the residual sum is
  the dense layer of the context row plus the input entry, and the normalisation is `lnRow` of the row.
-/
import proofs.«120191_g2000702396236789_pallasbulk_1056_11_alg».proof.Proof.KDefs
import proofs.«120191_g2000702396236789_pallasbulk_1056_11_alg».proof.Proof.Spec
import Idealize.ShloMosaic.PureOps.Ideal.Laws
import Idealize.ShloMosaic.Lib.Pipeline.Value
import Idealize.ShloMosaic.Lib.ValueLayout

noncomputable section

namespace Cert.KernelIdeal.KV

open Idealize.ShloMosaic Idealize.ShloMosaic.ValueIdx Idealize.SL.Sem Cert.KernelIdeal
open Cert.KernelIdeal.Facts₀ Cert.KernelIdeal.Facts
open scoped BigOperators

/-! ## The dense product at an entry

Both operands are contracted on their second axis: entry (ρ, n) of the product is the sum over k of the left operand
at (ρ, k) times the right operand at (n, k). -/

/-- The left operand's row is the entry's row. -/
theorem lhs_dense_0 (i : S1024x768.Idx) (q : dot_S1024x768_S768x768_S1024x768_1_1_0_0_n_n.contr.Idx) :
    (dot_S1024x768_S768x768_S1024x768_1_1_0_0_n_n.lhsIdx i q 0).val = (i 0).val := by
  unfold DotDims.lhsIdx
  rw [dif_neg (show ¬(0 : Fin S1024x768.rank) ∈ dot_S1024x768_S768x768_S1024x768_1_1_0_0_n_n.lhsBatch by decide),
    dif_pos (show (0 : Fin S1024x768.rank) ∈ dot_S1024x768_S768x768_S1024x768_1_1_0_0_n_n.lhsNonContracting by decide)]
  rfl

/-- The left operand's column is the contraction position. -/
theorem lhs_dense_1 (i : S1024x768.Idx) (q : dot_S1024x768_S768x768_S1024x768_1_1_0_0_n_n.contr.Idx) :
    (dot_S1024x768_S768x768_S1024x768_1_1_0_0_n_n.lhsIdx i q 1).val = (q ⟨0, by decide⟩).val :=
  dot_S1024x768_S768x768_S1024x768_1_1_0_0_n_n.lhsIdx_val_of_single rfl i q

/-- The right operand's row is the entry's column. -/
theorem rhs_dense_0 (i : S1024x768.Idx) (q : dot_S1024x768_S768x768_S1024x768_1_1_0_0_n_n.contr.Idx) :
    (dot_S1024x768_S768x768_S1024x768_1_1_0_0_n_n.rhsIdx i q 0).val = (i 1).val := by
  unfold DotDims.rhsIdx
  rw [dif_neg (show ¬(0 : Fin S768x768.rank) ∈ dot_S1024x768_S768x768_S1024x768_1_1_0_0_n_n.rhsBatch by decide),
    dif_pos (show (0 : Fin S768x768.rank) ∈ dot_S1024x768_S768x768_S1024x768_1_1_0_0_n_n.rhsNonContracting by decide)]
  rfl

/-- The right operand's column is the contraction position. -/
theorem rhs_dense_1 (i : S1024x768.Idx) (q : dot_S1024x768_S768x768_S1024x768_1_1_0_0_n_n.contr.Idx) :
    (dot_S1024x768_S768x768_S1024x768_1_1_0_0_n_n.rhsIdx i q 1).val = (q ⟨0, by decide⟩).val :=
  dot_S1024x768_S768x768_S1024x768_1_1_0_0_n_n.rhsIdx_val_of_single rfl i q

/-- The product into the zero splat, at entry (ρ, n): the sum over k of left (ρ, k) times right (n, k). -/
theorem dense_matmul_apply (lhs : FVec Ideal S1024x768 .bf16) (rhs : FVec Ideal S768x768 .bf16) (ρ : Fin 1024) (n : Fin 768) :
    matmul dot_S1024x768_S768x768_S1024x768_1_1_0_0_n_n none lhs rhs (constant (F := Ideal) S1024x768 .f32 0x00000000#32) (ix2 ρ n)
      = ∑ k : Fin 768, lhs (ix2 ρ k) * rhs (ix2 n k) := by
  simp only [matmul]
  rw [Ideal.matmul_constant_zero_apply, ← Equiv.sum_comp (contrEquiv1 dot_S1024x768_S768x768_S1024x768_1_1_0_0_n_n 768 rfl rfl).symm]
  refine Finset.sum_congr rfl fun k _ => ?_
  have hk := contrEquiv1_symm_val dot_S1024x768_S768x768_S1024x768_1_1_0_0_n_n 768 rfl rfl k
  have el : dot_S1024x768_S768x768_S1024x768_1_1_0_0_n_n.lhsIdx (ix2 ρ n) ((contrEquiv1 dot_S1024x768_S768x768_S1024x768_1_1_0_0_n_n 768 rfl rfl).symm k) = ix2 ρ k :=
    funext fun a => Fin.ext (by
      match a with
      | ⟨0, _⟩ => exact lhs_dense_0 _ _
      | ⟨1, _⟩ => exact (lhs_dense_1 _ _).trans hk)
  have er : dot_S1024x768_S768x768_S1024x768_1_1_0_0_n_n.rhsIdx (ix2 ρ n) ((contrEquiv1 dot_S1024x768_S768x768_S1024x768_1_1_0_0_n_n 768 rfl rfl).symm k) = ix2 n k :=
    funext fun a => Fin.ext (by
      match a with
      | ⟨0, _⟩ => exact rhs_dense_0 _ _
      | ⟨1, _⟩ => exact (rhs_dense_1 _ _).trans hk)
  rw [el, er]

/-- The bias row broadcast over the block reads, at (ρ, n), the row's entry n. -/
theorem biasRow_apply (b : Vec Ideal S1x768 .f32) (ρ : Fin 1024) (n : Fin 768) :
    broadcastTo S1024x768 (shapeCast S1x768 b shapeCasts_S1x768_S1x768) broadcasts_S1x768_S1024x768 (ix2 ρ n)
      = b (ix2 (0 : Fin 1) n) := by
  rw [shapeCast_self]
  exact broadcastTo_1b_ab_apply b broadcasts_S1x768_S1024x768 ρ n

theorem proj_apply (x : Vec Ideal S1024x768 .f32) (w : Vec Ideal S768x768 .bf16) (b : Vec Ideal S1x768 .f32)
    (ρ : Fin 1024) (n : Fin 768) :
    proj x w b (ix2 ρ n)
      = Attn.dense (fun k => x (ix2 ρ k)) (fun n' k => w (ix2 n' k)) (fun n' => b (ix2 (0 : Fin 1) n')) n := by
  unfold proj Attn.dense
  rw [addf_apply, biasRow_apply, dense_matmul_apply, shapeCast_self, shapeCast_self]
  rfl

theorem qB_apply (x : Vec Ideal S1024x768 .f32) (w : Vec Ideal S768x768 .bf16) (b : Vec Ideal S1x768 .f32)
    (ρ : Fin 1024) (n : Fin 768) :
    qB x w b (ix2 ρ n)
      = Attn.dense (fun k => x (ix2 ρ k)) (fun n' k => w (ix2 n' k)) (fun n' => b (ix2 (0 : Fin 1) n')) n * Attn.cS := by
  unfold qB
  rw [truncf_apply, mulf_apply, proj_apply, broadcast_apply]
  rfl

theorem kvB_apply (x : Vec Ideal S1024x768 .f32) (w : Vec Ideal S768x768 .bf16) (b : Vec Ideal S1x768 .f32)
    (ρ : Fin 1024) (n : Fin 768) :
    kvB x w b (ix2 ρ n)
      = Attn.dense (fun k => x (ix2 ρ k)) (fun n' k => w (ix2 n' k)) (fun n' => b (ix2 (0 : Fin 1) n')) n := by
  unfold kvB
  rw [truncf_apply, proj_apply]

theorem hres_apply (ctx : FVec Ideal S1024x768 .bf16) (x : Vec Ideal S1024x768 .f32) (wo : Vec Ideal S768x768 .bf16)
    (bo : Vec Ideal S1x768 .f32) (ρ : Fin 1024) (n : Fin 768) :
    hres ctx x wo bo (ix2 ρ n)
      = Attn.dense (fun k => ctx (ix2 ρ k)) (fun n' k => wo (ix2 n' k)) (fun n' => bo (ix2 (0 : Fin 1) n')) n + x (ix2 ρ n) := by
  unfold hres Attn.dense
  rw [addf_apply, addf_apply, biasRow_apply, dense_matmul_apply, shapeCast_self, shapeCast_self]

/-! ## The layer normalisation at an entry -/

/-- The sum along a row of the block, at row ρ. -/
theorem rowSum_apply (src : FVec Ideal S1024x768 .f32) (ρ : Fin 1024) :
    multiReduction (F := Ideal) .add [1] S1024 src 0x00000000#32 reduces_S1024x768_S1024 (.inl rfl) rfl (ix1 ρ)
      = ∑ k : Fin 768, src (ix2 ρ k) := by
  refine (Ideal.multiReduction_add_single src 0x00000000#32 reduces_S1024x768_S1024 (.inl rfl) rfl (ix1 ρ)).trans ?_
  refine Finset.sum_congr rfl fun k _ => congrArg src ?_
  funext c
  apply Fin.ext
  match c with
  | ⟨0, _⟩ => rfl
  | ⟨1, _⟩ => rfl

/-- A column of 1024 numbers cast to a 1024 x 1 block reads, at (ρ, u), the column at ρ. -/
theorem colCast_apply {α : Type} (v : S1024.Idx → α) (ρ : Fin 1024) (u : Fin 1) :
    shapeCast S1024x1 v shapeCasts_S1024_S1024x1 (ix2 ρ u) = v (ix1 ρ) :=
  shapeCast_apply v shapeCasts_S1024_S1024x1 (ix2 ρ u) (ix1 ρ) (by
    have hu : u.val = 0 := by omega
    rw [Shape.rowMajor_val_two, Shape.rowMajor_val_one]
    show ρ.val = ρ.val * 1 + u.val
    omega)

/-- A 1024 x 1 block broadcast along its rows reads, at (ρ, n), the block at (ρ, 0). -/
theorem colBroadcast_apply {α : Type} (v : S1024x1.Idx → α) (ρ : Fin 1024) (n : Fin 768) :
    broadcastTo S1024x768 v broadcasts_S1024x1_S1024x768 (ix2 ρ n) = v (ix2 ρ (0 : Fin 1)) := by
  refine broadcastTo_apply v broadcasts_S1024x1_S1024x768 (ix2 ρ n) (ix2 ρ (0 : Fin 1)) fun ax => ?_
  match ax with
  | ⟨0, _⟩ =>
    show ρ.val = if (1024 : ℕ) = 1 then 0 else ρ.val
    rw [if_neg (by decide)]
  | ⟨1, _⟩ => rfl

/-- The reciprocal square root of a block, at an entry. -/
theorem rsqrt_apply {s : Shape} (v : FVec Ideal s .f32) (i : s.Idx) : rsqrt v i = Ideal.rsqrt (v i) := rfl

/-- The row's mean, as the block computes it: the row sum divided by the feature count. -/
theorem centred_apply (h : FVec Ideal S1024x768 .f32) (ρ : Fin 1024) (n : Fin 768) :
    centred h (ix2 ρ n) = h (ix2 ρ n) - Ideal.div (∑ k : Fin 768, h (ix2 ρ k)) Attn.c768 := by
  unfold centred
  rw [subf_apply, colBroadcast_apply, divf_apply, colCast_apply, rowSum_apply, broadcast_apply]
  rfl

theorem lnT_apply (h : FVec Ideal S1024x768 .f32) (g be : Vec Ideal S1x768 .f32) (ρ : Fin 1024) (n : Fin 768) :
    lnT h g be (ix2 ρ n)
      = Attn.lnRow (fun n' => h (ix2 ρ n')) (fun n' => g (ix2 (0 : Fin 1) n')) (fun n' => be (ix2 (0 : Fin 1) n')) n := by
  unfold lnT Attn.lnRow
  rw [addf_apply, mulf_apply, mulf_apply, biasRow_apply, biasRow_apply, colBroadcast_apply, rsqrt_apply, addf_apply,
    divf_apply, colCast_apply, rowSum_apply, broadcast_apply, broadcast_apply]
  simp only [mulf_apply, centred_apply]
  rfl

end Cert.KernelIdeal.KV

end
-- ==== Proof.KBlock.lean ====
/-
  The whole body at an entry of batch `bb` of its block: the fused function `outK` of the parameters, whenever the
  loaded blocks hold those parameters.  The normalisation reads the residual row; the residual row is the dense layer
  of the context row plus the input; an entry of the context row at feature 64 * head + lane is that head's
  divide-last attention over the batch's slices of the scaled queries, the keys and the values; and each of those is
  a dense layer of an input row.
-/
import proofs.«120191_g2000702396236789_pallasbulk_1056_11_alg».proof.Proof.KHead
import proofs.«120191_g2000702396236789_pallasbulk_1056_11_alg».proof.Proof.KRow

noncomputable section

namespace Cert.KernelIdeal.KV

open Idealize.ShloMosaic Idealize.ShloMosaic.ValueIdx Idealize.SL.Sem Cert.KernelIdeal
open scoped BigOperators

theorem body_value (P : Attn.Params) (B : Fin 64) (bb : Fin 8)
    (x0 : Vec Ideal S1024x768 .f32) (x1 x2 x3 x4 : Vec Ideal S768x768 .bf16) (x5 x6 x7 x8 x9 x10 : Vec Ideal S1x768 .f32)
    (hX : ∀ (i : Fin 128) (k : Fin 768), x0 (ix2 (⟨128 * bb.val + i.val, by omega⟩ : Fin 1024) k) = P.X B i k)
    (h1 : ∀ n k : Fin 768, x1 (ix2 n k) = P.wq n k) (h2 : ∀ n k : Fin 768, x2 (ix2 n k) = P.wk n k)
    (h3 : ∀ n k : Fin 768, x3 (ix2 n k) = P.wv n k) (h4 : ∀ n k : Fin 768, x4 (ix2 n k) = P.wo n k)
    (h5 : ∀ n : Fin 768, x5 (ix2 (0 : Fin 1) n) = P.bq n) (h6 : ∀ n : Fin 768, x6 (ix2 (0 : Fin 1) n) = P.bk n)
    (h7 : ∀ n : Fin 768, x7 (ix2 (0 : Fin 1) n) = P.bv n) (h8 : ∀ n : Fin 768, x8 (ix2 (0 : Fin 1) n) = P.bo n)
    (h9 : ∀ n : Fin 768, x9 (ix2 (0 : Fin 1) n) = P.g n) (h10 : ∀ n : Fin 768, x10 (ix2 (0 : Fin 1) n) = P.be n)
    (i : Fin 128) (n : Fin 768) :
    body x0 x1 x2 x3 x4 x5 x6 x7 x8 x9 x10 (ix2 (⟨128 * bb.val + i.val, by omega⟩ : Fin 1024) n) = Attn.outK P B i n := by
  -- the input rows, the weights and the bias rows as the parameters
  have eX : ∀ i' : Fin 128, (fun k => x0 (ix2 (⟨128 * bb.val + i'.val, by omega⟩ : Fin 1024) k)) = P.X B i' :=
    fun i' => funext fun k => hX i' k
  have e1 : (fun n' k => x1 (ix2 n' k)) = P.wq := funext fun a => funext fun b => h1 a b
  have e2 : (fun n' k => x2 (ix2 n' k)) = P.wk := funext fun a => funext fun b => h2 a b
  have e3 : (fun n' k => x3 (ix2 n' k)) = P.wv := funext fun a => funext fun b => h3 a b
  have e4 : (fun n' k => x4 (ix2 n' k)) = P.wo := funext fun a => funext fun b => h4 a b
  have e5 : (fun n' => x5 (ix2 (0 : Fin 1) n')) = P.bq := funext h5
  have e6 : (fun n' => x6 (ix2 (0 : Fin 1) n')) = P.bk := funext h6
  have e7 : (fun n' => x7 (ix2 (0 : Fin 1) n')) = P.bv := funext h7
  have e8 : (fun n' => x8 (ix2 (0 : Fin 1) n')) = P.bo := funext h8
  have e9 : (fun n' => x9 (ix2 (0 : Fin 1) n')) = P.g := funext h9
  have e10 : (fun n' => x10 (ix2 (0 : Fin 1) n')) = P.be := funext h10
  -- the context row is the fused context of the parameters
  have ectx : (fun k => ctxAll (qB x0 x1 x5) (kvB x0 x2 x6) (kvB x0 x3 x7) (onesB (F := Ideal))
        (ix2 (⟨128 * bb.val + i.val, by omega⟩ : Fin 1024) k)) = Attn.ctxK P B i := by
    funext k
    have hk : k = (⟨64 * (Attn.headOf k).val + (Attn.laneOf k).val, by
        have := (Attn.headOf k).isLt; have := (Attn.laneOf k).isLt; omega⟩ : Fin 768) :=
      Fin.ext (by simp only [Attn.headOf, Attn.laneOf]; omega)
    conv_lhs => rw [hk]
    rw [ctxAll_apply]
    unfold Attn.ctxK
    congr 1
    · funext i' e'
      rw [qB_apply, eX i', e1, e5]
      rfl
    · funext j e'
      rw [kvB_apply, eX j, e2, e6]
      rfl
    · funext j e'
      rw [kvB_apply, eX j, e3, e7]
      rfl
  unfold body
  rw [lnT_apply, e9, e10]
  unfold Attn.outK Attn.outOf
  congr 1
  funext n'
  rw [hres_apply, ectx, e4, e8, hX i n']

end Cert.KernelIdeal.KV

end
-- ==== Proof.Params.lean ====
/-
  The block's parameters as each program finds them in memory: the activation as a function of (batch, position,
  feature), each weight matrix as a function of (out, in), each vector as a function of its feature.
-/
import proofs.«120191_g2000702396236789_pallasbulk_1056_11_alg».proof.Defs
import proofs.«120191_g2000702396236789_pallasbulk_1056_11_alg».proof.Proof.Spec

noncomputable section

open Idealize.ShloMosaic Idealize.ShloMosaic.ValueIdx Idealize.SL.Sem

namespace Cert.Attn

/-- The parameters read off eleven arrays. -/
def paramsOf (a0 : (⟨3, ![64, 128, 768]⟩ : Shape).Idx → EReal)
    (a1 a2 a3 a4 : (⟨2, ![768, 768]⟩ : Shape).Idx → EReal)
    (a5 a6 a7 a8 a9 a10 : (⟨1, ![768]⟩ : Shape).Idx → EReal) : Params where
  X := fun b i n => a0 (ix3 b i n)
  wq := fun n k => a1 (ix2 n k)
  wk := fun n k => a2 (ix2 n k)
  wv := fun n k => a3 (ix2 n k)
  wo := fun n k => a4 (ix2 n k)
  bq := fun n => a5 (ix1 n)
  bk := fun n => a6 (ix1 n)
  bv := fun n => a7 (ix1 n)
  bo := fun n => a8 (ix1 n)
  g := fun n => a9 (ix1 n)
  be := fun n => a10 (ix1 n)

end Cert.Attn

namespace Cert

/-- The parameters in the idealized kernel's memory, on device `c`. -/
def KP (m : (ℓ : Loc Cert.KernelIdeal.nD Cert.KernelIdeal.τ Cert.KernelIdeal.sig) → Buf (Elt Ideal) ℓ)
    (c : Dev Cert.KernelIdeal.nD) : Attn.Params :=
  Attn.paramsOf (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))

/-- The parameters in the idealized reference's memory, on device `c`. -/
def RP (m : (ℓ : Loc Cert.ReferenceIdeal.nD Cert.ReferenceIdeal.τ Cert.ReferenceIdeal.sig) → Buf (Elt Ideal) ℓ)
    (c : Dev Cert.ReferenceIdeal.nD) : Attn.Params :=
  Attn.paramsOf (m ((c.tc : Thread Cert.ReferenceIdeal.nD Cert.ReferenceIdeal.τ).loc Cert.ReferenceIdeal.main_arg0))
    (m ((c.tc : Thread Cert.ReferenceIdeal.nD Cert.ReferenceIdeal.τ).loc Cert.ReferenceIdeal.main_arg1))
    (m ((c.tc : Thread Cert.ReferenceIdeal.nD Cert.ReferenceIdeal.τ).loc Cert.ReferenceIdeal.main_arg2))
    (m ((c.tc : Thread Cert.ReferenceIdeal.nD Cert.ReferenceIdeal.τ).loc Cert.ReferenceIdeal.main_arg3))
    (m ((c.tc : Thread Cert.ReferenceIdeal.nD Cert.ReferenceIdeal.τ).loc Cert.ReferenceIdeal.main_arg4))
    (m ((c.tc : Thread Cert.ReferenceIdeal.nD Cert.ReferenceIdeal.τ).loc Cert.ReferenceIdeal.main_arg5))
    (m ((c.tc : Thread Cert.ReferenceIdeal.nD Cert.ReferenceIdeal.τ).loc Cert.ReferenceIdeal.main_arg6))
    (m ((c.tc : Thread Cert.ReferenceIdeal.nD Cert.ReferenceIdeal.τ).loc Cert.ReferenceIdeal.main_arg7))
    (m ((c.tc : Thread Cert.ReferenceIdeal.nD Cert.ReferenceIdeal.τ).loc Cert.ReferenceIdeal.main_arg8))
    (m ((c.tc : Thread Cert.ReferenceIdeal.nD Cert.ReferenceIdeal.τ).loc Cert.ReferenceIdeal.main_arg9))
    (m ((c.tc : Thread Cert.ReferenceIdeal.nD Cert.ReferenceIdeal.τ).loc Cert.ReferenceIdeal.main_arg10))

/-- The result array both programs must end with, from an output function of (batch, position, feature). -/
def resOf (out : Fin 64 → Fin 128 → Fin 768 → EReal) : (⟨3, ![64, 128, 768]⟩ : Shape).Idx → EReal :=
  fun j => out (j 0) (j 1) (j 2)

theorem resOf_ix3 (out : Fin 64 → Fin 128 → Fin 768 → EReal) (b : Fin 64) (i : Fin 128) (n : Fin 768) :
    resOf out (ix3 b i n) = out b i n := rfl

end Cert

end
-- ==== Proof.KRun.lean ====
/-
  The idealized kernel's run with its result named: every weakly fair execution ends with the result array holding
  the fused function of the parameters in memory, and the arguments unchanged.

  The grid has 8 points; point t works on rows 1024 t … 1024 t + 1023 of the activation viewed as 8192 rows of 768
  features, that is on batches 8 t … 8 t + 7, each of 128 positions: row 1024 t + 128 bb + i is position i of batch
  8 t + bb.  The weight matrices and the six vectors are the same whole blocks at every point.  The block a point
  writes back is therefore the restriction to its rows of ONE function of the whole array, `rowsK`: at row r and
  feature n it is the fused function at batch r / 128, position r % 128, feature n.  The eight row blocks tile the
  8192 rows, so the array ends holding `rowsK`; the last host step only regroups the rows as (batch, position).
-/
import proofs.«120191_g2000702396236789_pallasbulk_1056_11_alg».proof.Proof.KStruct
import proofs.«120191_g2000702396236789_pallasbulk_1056_11_alg».proof.Proof.KBlock
import proofs.«120191_g2000702396236789_pallasbulk_1056_11_alg».proof.Proof.Params
import Idealize.ShloMosaic.Lib.Pipeline.Value
import Idealize.ShloMosaic.Lib.StableHlo.Run

noncomputable section

namespace Cert.KernelIdeal.KV

open Idealize.ShloMosaic Idealize.ShloMosaic.ValueIdx Idealize.SL.Sem Cert.KernelIdeal
open Idealize.ShloMosaic.TcCoe
open Idealize.ShloMosaic.Pipeline (Dat)

section

variable (m : (ℓ : Loc nD τ sig) → Buf (Elt Ideal) ℓ) (ρ : Dev nD → PrngReg)

theorem hz : (![0, 0] : Fin 2 → Nat) = fun _ => 0 := funext fun a => by fin_cases a <;> rfl

/-! ## The whole array as one function of its rows -/

/-- The fused function over the 8192 rows: row r is position r % 128 of batch r / 128. -/
def rowsK (P : Attn.Params) : S8192x768.Idx → EReal := fun j =>
  Attn.outK P ⟨(j 0).val / 128, by have h : (j 0).val < 8192 := (j 0).isLt; omega⟩
    ⟨(j 0).val % 128, Nat.mod_lt _ (by decide)⟩ (j 1)

/-- At row 128 B + i it is the fused function at batch B, position i. -/
theorem rowsK_apply (P : Attn.Params) (r : Fin 8192) (n : Fin 768) (B : Fin 64) (i : Fin 128)
    (h : r.val = 128 * B.val + i.val) : rowsK P (ix2 r n) = Attn.outK P B i n := by
  have hB : (⟨r.val / 128, by omega⟩ : Fin 64) = B := Fin.ext (by show r.val / 128 = B.val; omega)
  have hi : (⟨r.val % 128, Nat.mod_lt _ (by decide)⟩ : Fin 128) = i := Fin.ext (by show r.val % 128 = i.val; omega)
  show Attn.outK P ⟨r.val / 128, _⟩ ⟨r.val % 128, _⟩ n = _
  rw [hB, hi]

/-! ## Which block each point takes -/

/-- The activation's and the result's block at point t is row block t, all 768 features. -/
theorem idx_facts : ∀ t : Fin cfg0.N, win0_0.index t (0 : Fin 2) = t.val ∧ win0_0.index t (1 : Fin 2) = 0
    ∧ win0_11.index t (0 : Fin 2) = t.val ∧ win0_11.index t (1 : Fin 2) = 0 :=
  (by decide +kernel : ∀ t : Fin grid0.N, _)

/-- The four matrices and the six vectors are taken whole at every point. -/
theorem idx_facts_w : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

/-! ## What the arrays hold when the grid starts -/

/-- The activation, its (batch, position) pairs flattened to 8192 rows. -/
theorem V_v0 (c : Dev nD) : (Gen.V m c main_v0 : S8192x768.Idx → EReal)
    = shapeCast S8192x768 (m ((c : Thread nD τ).loc main_arg0)) Gen.shapeCasts_S64x128x768_S8192x768 := by
  dsimp only [Gen.V, Gen.V0]
  simp only [Gen.hostOps0, List.flatten_cons, List.flatten_nil, List.append_nil]
  after_results
  rfl

/-- The query weights: the change of format is the identity on the extended reals. -/
theorem V_v1 (c : Dev nD) : (Gen.V m c main_v1 : S768x768.Idx → EReal) = m ((c : Thread nD τ).loc main_arg1) := by
  dsimp only [Gen.V, Gen.V0]
  simp only [Gen.hostOps0, List.flatten_cons, List.flatten_nil, List.append_nil]
  after_results
  rfl

/-- The key weights: the change of format is the identity on the extended reals. -/
theorem V_v2 (c : Dev nD) : (Gen.V m c main_v2 : S768x768.Idx → EReal) = m ((c : Thread nD τ).loc main_arg2) := by
  dsimp only [Gen.V, Gen.V0]
  simp only [Gen.hostOps0, List.flatten_cons, List.flatten_nil, List.append_nil]
  after_results
  rfl

/-- The value weights: the change of format is the identity on the extended reals. -/
theorem V_v3 (c : Dev nD) : (Gen.V m c main_v3 : S768x768.Idx → EReal) = m ((c : Thread nD τ).loc main_arg3) := by
  dsimp only [Gen.V, Gen.V0]
  simp only [Gen.hostOps0, List.flatten_cons, List.flatten_nil, List.append_nil]
  after_results
  rfl

/-- The output weights: the change of format is the identity on the extended reals. -/
theorem V_v4 (c : Dev nD) : (Gen.V m c main_v4 : S768x768.Idx → EReal) = m ((c : Thread nD τ).loc main_arg4) := by
  dsimp only [Gen.V, Gen.V0]
  simp only [Gen.hostOps0, List.flatten_cons, List.flatten_nil, List.append_nil]
  after_results
  rfl

/-- The query bias, as one row of 768. -/
theorem V_v5 (c : Dev nD) : (Gen.V m c main_v5 : S1x768.Idx → EReal)
    = shapeCast S1x768 (m ((c : Thread nD τ).loc main_arg5)) Gen.shapeCasts_S768_S1x768 := by
  dsimp only [Gen.V, Gen.V0]
  simp only [Gen.hostOps0, List.flatten_cons, List.flatten_nil, List.append_nil]
  after_results
  rfl

/-- The key bias, as one row of 768. -/
theorem V_v6 (c : Dev nD) : (Gen.V m c main_v6 : S1x768.Idx → EReal)
    = shapeCast S1x768 (m ((c : Thread nD τ).loc main_arg6)) Gen.shapeCasts_S768_S1x768 := by
  dsimp only [Gen.V, Gen.V0]
  simp only [Gen.hostOps0, List.flatten_cons, List.flatten_nil, List.append_nil]
  after_results
  rfl

/-- The value bias, as one row of 768. -/
theorem V_v7 (c : Dev nD) : (Gen.V m c main_v7 : S1x768.Idx → EReal)
    = shapeCast S1x768 (m ((c : Thread nD τ).loc main_arg7)) Gen.shapeCasts_S768_S1x768 := by
  dsimp only [Gen.V, Gen.V0]
  simp only [Gen.hostOps0, List.flatten_cons, List.flatten_nil, List.append_nil]
  after_results
  rfl

/-- The output bias, as one row of 768. -/
theorem V_v8 (c : Dev nD) : (Gen.V m c main_v8 : S1x768.Idx → EReal)
    = shapeCast S1x768 (m ((c : Thread nD τ).loc main_arg8)) Gen.shapeCasts_S768_S1x768 := by
  dsimp only [Gen.V, Gen.V0]
  simp only [Gen.hostOps0, List.flatten_cons, List.flatten_nil, List.append_nil]
  after_results
  rfl

/-- The normalisation scale, as one row of 768. -/
theorem V_v9 (c : Dev nD) : (Gen.V m c main_v9 : S1x768.Idx → EReal)
    = shapeCast S1x768 (m ((c : Thread nD τ).loc main_arg9)) Gen.shapeCasts_S768_S1x768 := by
  dsimp only [Gen.V, Gen.V0]
  simp only [Gen.hostOps0, List.flatten_cons, List.flatten_nil, List.append_nil]
  after_results
  rfl

/-- The normalisation shift, as one row of 768. -/
theorem V_v10 (c : Dev nD) : (Gen.V m c main_v10 : S1x768.Idx → EReal)
    = shapeCast S1x768 (m ((c : Thread nD τ).loc main_arg10)) Gen.shapeCasts_S768_S1x768 := by
  dsimp only [Gen.V, Gen.V0]
  simp only [Gen.hostOps0, List.flatten_cons, List.flatten_nil, List.append_nil]
  after_results
  rfl

/-! ## The blocks a point loads, entry by entry -/

/-- Row p of the activation's block at point t is row 1024 t + p of the 8192: position i of batch B when
    1024 t + p = 128 B + i. -/
theorem iblk0_apply (c : Dev nD) (t : Fin cfg0.N) (p : Fin 1024) (k : Fin 768) (B : Fin 64) (i : Fin 128)
    (h : 1024 * t.val + p.val = 128 * B.val + i.val) :
    (Gen.iblk m c 0 t : Vec Ideal S1024x768 .f32) (ix2 p k) = (Cert.KP m c).X B i k := by
  obtain ⟨e0, e1, -, -⟩ := idx_facts t
  unfold Gen.iblk
  rw [View.read_apply]
  show Gen.V m c main_v0 _ = m ((c : Thread nD τ).loc main_arg0) (ix3 B i k)
  rw [V_v0]
  refine shapeCast_apply _ _ _ _ ?_
  show ((⟨3, ![64, 128, 768]⟩ : Shape).rowMajor (ix3 B i k)).val = _
  rw [Shape.rowMajor_val_two, Shape.rowMajor_val_three]
  show (B.val * 128 + i.val) * 768 + k.val = (win0_0.index t (0 : Fin 2) * 1024 + 1 * p.val) * 768 + (win0_0.index t (1 : Fin 2) * 768 + 1 * k.val)
  rw [e0, e1]; omega

/-- The query weights' block is the whole matrix. -/
theorem iblk1_apply (c : Dev nD) (t : Fin cfg0.N) (n k : Fin 768) :
    (Gen.iblk m c 1 t : Vec Ideal S768x768 .bf16) (ix2 n k) = (Cert.KP m c).wq n k := by
  obtain ⟨⟨e0, e1⟩, -⟩ := idx_facts_w t
  unfold Gen.iblk
  rw [View.read_apply]
  show Gen.V m c main_v1 _ = m ((c : Thread nD τ).loc main_arg1) (ix2 n k)
  rw [V_v1]
  congr 1
  funext a; apply Fin.ext
  match a with
  | ⟨0, _⟩ => show win0_1.index t (0 : Fin 2) * 768 + 1 * n.val = n.val; rw [e0]; omega
  | ⟨1, _⟩ => show win0_1.index t (1 : Fin 2) * 768 + 1 * k.val = k.val; rw [e1]; omega

/-- The key weights' block is the whole matrix. -/
theorem iblk2_apply (c : Dev nD) (t : Fin cfg0.N) (n k : Fin 768) :
    (Gen.iblk m c 2 t : Vec Ideal S768x768 .bf16) (ix2 n k) = (Cert.KP m c).wk n k := by
  obtain ⟨-, ⟨e0, e1⟩, -⟩ := idx_facts_w t
  unfold Gen.iblk
  rw [View.read_apply]
  show Gen.V m c main_v2 _ = m ((c : Thread nD τ).loc main_arg2) (ix2 n k)
  rw [V_v2]
  congr 1
  funext a; apply Fin.ext
  match a with
  | ⟨0, _⟩ => show win0_2.index t (0 : Fin 2) * 768 + 1 * n.val = n.val; rw [e0]; omega
  | ⟨1, _⟩ => show win0_2.index t (1 : Fin 2) * 768 + 1 * k.val = k.val; rw [e1]; omega

/-- The value weights' block is the whole matrix. -/
theorem iblk3_apply (c : Dev nD) (t : Fin cfg0.N) (n k : Fin 768) :
    (Gen.iblk m c 3 t : Vec Ideal S768x768 .bf16) (ix2 n k) = (Cert.KP m c).wv n k := by
  obtain ⟨-, -, ⟨e0, e1⟩, -⟩ := idx_facts_w t
  unfold Gen.iblk
  rw [View.read_apply]
  show Gen.V m c main_v3 _ = m ((c : Thread nD τ).loc main_arg3) (ix2 n k)
  rw [V_v3]
  congr 1
  funext a; apply Fin.ext
  match a with
  | ⟨0, _⟩ => show win0_3.index t (0 : Fin 2) * 768 + 1 * n.val = n.val; rw [e0]; omega
  | ⟨1, _⟩ => show win0_3.index t (1 : Fin 2) * 768 + 1 * k.val = k.val; rw [e1]; omega

/-- The output weights' block is the whole matrix. -/
theorem iblk4_apply (c : Dev nD) (t : Fin cfg0.N) (n k : Fin 768) :
    (Gen.iblk m c 4 t : Vec Ideal S768x768 .bf16) (ix2 n k) = (Cert.KP m c).wo n k := by
  obtain ⟨-, -, -, ⟨e0, e1⟩, -⟩ := idx_facts_w t
  unfold Gen.iblk
  rw [View.read_apply]
  show Gen.V m c main_v4 _ = m ((c : Thread nD τ).loc main_arg4) (ix2 n k)
  rw [V_v4]
  congr 1
  funext a; apply Fin.ext
  match a with
  | ⟨0, _⟩ => show win0_4.index t (0 : Fin 2) * 768 + 1 * n.val = n.val; rw [e0]; omega
  | ⟨1, _⟩ => show win0_4.index t (1 : Fin 2) * 768 + 1 * k.val = k.val; rw [e1]; omega

/-- The query bias's block is the whole vector. -/
theorem iblk5_apply (c : Dev nD) (t : Fin cfg0.N) (n : Fin 768) :
    (Gen.iblk m c 5 t : Vec Ideal S1x768 .f32) (ix2 (0 : Fin 1) n) = (Cert.KP m c).bq n := by
  obtain ⟨-, -, -, -, ⟨e0, e1⟩, -⟩ := idx_facts_w t
  unfold Gen.iblk
  rw [View.read_apply]
  show Gen.V m c main_v5 _ = m ((c : Thread nD τ).loc main_arg5) (ix1 n)
  rw [V_v5]
  refine shapeCast_apply _ _ _ _ ?_
  show ((⟨1, ![768]⟩ : Shape).rowMajor (ix1 n)).val = _
  rw [Shape.rowMajor_val_two, Shape.rowMajor_val_one]
  show n.val = (win0_5.index t (0 : Fin 2) * 1 + 1 * (0 : Fin 1).val) * 768 + (win0_5.index t (1 : Fin 2) * 768 + 1 * n.val)
  rw [e0, e1]; simp

/-- The key bias's block is the whole vector. -/
theorem iblk6_apply (c : Dev nD) (t : Fin cfg0.N) (n : Fin 768) :
    (Gen.iblk m c 6 t : Vec Ideal S1x768 .f32) (ix2 (0 : Fin 1) n) = (Cert.KP m c).bk n := by
  obtain ⟨-, -, -, -, -, ⟨e0, e1⟩, -⟩ := idx_facts_w t
  unfold Gen.iblk
  rw [View.read_apply]
  show Gen.V m c main_v6 _ = m ((c : Thread nD τ).loc main_arg6) (ix1 n)
  rw [V_v6]
  refine shapeCast_apply _ _ _ _ ?_
  show ((⟨1, ![768]⟩ : Shape).rowMajor (ix1 n)).val = _
  rw [Shape.rowMajor_val_two, Shape.rowMajor_val_one]
  show n.val = (win0_6.index t (0 : Fin 2) * 1 + 1 * (0 : Fin 1).val) * 768 + (win0_6.index t (1 : Fin 2) * 768 + 1 * n.val)
  rw [e0, e1]; simp

/-- The value bias's block is the whole vector. -/
theorem iblk7_apply (c : Dev nD) (t : Fin cfg0.N) (n : Fin 768) :
    (Gen.iblk m c 7 t : Vec Ideal S1x768 .f32) (ix2 (0 : Fin 1) n) = (Cert.KP m c).bv n := by
  obtain ⟨-, -, -, -, -, -, ⟨e0, e1⟩, -⟩ := idx_facts_w t
  unfold Gen.iblk
  rw [View.read_apply]
  show Gen.V m c main_v7 _ = m ((c : Thread nD τ).loc main_arg7) (ix1 n)
  rw [V_v7]
  refine shapeCast_apply _ _ _ _ ?_
  show ((⟨1, ![768]⟩ : Shape).rowMajor (ix1 n)).val = _
  rw [Shape.rowMajor_val_two, Shape.rowMajor_val_one]
  show n.val = (win0_7.index t (0 : Fin 2) * 1 + 1 * (0 : Fin 1).val) * 768 + (win0_7.index t (1 : Fin 2) * 768 + 1 * n.val)
  rw [e0, e1]; simp

/-- The output bias's block is the whole vector. -/
theorem iblk8_apply (c : Dev nD) (t : Fin cfg0.N) (n : Fin 768) :
    (Gen.iblk m c 8 t : Vec Ideal S1x768 .f32) (ix2 (0 : Fin 1) n) = (Cert.KP m c).bo n := by
  obtain ⟨-, -, -, -, -, -, -, ⟨e0, e1⟩, -⟩ := idx_facts_w t
  unfold Gen.iblk
  rw [View.read_apply]
  show Gen.V m c main_v8 _ = m ((c : Thread nD τ).loc main_arg8) (ix1 n)
  rw [V_v8]
  refine shapeCast_apply _ _ _ _ ?_
  show ((⟨1, ![768]⟩ : Shape).rowMajor (ix1 n)).val = _
  rw [Shape.rowMajor_val_two, Shape.rowMajor_val_one]
  show n.val = (win0_8.index t (0 : Fin 2) * 1 + 1 * (0 : Fin 1).val) * 768 + (win0_8.index t (1 : Fin 2) * 768 + 1 * n.val)
  rw [e0, e1]; simp

/-- The normalisation scale's block is the whole vector. -/
theorem iblk9_apply (c : Dev nD) (t : Fin cfg0.N) (n : Fin 768) :
    (Gen.iblk m c 9 t : Vec Ideal S1x768 .f32) (ix2 (0 : Fin 1) n) = (Cert.KP m c).g n := by
  obtain ⟨-, -, -, -, -, -, -, -, ⟨e0, e1⟩, -⟩ := idx_facts_w t
  unfold Gen.iblk
  rw [View.read_apply]
  show Gen.V m c main_v9 _ = m ((c : Thread nD τ).loc main_arg9) (ix1 n)
  rw [V_v9]
  refine shapeCast_apply _ _ _ _ ?_
  show ((⟨1, ![768]⟩ : Shape).rowMajor (ix1 n)).val = _
  rw [Shape.rowMajor_val_two, Shape.rowMajor_val_one]
  show n.val = (win0_9.index t (0 : Fin 2) * 1 + 1 * (0 : Fin 1).val) * 768 + (win0_9.index t (1 : Fin 2) * 768 + 1 * n.val)
  rw [e0, e1]; simp

/-- The normalisation shift's block is the whole vector. -/
theorem iblk10_apply (c : Dev nD) (t : Fin cfg0.N) (n : Fin 768) :
    (Gen.iblk m c 10 t : Vec Ideal S1x768 .f32) (ix2 (0 : Fin 1) n) = (Cert.KP m c).be n := by
  obtain ⟨-, -, -, -, -, -, -, -, -, ⟨e0, e1⟩⟩ := idx_facts_w t
  unfold Gen.iblk
  rw [View.read_apply]
  show Gen.V m c main_v10 _ = m ((c : Thread nD τ).loc main_arg10) (ix1 n)
  rw [V_v10]
  refine shapeCast_apply _ _ _ _ ?_
  show ((⟨1, ![768]⟩ : Shape).rowMajor (ix1 n)).val = _
  rw [Shape.rowMajor_val_two, Shape.rowMajor_val_one]
  show n.val = (win0_10.index t (0 : Fin 2) * 1 + 1 * (0 : Fin 1).val) * 768 + (win0_10.index t (1 : Fin 2) * 768 + 1 * n.val)
  rw [e0, e1]; simp

/-! ## What a point writes back -/

/-- Every row of a 1024-row block is row 128 bb + i for one of its 8 batches bb and a position i. -/
theorem blk_ext (f g : S1024x768.Idx → EReal)
    (h : ∀ (bb : Fin 8) (i : Fin 128) (n : Fin 768),
      f (ix2 (⟨128 * bb.val + i.val, by omega⟩ : Fin 1024) n) = g (ix2 (⟨128 * bb.val + i.val, by omega⟩ : Fin 1024) n)) :
    f = g := by
  funext y
  obtain ⟨p, q, rfl⟩ : ∃ (p : Fin 1024) (q : Fin 768), y = ix2 p q := ⟨y 0, y 1, eq_ix2 y⟩
  have hp : p.val < 1024 := p.isLt
  have hb : p.val / 128 < 8 := by omega
  have hi : p.val % 128 < 128 := Nat.mod_lt _ (by decide)
  have key := h ⟨p.val / 128, hb⟩ ⟨p.val % 128, hi⟩ q
  have e : (⟨128 * (⟨p.val / 128, hb⟩ : Fin 8).val + (⟨p.val % 128, hi⟩ : Fin 128).val, by
      show 128 * (p.val / 128) + p.val % 128 < 1024; omega⟩ : Fin 1024) = p :=
    Fin.ext (by show 128 * (p.val / 128) + p.val % 128 = p.val; omega)
  rw [e] at key
  exact key

/-- The body's value at row 128 bb + i of point t's block is the whole-array function at the row of the array that
    entry is written to, row 1024 t + 128 bb + i: both are the fused function at batch 8 t + bb, position i. -/
theorem point_eq (c : Dev nD) (t : Fin cfg0.N) (bb : Fin 8) (i : Fin 128) (n : Fin 768) :
    body (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) (Gen.iblk m c 9 t) (Gen.iblk m c 10 t)
        (ix2 (⟨128 * bb.val + i.val, by omega⟩ : Fin 1024) n)
      = rowsK (Cert.KP m c) (((cfg0.win 11).blk t).view.emb (ix2 (⟨128 * bb.val + i.val, by omega⟩ : Fin 1024) n)) := by
  have ht : t.val < 8 := lt_of_lt_of_eq t.isLt Gen.N_0
  obtain ⟨-, -, e0, e1⟩ := idx_facts t
  have hemb : ((cfg0.win 11).blk t).view.emb (ix2 (⟨128 * bb.val + i.val, by omega⟩ : Fin 1024) n)
      = (ix2 (⟨1024 * t.val + 128 * bb.val + i.val, by omega⟩ : Fin 8192) n : S8192x768.Idx) := by
    funext a; apply Fin.ext
    match a with
    | ⟨0, _⟩ => show win0_11.index t (0 : Fin 2) * 1024 + 1 * (128 * bb.val + i.val) = 1024 * t.val + 128 * bb.val + i.val; rw [e0]; omega
    | ⟨1, _⟩ => show win0_11.index t (1 : Fin 2) * 768 + 1 * n.val = n.val; rw [e1]; omega
  rw [hemb, rowsK_apply (Cert.KP m c) _ n (⟨8 * t.val + bb.val, by omega⟩ : Fin 64) i
    (by show 1024 * t.val + 128 * bb.val + i.val = 128 * (8 * t.val + bb.val) + i.val; omega)]
  exact body_value (Cert.KP m c) (⟨8 * t.val + bb.val, by omega⟩ : Fin 64) bb
    (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) (Gen.iblk m c 9 t) (Gen.iblk m c 10 t)
    (fun i' k => iblk0_apply m c t _ k _ i' (by show 1024 * t.val + (128 * bb.val + i'.val) = 128 * (8 * t.val + bb.val) + i'.val; omega))
    (iblk1_apply m c t) (iblk2_apply m c t) (iblk3_apply m c t) (iblk4_apply m c t) (iblk5_apply m c t) (iblk6_apply m c t)
    (iblk7_apply m c t) (iblk8_apply m c t) (iblk9_apply m c t) (iblk10_apply m c t) i n

/-- So point t writes back block t of the whole-array function. -/
theorem flushed_eq (c : Dev nD) (t : Fin cfg0.N) :
    (Gen.dats m 0 c).flushed 11 t = ((cfg0.win 11).blk t).view.read (Elt Ideal) (rowsK (Cert.KP m c)) := by
  show (cfg0.win 11).cut (grid0.coords t) ((Gen.dats m 0 c).after 11 t) = _
  rw [Gen.after0_11, out_eq_body, View.canon_unit_zero hz]
  simp only [View.ld_unit_zero (S := S1024x768) hz, View.ld_unit_zero (S := S768x768) hz, View.ld_unit_zero (S := S1x768) hz]
  exact blk_ext _ _ (point_eq m c t)

/-! ## The eight row blocks tile the array -/

/-- An index of the array is in point t's block iff each coordinate is in the block's range on its axis. -/
theorem mem_blk (t : Fin cfg0.N) (i : S8192x768.Idx) :
    i ∈ ((cfg0.win 11).blk t).view.set ↔ ∀ a : Fin 2, win0_11.index t a * S1024x768.size a ≤ (i a).val ∧ (i a).val < win0_11.index t a * S1024x768.size a + S1024x768.size a := by
  show i ∈ ((View.whole main_v11).slice (win0_11.rect t)).set ↔ _
  rw [View.set_slice_whole, Rect.mem_set_unit]
  exact Iff.rfl

/-- Row r is in the block of point r / 1024. -/
theorem cover (i : S8192x768.Idx) :
    ∃ t : Fin cfg0.N, (cfg0.win 11).flush t = true ∧ i ∈ ((cfg0.win 11).blk t).view.set := by
  have h0 : (i 0).val < 8192 := (i 0).isLt
  have h1 : (i 1).val < 768 := (i 1).isLt
  have hN : cfg0.N = 8 := Gen.N_0
  obtain ⟨t, ht⟩ : ∃ t : Fin cfg0.N, t.val = (i 0).val / 1024 := ⟨⟨(i 0).val / 1024, by rw [hN]; omega⟩, rfl⟩
  obtain ⟨-, -, e0, e1⟩ := idx_facts t
  refine ⟨t, Gen.flush0_11 t, ?_⟩
  rw [mem_blk]
  intro a
  match a with
  | ⟨0, _⟩ => show win0_11.index t (0 : Fin 2) * 1024 ≤ (i 0).val ∧ (i 0).val < win0_11.index t (0 : Fin 2) * 1024 + 1024; rw [e0, ht]; omega
  | ⟨1, _⟩ => show win0_11.index t (1 : Fin 2) * 768 ≤ (i 1).val ∧ (i 1).val < win0_11.index t (1 : Fin 2) * 768 + 768; rw [e1]; omega

/-- So the array ends holding the whole-array function. -/
theorem final (c : Dev nD) : (Gen.dats m 0 c).arrAt 11 cfg0.N = rowsK (Cert.KP m c) :=
  (Gen.dats m 0 c).arrAt_eq_of_cover 11 (rowsK (Cert.KP m c)) (fun t _ => flushed_eq m c t) cover

/-! ## The last host step: the 8192 rows regrouped as 64 batches of 128 positions -/

theorem tail (c : Dev nD) :
    Pipeline.afterTail₀ cfgs (Gen.dats m) 0 (Gen.V0 m) [Gen.hostOps1] c main_v12 = Cert.resOf (Attn.outK (Cert.KP m c)) := by
  unfold Pipeline.afterTail₀
  show StableHlo.after Gen.hostOps1 _ (Proc.devRef .tc main_v12) = _
  after_results
  rw [show Pipeline.withArrays (cfgs 0).spec c (Gen.V0 m c) (fun w => (Gen.dats m 0 c).arrAt w (cfgs 0).N) (Proc.devRef .tc main_v11)
      = rowsK (Cert.KP m c) from (Pipeline.withArrays_arr spec0 Gen.launch0.win.arr_inj c _ _ 11).trans (final m c)]
  funext j
  obtain ⟨b, i, n, rfl⟩ : ∃ (b : Fin 64) (i : Fin 128) (n : Fin 768), j = ix3 b i n := ⟨j 0, j 1, j 2, eq_ix3 j⟩
  show shapeCast S64x128x768 (rowsK (Cert.KP m c)) _ (ix3 b i n) = Attn.outK (Cert.KP m c) b i n
  refine (shapeCast_apply _ _ _ (ix2 (⟨128 * b.val + i.val, by omega⟩ : Fin 8192) n) ?_).trans (rowsK_apply _ _ _ b i rfl)
  rw [Shape.rowMajor_val_two, Shape.rowMajor_val_three]
  show (128 * b.val + i.val) * 768 + n.val = (b.val * 128 + i.val) * 768 + n.val
  omega

end

/-! ## The run -/

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v12) = Cert.resOf (Attn.outK (Cert.KP m c))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)) :=
  (θ_run defs _ _).mono (fun r h c =>
    ⟨((h c).2 main_v12 (Pipeline.mem_restRefs_of main_v12 (by decide) (by decide))).trans (tail m c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).2 main_arg2 (Pipeline.mem_restRefs_of main_arg2 (by decide) (by decide))).trans (Gen.W_main_arg2 m (Gen.dats m) c),
      ((h c).2 main_arg3 (Pipeline.mem_restRefs_of main_arg3 (by decide) (by decide))).trans (Gen.W_main_arg3 m (Gen.dats m) c),
      ((h c).2 main_arg4 (Pipeline.mem_restRefs_of main_arg4 (by decide) (by decide))).trans (Gen.W_main_arg4 m (Gen.dats m) c),
      ((h c).2 main_arg5 (Pipeline.mem_restRefs_of main_arg5 (by decide) (by decide))).trans (Gen.W_main_arg5 m (Gen.dats m) c),
      ((h c).2 main_arg6 (Pipeline.mem_restRefs_of main_arg6 (by decide) (by decide))).trans (Gen.W_main_arg6 m (Gen.dats m) c),
      ((h c).2 main_arg7 (Pipeline.mem_restRefs_of main_arg7 (by decide) (by decide))).trans (Gen.W_main_arg7 m (Gen.dats m) c),
      ((h c).2 main_arg8 (Pipeline.mem_restRefs_of main_arg8 (by decide) (by decide))).trans (Gen.W_main_arg8 m (Gen.dats m) c),
      ((h c).2 main_arg9 (Pipeline.mem_restRefs_of main_arg9 (by decide) (by decide))).trans (Gen.W_main_arg9 m (Gen.dats m) c),
      ((h c).2 main_arg10 (Pipeline.mem_restRefs_of main_arg10 (by decide) (by decide))).trans (Gen.W_main_arg10 m (Gen.dats m) c)⟩)
    (Gen.run_main m ρ)

end Cert.KernelIdeal.KV

end
-- ==== Proof.RHost.lean ====
/-
  The host operations between the calls, read at an entry: the flattening of the input, the transposed weights, the
  bias rows, the split into (batch, head) blocks and its inverse, the buffers no later step touches, and the final
  unflattening.
-/
import proofs.«120191_g2000702396236789_pallasbulk_1056_11_alg».proof.Proof.Gen.ReferenceIdeal.Frame
import proofs.«120191_g2000702396236789_pallasbulk_1056_11_alg».proof.Proof.Spec
import Idealize.ShloMosaic.Lib.Pipeline.Value
import Idealize.ShloMosaic.Lib.ValueLayout
import Idealize.ShloMosaic.Lib.StableHlo.Run

noncomputable section

namespace Cert.ReferenceIdeal.RV

open Idealize.ShloMosaic Idealize.ShloMosaic.ValueIdx Idealize.SL.Sem Cert.ReferenceIdeal
open scoped BigOperators

variable (m : (ℓ : Loc nD τ sig) → Buf (Elt Ideal) ℓ) (ρ : Dev nD → PrngReg) (c : Dev nD)

theorem V1_x (b : Fin 64) (i : Fin 128) (k : Fin 768) :
    Gen.V1 m ρ c main_v0 (ix2 (Attn.rowOf b i) k) = m ((c.tc : Thread nD τ).loc main_arg0) (ix3 b i k) := by
  show StableHlo.after Gen.hostOps0 (Gen.W0 m ρ c) (Proc.devRef .tc main_v0) _ = _
  after_results
  exact shapeCast_apply (s := S64x128x768) (t := S8192x768) _ _ (ix2 (Attn.rowOf b i) k) (ix3 b i k) (by
    rw [Shape.rowMajor_val_three, Shape.rowMajor_val_two]
    show (b.val * 128 + i.val) * 768 + k.val = (128 * b.val + i.val) * 768 + k.val
    omega)

theorem V1_w1 (k n : Fin 768) : Gen.V1 m ρ c main_v1 (ix2 k n) = m ((c.tc : Thread nD τ).loc main_arg1) (ix2 n k) := by
  show StableHlo.after Gen.hostOps0 (Gen.W0 m ρ c) (Proc.devRef .tc main_v1) _ = _
  after_results
  exact transpose_ix2_apply _ _ k n

theorem V1_w2 (k n : Fin 768) : Gen.V1 m ρ c main_v2 (ix2 k n) = m ((c.tc : Thread nD τ).loc main_arg2) (ix2 n k) := by
  show StableHlo.after Gen.hostOps0 (Gen.W0 m ρ c) (Proc.devRef .tc main_v2) _ = _
  after_results
  exact transpose_ix2_apply _ _ k n

theorem V1_w3 (k n : Fin 768) : Gen.V1 m ρ c main_v3 (ix2 k n) = m ((c.tc : Thread nD τ).loc main_arg3) (ix2 n k) := by
  show StableHlo.after Gen.hostOps0 (Gen.W0 m ρ c) (Proc.devRef .tc main_v3) _ = _
  after_results
  exact transpose_ix2_apply _ _ k n

theorem V1_w4 (k n : Fin 768) : Gen.V1 m ρ c main_v4 (ix2 k n) = m ((c.tc : Thread nD τ).loc main_arg4) (ix2 n k) := by
  show StableHlo.after Gen.hostOps0 (Gen.W0 m ρ c) (Proc.devRef .tc main_v4) _ = _
  after_results
  exact transpose_ix2_apply _ _ k n

theorem V1_b5 (n : Fin 768) : Gen.V1 m ρ c main_v5 (ix2 (0 : Fin 1) n) = m ((c.tc : Thread nD τ).loc main_arg5) (ix1 n) := by
  show StableHlo.after Gen.hostOps0 (Gen.W0 m ρ c) (Proc.devRef .tc main_v5) _ = _
  after_results
  exact shapeCast_a_1a_apply _ _ 0 n

theorem V1_b6 (n : Fin 768) : Gen.V1 m ρ c main_v6 (ix2 (0 : Fin 1) n) = m ((c.tc : Thread nD τ).loc main_arg6) (ix1 n) := by
  show StableHlo.after Gen.hostOps0 (Gen.W0 m ρ c) (Proc.devRef .tc main_v6) _ = _
  after_results
  exact shapeCast_a_1a_apply _ _ 0 n

theorem V1_b7 (n : Fin 768) : Gen.V1 m ρ c main_v7 (ix2 (0 : Fin 1) n) = m ((c.tc : Thread nD τ).loc main_arg7) (ix1 n) := by
  show StableHlo.after Gen.hostOps0 (Gen.W0 m ρ c) (Proc.devRef .tc main_v7) _ = _
  after_results
  exact shapeCast_a_1a_apply _ _ 0 n

theorem V1_b8 (n : Fin 768) : Gen.V1 m ρ c main_v8 (ix2 (0 : Fin 1) n) = m ((c.tc : Thread nD τ).loc main_arg8) (ix1 n) := by
  show StableHlo.after Gen.hostOps0 (Gen.W0 m ρ c) (Proc.devRef .tc main_v8) _ = _
  after_results
  exact shapeCast_a_1a_apply _ _ 0 n

theorem V1_b9 (n : Fin 768) : Gen.V1 m ρ c main_v9 (ix2 (0 : Fin 1) n) = m ((c.tc : Thread nD τ).loc main_arg9) (ix1 n) := by
  show StableHlo.after Gen.hostOps0 (Gen.W0 m ρ c) (Proc.devRef .tc main_v9) _ = _
  after_results
  exact shapeCast_a_1a_apply _ _ 0 n

theorem V1_b10 (n : Fin 768) : Gen.V1 m ρ c main_v10 (ix2 (0 : Fin 1) n) = m ((c.tc : Thread nD τ).loc main_arg10) (ix1 n) := by
  show StableHlo.after Gen.hostOps0 (Gen.W0 m ρ c) (Proc.devRef .tc main_v10) _ = _
  after_results
  exact shapeCast_a_1a_apply _ _ 0 n

theorem V3_q (b : Fin 64) (h : Fin 12) (i : Fin 128) (e : Fin 64) :
    Gen.V3 m ρ c main_v14 (ix3 (⟨12 * b.val + h.val, by omega⟩ : Fin 768) i e) = Gen.V2 m ρ c main_v11_0 (ix2 (Attn.rowOf b i) (Attn.colOf h e)) := by
  show StableHlo.after Gen.hostOps1 (Gen.W2 m ρ c) (Proc.devRef .tc main_v14) _ = _
  after_results
  refine (shapeCast_apply (s := S64x12x128x64) (t := S768x128x64) _ _ _ (ix4 b h i e) ?_).trans ?_
  · rw [Shape.rowMajor_val_four, Shape.rowMajor_val_three]
    show ((b.val * 12 + h.val) * 128 + i.val) * 64 + e.val = ((12 * b.val + h.val) * 128 + i.val) * 64 + e.val
    omega
  refine (transpose_apply (s := S64x128x12x64) (t := S64x12x128x64) [0, 2, 1, 3] _ _ (ix4 b h i e) (ix4 b i h e) ?_).trans ?_
  · intro a; fin_cases a <;> rfl
  exact shapeCast_apply (s := S8192x768) (t := S64x128x12x64) _ _ (ix4 b i h e) (ix2 (Attn.rowOf b i) (Attn.colOf h e)) (by
    rw [Shape.rowMajor_val_two, Shape.rowMajor_val_four]
    show (128 * b.val + i.val) * 768 + (64 * h.val + e.val) = ((b.val * 128 + i.val) * 12 + h.val) * 64 + e.val
    omega)

theorem V3_k (b : Fin 64) (h : Fin 12) (i : Fin 128) (e : Fin 64) :
    Gen.V3 m ρ c main_v17 (ix3 (⟨12 * b.val + h.val, by omega⟩ : Fin 768) i e) = Gen.V2 m ρ c main_v11_1 (ix2 (Attn.rowOf b i) (Attn.colOf h e)) := by
  show StableHlo.after Gen.hostOps1 (Gen.W2 m ρ c) (Proc.devRef .tc main_v17) _ = _
  after_results
  refine (shapeCast_apply (s := S64x12x128x64) (t := S768x128x64) _ _ _ (ix4 b h i e) ?_).trans ?_
  · rw [Shape.rowMajor_val_four, Shape.rowMajor_val_three]
    show ((b.val * 12 + h.val) * 128 + i.val) * 64 + e.val = ((12 * b.val + h.val) * 128 + i.val) * 64 + e.val
    omega
  refine (transpose_apply (s := S64x128x12x64) (t := S64x12x128x64) [0, 2, 1, 3] _ _ (ix4 b h i e) (ix4 b i h e) ?_).trans ?_
  · intro a; fin_cases a <;> rfl
  exact shapeCast_apply (s := S8192x768) (t := S64x128x12x64) _ _ (ix4 b i h e) (ix2 (Attn.rowOf b i) (Attn.colOf h e)) (by
    rw [Shape.rowMajor_val_two, Shape.rowMajor_val_four]
    show (128 * b.val + i.val) * 768 + (64 * h.val + e.val) = ((b.val * 128 + i.val) * 12 + h.val) * 64 + e.val
    omega)

theorem V3_v (b : Fin 64) (h : Fin 12) (i : Fin 128) (e : Fin 64) :
    Gen.V3 m ρ c main_v20 (ix3 (⟨12 * b.val + h.val, by omega⟩ : Fin 768) i e) = Gen.V2 m ρ c main_v11_2 (ix2 (Attn.rowOf b i) (Attn.colOf h e)) := by
  show StableHlo.after Gen.hostOps1 (Gen.W2 m ρ c) (Proc.devRef .tc main_v20) _ = _
  after_results
  refine (shapeCast_apply (s := S64x12x128x64) (t := S768x128x64) _ _ _ (ix4 b h i e) ?_).trans ?_
  · rw [Shape.rowMajor_val_four, Shape.rowMajor_val_three]
    show ((b.val * 12 + h.val) * 128 + i.val) * 64 + e.val = ((12 * b.val + h.val) * 128 + i.val) * 64 + e.val
    omega
  refine (transpose_apply (s := S64x128x12x64) (t := S64x12x128x64) [0, 2, 1, 3] _ _ (ix4 b h i e) (ix4 b i h e) ?_).trans ?_
  · intro a; fin_cases a <;> rfl
  exact shapeCast_apply (s := S8192x768) (t := S64x128x12x64) _ _ (ix4 b i h e) (ix2 (Attn.rowOf b i) (Attn.colOf h e)) (by
    rw [Shape.rowMajor_val_two, Shape.rowMajor_val_four]
    show (128 * b.val + i.val) * 768 + (64 * h.val + e.val) = ((b.val * 128 + i.val) * 12 + h.val) * 64 + e.val
    omega)

theorem V5_ctx (b : Fin 64) (h : Fin 12) (i : Fin 128) (e : Fin 64) :
    Gen.V5 m ρ c main_v24 (ix2 (Attn.rowOf b i) (Attn.colOf h e)) = Gen.V4 m ρ c main_v21 (ix3 (⟨12 * b.val + h.val, by omega⟩ : Fin 768) i e) := by
  show StableHlo.after Gen.hostOps2 (Gen.W4 m ρ c) (Proc.devRef .tc main_v24) _ = _
  after_results
  refine (shapeCast_apply (s := S64x128x12x64) (t := S8192x768) _ _ _ (ix4 b i h e) ?_).trans ?_
  · rw [Shape.rowMajor_val_four, Shape.rowMajor_val_two]
    show ((b.val * 128 + i.val) * 12 + h.val) * 64 + e.val = (128 * b.val + i.val) * 768 + (64 * h.val + e.val)
    omega
  refine (transpose_apply (s := S64x12x128x64) (t := S64x128x12x64) [0, 2, 1, 3] _ _ (ix4 b i h e) (ix4 b h i e) ?_).trans ?_
  · intro a; fin_cases a <;> rfl
  exact shapeCast_apply (s := S768x128x64) (t := S64x12x128x64) _ _ (ix4 b h i e) (ix3 (⟨12 * b.val + h.val, by omega⟩ : Fin 768) i e) (by
    rw [Shape.rowMajor_val_three, Shape.rowMajor_val_four]
    show ((12 * b.val + h.val) * 128 + i.val) * 64 + e.val = ((b.val * 12 + h.val) * 128 + i.val) * 64 + e.val
    omega)

theorem V5_keep_main_v0 : Gen.V5 m ρ c main_v0 = Gen.V1 m ρ c main_v0 := by
  show StableHlo.after Gen.hostOps2 (Gen.W4 m ρ c) (Proc.devRef .tc main_v0) = _
  after_results
  rw [Gen.W4_of_ne m ρ c main_v0 (by decide)]
  show StableHlo.after Gen.hostOps1 (Gen.W2 m ρ c) (Proc.devRef .tc main_v0) = _
  after_results
  exact (Gen.W2_arr m ρ c 0).trans (((Gen.dat0 (Gen.V1 m ρ) c).arrAt_in 0 rfl _).trans (Gen.A_eq0 (Gen.V1 m ρ) c 0))

theorem V5_keep_main_v4 : Gen.V5 m ρ c main_v4 = Gen.V1 m ρ c main_v4 := by
  show StableHlo.after Gen.hostOps2 (Gen.W4 m ρ c) (Proc.devRef .tc main_v4) = _
  after_results
  rw [Gen.W4_of_ne m ρ c main_v4 (by decide)]
  show StableHlo.after Gen.hostOps1 (Gen.W2 m ρ c) (Proc.devRef .tc main_v4) = _
  after_results
  exact Gen.W2_of_ne m ρ c main_v4 (by decide)

theorem V5_keep_main_v8 : Gen.V5 m ρ c main_v8 = Gen.V1 m ρ c main_v8 := by
  show StableHlo.after Gen.hostOps2 (Gen.W4 m ρ c) (Proc.devRef .tc main_v8) = _
  after_results
  rw [Gen.W4_of_ne m ρ c main_v8 (by decide)]
  show StableHlo.after Gen.hostOps1 (Gen.W2 m ρ c) (Proc.devRef .tc main_v8) = _
  after_results
  exact Gen.W2_of_ne m ρ c main_v8 (by decide)

theorem V5_keep_main_v9 : Gen.V5 m ρ c main_v9 = Gen.V1 m ρ c main_v9 := by
  show StableHlo.after Gen.hostOps2 (Gen.W4 m ρ c) (Proc.devRef .tc main_v9) = _
  after_results
  rw [Gen.W4_of_ne m ρ c main_v9 (by decide)]
  show StableHlo.after Gen.hostOps1 (Gen.W2 m ρ c) (Proc.devRef .tc main_v9) = _
  after_results
  exact Gen.W2_of_ne m ρ c main_v9 (by decide)

theorem V5_keep_main_v10 : Gen.V5 m ρ c main_v10 = Gen.V1 m ρ c main_v10 := by
  show StableHlo.after Gen.hostOps2 (Gen.W4 m ρ c) (Proc.devRef .tc main_v10) = _
  after_results
  rw [Gen.W4_of_ne m ρ c main_v10 (by decide)]
  show StableHlo.after Gen.hostOps1 (Gen.W2 m ρ c) (Proc.devRef .tc main_v10) = _
  after_results
  exact Gen.W2_of_ne m ρ c main_v10 (by decide)

theorem W7_res (b : Fin 64) (i : Fin 128) (n : Fin 768) :
    Gen.W7 m ρ c (Proc.devRef .tc main_v26) (ix3 b i n) = Gen.V6 m ρ c main_v25 (ix2 (Attn.rowOf b i) n) := by
  show StableHlo.after Gen.hostOps3 (Gen.W6 m ρ c) (Proc.devRef .tc main_v26) _ = _
  after_results
  exact shapeCast_apply (s := S8192x768) (t := S64x128x768) _ _ (ix3 b i n) (ix2 (Attn.rowOf b i) n) (by
    rw [Shape.rowMajor_val_two, Shape.rowMajor_val_three]
    show (128 * b.val + i.val) * 768 + n.val = (b.val * 128 + i.val) * 768 + n.val
    omega)

end Cert.ReferenceIdeal.RV

end
-- ==== Proof.RReg0.lean ====
/-
  The first call's three results read at an entry: each is the dense layer of the input row with the transposed
  weights it was given and its bias row.
-/
import proofs.«120191_g2000702396236789_pallasbulk_1056_11_alg».proof.Proof.Gen.ReferenceIdeal.Frame
import proofs.«120191_g2000702396236789_pallasbulk_1056_11_alg».proof.Proof.Spec
import Idealize.ShloMosaic.PureOps.Ideal.Laws
import Idealize.ShloMosaic.Lib.Pipeline.Value
import Idealize.ShloMosaic.Lib.ValueLayout

-- membership in a rectangle of 8192 rows: the structural look recurses once per coordinate of the long axis
set_option maxRecDepth 16384

noncomputable section

namespace Cert.ReferenceIdeal.RV

open Idealize.ShloMosaic Idealize.ShloMosaic.ValueIdx Idealize.ShloMosaic.TcCoe Idealize.SL.Sem Cert.ReferenceIdeal
open scoped BigOperators

namespace Reg0

/-! ## The product's operand indices, axis by axis -/

theorem lhs_proj_0 (i : S512x768.Idx) (q : dot_S512x768_S768x768_S512x768_1_0_0_1_n_n.contr.Idx) :
    (dot_S512x768_S768x768_S512x768_1_0_0_1_n_n.lhsIdx i q 0).val = (i 0).val := by
  unfold DotDims.lhsIdx
  rw [dif_neg (show ¬(0 : Fin S512x768.rank) ∈ dot_S512x768_S768x768_S512x768_1_0_0_1_n_n.lhsBatch by decide), dif_pos (show (0 : Fin S512x768.rank) ∈ dot_S512x768_S768x768_S512x768_1_0_0_1_n_n.lhsNonContracting by decide)]
  rfl

theorem lhs_proj_1 (i : S512x768.Idx) (q : dot_S512x768_S768x768_S512x768_1_0_0_1_n_n.contr.Idx) :
    (dot_S512x768_S768x768_S512x768_1_0_0_1_n_n.lhsIdx i q 1).val = (q ⟨0, by decide⟩).val :=
  dot_S512x768_S768x768_S512x768_1_0_0_1_n_n.lhsIdx_val_of_single rfl i q

theorem rhs_proj_0 (i : S512x768.Idx) (q : dot_S512x768_S768x768_S512x768_1_0_0_1_n_n.contr.Idx) :
    (dot_S512x768_S768x768_S512x768_1_0_0_1_n_n.rhsIdx i q 0).val = (q ⟨0, by decide⟩).val :=
  dot_S512x768_S768x768_S512x768_1_0_0_1_n_n.rhsIdx_val_of_single rfl i q

theorem rhs_proj_1 (i : S512x768.Idx) (q : dot_S512x768_S768x768_S512x768_1_0_0_1_n_n.contr.Idx) :
    (dot_S512x768_S768x768_S512x768_1_0_0_1_n_n.rhsIdx i q 1).val = (i 1).val := by
  unfold DotDims.rhsIdx
  rw [dif_neg (show ¬(1 : Fin S768x768.rank) ∈ dot_S512x768_S768x768_S512x768_1_0_0_1_n_n.rhsBatch by decide), dif_pos (show (1 : Fin S768x768.rank) ∈ dot_S512x768_S768x768_S512x768_1_0_0_1_n_n.rhsNonContracting by decide)]
  rfl

/-- The block product at an entry: the sum over the 768 features of row p of the left block times column q of the right. -/
theorem matmul_proj_apply (x : FVec Ideal S512x768 .f32) (w : FVec Ideal S768x768 .f32) (p : Fin 512) (q : Fin 768) :
    matmul dot_S512x768_S768x768_S512x768_1_0_0_1_n_n none x w (constant S512x768 .f32 0x00000000#32) (ix2 p q)
      = ∑ k : Fin 768, x (ix2 p k) * w (ix2 k q) := by
  simp only [matmul]
  rw [Ideal.matmul_constant_zero_apply, ← Equiv.sum_comp (contrEquiv1 dot_S512x768_S768x768_S512x768_1_0_0_1_n_n 768 rfl rfl).symm]
  refine Finset.sum_congr rfl fun k _ => ?_
  have hk := contrEquiv1_symm_val dot_S512x768_S768x768_S512x768_1_0_0_1_n_n 768 rfl rfl k
  have el : dot_S512x768_S768x768_S512x768_1_0_0_1_n_n.lhsIdx (ix2 p q) ((contrEquiv1 dot_S512x768_S768x768_S512x768_1_0_0_1_n_n 768 rfl rfl).symm k) = ix2 p k := funext fun a => Fin.ext (by
    match a with
    | ⟨0, _⟩ => exact lhs_proj_0 _ _
    | ⟨1, _⟩ => exact (lhs_proj_1 _ _).trans hk)
  have er : dot_S512x768_S768x768_S512x768_1_0_0_1_n_n.rhsIdx (ix2 p q) ((contrEquiv1 dot_S512x768_S768x768_S512x768_1_0_0_1_n_n 768 rfl rfl).symm k) = ix2 k q := funext fun a => Fin.ext (by
    match a with
    | ⟨0, _⟩ => exact (rhs_proj_0 _ _).trans hk
    | ⟨1, _⟩ => exact rhs_proj_1 _ _)
  rw [el, er]

/-- The body's result block at an entry: the product plus the bias row. -/
theorem pay_proj_apply (x : Vec Ideal S512x768 .f32) (w : Vec Ideal S768x768 .f32) (b : Vec Ideal S1x768 .f32) (p : Fin 512) (q : Fin 768) :
    Gen.k0_pay2 x w b (ix2 p q) = (∑ k : Fin 768, x (ix2 p k) * w (ix2 k q)) + b (ix2 (0 : Fin 1) q) := by
  unfold Gen.k0_pay2 Gen.k0_pay1
  simp only [shapeCast_self]
  rw [addf_apply, matmul_proj_apply, broadcastTo_1b_ab_apply]

theorem pay3_eq : @Gen.k0_pay3 Ideal _ = Gen.k0_pay2 := rfl
theorem pay4_eq : @Gen.k0_pay4 Ideal _ = Gen.k0_pay2 := rfl

/-! ## From blocks to the arrays -/

/-- A dense layer over whole arrays: entry (r, n) is the sum over k of X (r, k) * W (k, n), plus the bias row at n. -/
def denseArr (X : FVec Ideal S8192x768 .f32) (W : FVec Ideal S768x768 .f32) (B : FVec Ideal S1x768 .f32) : FVec Ideal S8192x768 .f32 :=
  fun i => (∑ k : Fin 768, X (ix2 (i 0) k) * W (ix2 k (i 1))) + B (ix2 (0 : Fin 1) (i 1))

theorem hz : (![0, 0] : Fin 2 → Nat) = fun _ => 0 := funext fun a => by fin_cases a <;> rfl

/-- A result block is the block of `denseArr`: the input block holds rows o * 512 … of X, the weights and the bias row are whole. -/
theorem blk_proj (X : FVec Ideal S8192x768 .f32) (W : FVec Ideal S768x768 .f32) (B : FVec Ideal S1x768 .f32)
    (x : Vec Ideal S512x768 .f32) (w : Vec Ideal S768x768 .f32) (b : Vec Ideal S1x768 .f32) (o : Nat)
    (hx : ∀ (y : S512x768.Idx) (i : S8192x768.Idx), (i 0).val = o * 512 + (y 0).val → (i 1).val = (y 1).val → x y = X i)
    (hw : w = W) (hb : b = B)
    (y : S512x768.Idx) (i : S8192x768.Idx) (hi0 : (i 0).val = o * 512 + (y 0).val) (hi1 : (i 1).val = (y 1).val) :
    Gen.k0_pay2 x w b y = denseArr X W B i := by
  obtain ⟨p, q, rfl⟩ : ∃ (p : Fin 512) (q : Fin 768), y = ix2 p q := ⟨y 0, y 1, eq_ix2 y⟩
  obtain ⟨r, n, rfl⟩ : ∃ (r : Fin 8192) (n : Fin 768), i = ix2 r n := ⟨i 0, i 1, eq_ix2 i⟩
  obtain rfl : n = q := Fin.ext hi1
  subst hw hb
  rw [pay_proj_apply]
  show _ = (∑ k : Fin 768, X (ix2 r k) * w (ix2 k n)) + b (ix2 (0 : Fin 1) n)
  refine congrArg (· + b (ix2 (0 : Fin 1) n)) (Finset.sum_congr rfl fun k _ => ?_)
  rw [hx (ix2 p k) (ix2 r k) hi0 rfl]

section Region

variable (V : (c : Dev nD) → (b : Ref sig .tc) → Buf (Elt Ideal) ((c : Thread nD τ).loc b))

/-- The printed index maps over the grid: the input rows and the three results move together, one block of rows per
    point; the weights and bias rows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- What point t writes back to the first result is block t of the dense layer of the arrays as the region finds them. -/
theorem flushed7_eq (c : Dev nD) (t : Fin cfg0.N) :
    (Gen.dat0 V c).flushed 7 t = ((cfg0.win 7).blk t).view.read (Elt Ideal) (denseArr (V c main_v0) (V c main_v1) (V c main_v5)) := by
  show (cfg0.win 7).cut (grid0.coords t) ((Gen.dat0 V c).after 7 t) = _
  rw [Gen.after0_7]
  unfold Gen.out0_7
  rw [View.canon_unit_zero hz]
  simp only [View.ld_unit_zero (S := S512x768) hz, View.ld_unit_zero (S := S768x768) hz, View.ld_unit_zero (S := S1x768) hz]
  obtain ⟨e00, e01, e10, e11, e20, e21, e30, e31, e40, e41, e50, e51, e60, e61, e70, e71, e80, e81, e90, e91⟩ := idx_facts t
  funext j
  refine blk_proj (V c main_v0) (V c main_v1) (V c main_v5) (Gen.iblk0 V c 0 t) (Gen.iblk0 V c 1 t) (Gen.iblk0 V c 4 t) t.val ?_ ?_ ?_ j (((cfg0.win 7).blk t).view.emb j) ?_ ?_
  · intro y i h0 h1
    show V c main_v0 (((cfg0.win 0).blk t).view.emb y) = V c main_v0 i
    refine congrArg _ (funext fun a => Fin.ext ?_)
    match a with
    | ⟨0, _⟩ => show win0_0.index t (0 : Fin 2) * 512 + 1 * (y 0).val = (i 0).val; omega
    | ⟨1, _⟩ => show win0_0.index t (1 : Fin 2) * 768 + 1 * (y 1).val = (i 1).val; omega
  · funext y
    show V c main_v1 (((cfg0.win 1).blk t).view.emb y) = V c main_v1 y
    refine congrArg _ (funext fun a => Fin.ext ?_)
    match a with
    | ⟨0, _⟩ => show win0_1.index t (0 : Fin 2) * 768 + 1 * (y 0).val = (y 0).val; omega
    | ⟨1, _⟩ => show win0_1.index t (1 : Fin 2) * 768 + 1 * (y 1).val = (y 1).val; omega
  · funext y
    show V c main_v5 (((cfg0.win 4).blk t).view.emb y) = V c main_v5 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 768 + 1 * (y 1).val = (y 1).val; omega
  · show win0_7.index t (0 : Fin 2) * 512 + 1 * (j 0).val = t.val * 512 + (j 0).val; omega
  · show win0_7.index t (1 : Fin 2) * 768 + 1 * (j 1).val = (j 1).val; omega

/-- An entry of the first result is in point t's block iff each coordinate is in the block's range on its axis. -/
theorem mem_blk7 (t : Fin cfg0.N) (i : S8192x768.Idx) :
    i ∈ ((cfg0.win 7).blk t).view.set ↔ ∀ a : Fin 2, win0_7.index t a * S512x768.size a ≤ (i a).val ∧ (i a).val < win0_7.index t a * S512x768.size a + S512x768.size a := by
  show i ∈ ((View.whole main_v11_0).slice (win0_7.rect t)).set ↔ _
  rw [View.set_slice_whole, Rect.mem_set_unit]
  exact Iff.rfl

/-- Row r of the first result is in the block of point r / 512. -/
theorem cover7 (i : S8192x768.Idx) : ∃ t : Fin cfg0.N, (cfg0.win 7).flush t = true ∧ i ∈ ((cfg0.win 7).blk t).view.set := by
  have hi0 : (i 0).val < 8192 := (i 0).isLt
  have hi1 : (i 1).val < 768 := (i 1).isLt
  have hN : cfg0.N = 16 := Gen.N_0
  refine ⟨⟨(i 0).val / 512, by omega⟩, Gen.flush0_7 _, ?_⟩
  rw [mem_blk7]
  obtain ⟨e00, e01, e10, e11, e20, e21, e30, e31, e40, e41, e50, e51, e60, e61, e70, e71, e80, e81, e90, e91⟩ := idx_facts ⟨(i 0).val / 512, by omega⟩
  intro a
  match a with
  | ⟨0, _⟩ =>
    show win0_7.index ⟨(i 0).val / 512, _⟩ (0 : Fin 2) * 512 ≤ (i 0).val ∧ (i 0).val < win0_7.index ⟨(i 0).val / 512, _⟩ (0 : Fin 2) * 512 + 512
    rw [e70]; show (i 0).val / 512 * 512 ≤ (i 0).val ∧ (i 0).val < (i 0).val / 512 * 512 + 512; omega
  | ⟨1, _⟩ =>
    show win0_7.index ⟨(i 0).val / 512, _⟩ (1 : Fin 2) * 768 ≤ (i 1).val ∧ (i 1).val < win0_7.index ⟨(i 0).val / 512, _⟩ (1 : Fin 2) * 768 + 768
    rw [e71]; omega

/-- The first result array after the region: the dense layer of the arrays as the region finds them. -/
theorem final7 (c : Dev nD) : (Gen.dat0 V c).arrAt 7 cfg0.N = denseArr (V c main_v0) (V c main_v1) (V c main_v5) :=
  (Gen.dat0 V c).arrAt_eq_of_cover 7 _ (fun t _ => flushed7_eq V c t) cover7

/-- What point t writes back to the second result is block t of the dense layer of the arrays as the region finds them. -/
theorem flushed8_eq (c : Dev nD) (t : Fin cfg0.N) :
    (Gen.dat0 V c).flushed 8 t = ((cfg0.win 8).blk t).view.read (Elt Ideal) (denseArr (V c main_v0) (V c main_v2) (V c main_v6)) := by
  show (cfg0.win 8).cut (grid0.coords t) ((Gen.dat0 V c).after 8 t) = _
  rw [Gen.after0_8]
  unfold Gen.out0_8
  rw [View.canon_unit_zero hz]
  simp only [View.ld_unit_zero (S := S512x768) hz, View.ld_unit_zero (S := S768x768) hz, View.ld_unit_zero (S := S1x768) hz]
  obtain ⟨e00, e01, e10, e11, e20, e21, e30, e31, e40, e41, e50, e51, e60, e61, e70, e71, e80, e81, e90, e91⟩ := idx_facts t
  funext j
  refine blk_proj (V c main_v0) (V c main_v2) (V c main_v6) (Gen.iblk0 V c 0 t) (Gen.iblk0 V c 2 t) (Gen.iblk0 V c 5 t) t.val ?_ ?_ ?_ j (((cfg0.win 8).blk t).view.emb j) ?_ ?_
  · intro y i h0 h1
    show V c main_v0 (((cfg0.win 0).blk t).view.emb y) = V c main_v0 i
    refine congrArg _ (funext fun a => Fin.ext ?_)
    match a with
    | ⟨0, _⟩ => show win0_0.index t (0 : Fin 2) * 512 + 1 * (y 0).val = (i 0).val; omega
    | ⟨1, _⟩ => show win0_0.index t (1 : Fin 2) * 768 + 1 * (y 1).val = (i 1).val; omega
  · funext y
    show V c main_v2 (((cfg0.win 2).blk t).view.emb y) = V c main_v2 y
    refine congrArg _ (funext fun a => Fin.ext ?_)
    match a with
    | ⟨0, _⟩ => show win0_2.index t (0 : Fin 2) * 768 + 1 * (y 0).val = (y 0).val; omega
    | ⟨1, _⟩ => show win0_2.index t (1 : Fin 2) * 768 + 1 * (y 1).val = (y 1).val; omega
  · funext y
    show V c main_v6 (((cfg0.win 5).blk t).view.emb y) = V c main_v6 y
    refine congrArg _ (funext fun a => Fin.ext ?_)
    match a with
    | ⟨0, _⟩ => show win0_5.index t (0 : Fin 2) * 1 + 1 * (y 0).val = (y 0).val; omega
    | ⟨1, _⟩ => show win0_5.index t (1 : Fin 2) * 768 + 1 * (y 1).val = (y 1).val; omega
  · show win0_8.index t (0 : Fin 2) * 512 + 1 * (j 0).val = t.val * 512 + (j 0).val; omega
  · show win0_8.index t (1 : Fin 2) * 768 + 1 * (j 1).val = (j 1).val; omega

/-- An entry of the second result is in point t's block iff each coordinate is in the block's range on its axis. -/
theorem mem_blk8 (t : Fin cfg0.N) (i : S8192x768.Idx) :
    i ∈ ((cfg0.win 8).blk t).view.set ↔ ∀ a : Fin 2, win0_8.index t a * S512x768.size a ≤ (i a).val ∧ (i a).val < win0_8.index t a * S512x768.size a + S512x768.size a := by
  show i ∈ ((View.whole main_v11_1).slice (win0_8.rect t)).set ↔ _
  rw [View.set_slice_whole, Rect.mem_set_unit]
  exact Iff.rfl

/-- Row r of the second result is in the block of point r / 512. -/
theorem cover8 (i : S8192x768.Idx) : ∃ t : Fin cfg0.N, (cfg0.win 8).flush t = true ∧ i ∈ ((cfg0.win 8).blk t).view.set := by
  have hi0 : (i 0).val < 8192 := (i 0).isLt
  have hi1 : (i 1).val < 768 := (i 1).isLt
  have hN : cfg0.N = 16 := Gen.N_0
  refine ⟨⟨(i 0).val / 512, by omega⟩, Gen.flush0_8 _, ?_⟩
  rw [mem_blk8]
  obtain ⟨e00, e01, e10, e11, e20, e21, e30, e31, e40, e41, e50, e51, e60, e61, e70, e71, e80, e81, e90, e91⟩ := idx_facts ⟨(i 0).val / 512, by omega⟩
  intro a
  match a with
  | ⟨0, _⟩ =>
    show win0_8.index ⟨(i 0).val / 512, _⟩ (0 : Fin 2) * 512 ≤ (i 0).val ∧ (i 0).val < win0_8.index ⟨(i 0).val / 512, _⟩ (0 : Fin 2) * 512 + 512
    rw [e80]; show (i 0).val / 512 * 512 ≤ (i 0).val ∧ (i 0).val < (i 0).val / 512 * 512 + 512; omega
  | ⟨1, _⟩ =>
    show win0_8.index ⟨(i 0).val / 512, _⟩ (1 : Fin 2) * 768 ≤ (i 1).val ∧ (i 1).val < win0_8.index ⟨(i 0).val / 512, _⟩ (1 : Fin 2) * 768 + 768
    rw [e81]; omega

/-- The second result array after the region: the dense layer of the arrays as the region finds them. -/
theorem final8 (c : Dev nD) : (Gen.dat0 V c).arrAt 8 cfg0.N = denseArr (V c main_v0) (V c main_v2) (V c main_v6) :=
  (Gen.dat0 V c).arrAt_eq_of_cover 8 _ (fun t _ => flushed8_eq V c t) cover8

/-- What point t writes back to the third result is block t of the dense layer of the arrays as the region finds them. -/
theorem flushed9_eq (c : Dev nD) (t : Fin cfg0.N) :
    (Gen.dat0 V c).flushed 9 t = ((cfg0.win 9).blk t).view.read (Elt Ideal) (denseArr (V c main_v0) (V c main_v3) (V c main_v7)) := by
  show (cfg0.win 9).cut (grid0.coords t) ((Gen.dat0 V c).after 9 t) = _
  rw [Gen.after0_9]
  unfold Gen.out0_9
  rw [View.canon_unit_zero hz]
  simp only [View.ld_unit_zero (S := S512x768) hz, View.ld_unit_zero (S := S768x768) hz, View.ld_unit_zero (S := S1x768) hz]
  obtain ⟨e00, e01, e10, e11, e20, e21, e30, e31, e40, e41, e50, e51, e60, e61, e70, e71, e80, e81, e90, e91⟩ := idx_facts t
  funext j
  refine blk_proj (V c main_v0) (V c main_v3) (V c main_v7) (Gen.iblk0 V c 0 t) (Gen.iblk0 V c 3 t) (Gen.iblk0 V c 6 t) t.val ?_ ?_ ?_ j (((cfg0.win 9).blk t).view.emb j) ?_ ?_
  · intro y i h0 h1
    show V c main_v0 (((cfg0.win 0).blk t).view.emb y) = V c main_v0 i
    refine congrArg _ (funext fun a => Fin.ext ?_)
    match a with
    | ⟨0, _⟩ => show win0_0.index t (0 : Fin 2) * 512 + 1 * (y 0).val = (i 0).val; omega
    | ⟨1, _⟩ => show win0_0.index t (1 : Fin 2) * 768 + 1 * (y 1).val = (i 1).val; omega
  · funext y
    show V c main_v3 (((cfg0.win 3).blk t).view.emb y) = V c main_v3 y
    refine congrArg _ (funext fun a => Fin.ext ?_)
    match a with
    | ⟨0, _⟩ => show win0_3.index t (0 : Fin 2) * 768 + 1 * (y 0).val = (y 0).val; omega
    | ⟨1, _⟩ => show win0_3.index t (1 : Fin 2) * 768 + 1 * (y 1).val = (y 1).val; omega
  · funext y
    show V c main_v7 (((cfg0.win 6).blk t).view.emb y) = V c main_v7 y
    refine congrArg _ (funext fun a => Fin.ext ?_)
    match a with
    | ⟨0, _⟩ => show win0_6.index t (0 : Fin 2) * 1 + 1 * (y 0).val = (y 0).val; omega
    | ⟨1, _⟩ => show win0_6.index t (1 : Fin 2) * 768 + 1 * (y 1).val = (y 1).val; omega
  · show win0_9.index t (0 : Fin 2) * 512 + 1 * (j 0).val = t.val * 512 + (j 0).val; omega
  · show win0_9.index t (1 : Fin 2) * 768 + 1 * (j 1).val = (j 1).val; omega

/-- An entry of the third result is in point t's block iff each coordinate is in the block's range on its axis. -/
theorem mem_blk9 (t : Fin cfg0.N) (i : S8192x768.Idx) :
    i ∈ ((cfg0.win 9).blk t).view.set ↔ ∀ a : Fin 2, win0_9.index t a * S512x768.size a ≤ (i a).val ∧ (i a).val < win0_9.index t a * S512x768.size a + S512x768.size a := by
  show i ∈ ((View.whole main_v11_2).slice (win0_9.rect t)).set ↔ _
  rw [View.set_slice_whole, Rect.mem_set_unit]
  exact Iff.rfl

/-- Row r of the third result is in the block of point r / 512. -/
theorem cover9 (i : S8192x768.Idx) : ∃ t : Fin cfg0.N, (cfg0.win 9).flush t = true ∧ i ∈ ((cfg0.win 9).blk t).view.set := by
  have hi0 : (i 0).val < 8192 := (i 0).isLt
  have hi1 : (i 1).val < 768 := (i 1).isLt
  have hN : cfg0.N = 16 := Gen.N_0
  refine ⟨⟨(i 0).val / 512, by omega⟩, Gen.flush0_9 _, ?_⟩
  rw [mem_blk9]
  obtain ⟨e00, e01, e10, e11, e20, e21, e30, e31, e40, e41, e50, e51, e60, e61, e70, e71, e80, e81, e90, e91⟩ := idx_facts ⟨(i 0).val / 512, by omega⟩
  intro a
  match a with
  | ⟨0, _⟩ =>
    show win0_9.index ⟨(i 0).val / 512, _⟩ (0 : Fin 2) * 512 ≤ (i 0).val ∧ (i 0).val < win0_9.index ⟨(i 0).val / 512, _⟩ (0 : Fin 2) * 512 + 512
    rw [e90]; show (i 0).val / 512 * 512 ≤ (i 0).val ∧ (i 0).val < (i 0).val / 512 * 512 + 512; omega
  | ⟨1, _⟩ =>
    show win0_9.index ⟨(i 0).val / 512, _⟩ (1 : Fin 2) * 768 ≤ (i 1).val ∧ (i 1).val < win0_9.index ⟨(i 0).val / 512, _⟩ (1 : Fin 2) * 768 + 768
    rw [e91]; omega

/-- The third result array after the region: the dense layer of the arrays as the region finds them. -/
theorem final9 (c : Dev nD) : (Gen.dat0 V c).arrAt 9 cfg0.N = denseArr (V c main_v0) (V c main_v3) (V c main_v7) :=
  (Gen.dat0 V c).arrAt_eq_of_cover 9 _ (fun t _ => flushed9_eq V c t) cover9

end Region

end Reg0

/-! ## The three results at an entry -/

open Reg0

variable (m : (ℓ : Loc nD τ sig) → Buf (Elt Ideal) ℓ) (ρ : Dev nD → PrngReg) (c : Dev nD)

/-- The whole-array dense layer read at (r, n) is the dense layer of row r. -/
theorem denseArr_apply (X : FVec Ideal S8192x768 .f32) (W : FVec Ideal S768x768 .f32) (B : FVec Ideal S1x768 .f32) (r : Fin 8192) (n : Fin 768) :
    denseArr X W B (ix2 r n) = Attn.dense (fun k => X (ix2 r k)) (fun n' k => W (ix2 k n')) (fun n' => B (ix2 (0 : Fin 1) n')) n := rfl

theorem V2_q (r : Fin 8192) (n : Fin 768) :
    Gen.V2 m ρ c main_v11_0 (ix2 r n) = Attn.dense (fun k => Gen.V1 m ρ c main_v0 (ix2 r k)) (fun n' k => Gen.V1 m ρ c main_v1 (ix2 k n')) (fun n' => Gen.V1 m ρ c main_v5 (ix2 (0 : Fin 1) n')) n := by
  have e : Gen.V2 m ρ c main_v11_0 = denseArr (Gen.V1 m ρ c main_v0) (Gen.V1 m ρ c main_v1) (Gen.V1 m ρ c main_v5) :=
    (Gen.W2_arr m ρ c 7).trans (final7 (Gen.V1 m ρ) c)
  rw [e, denseArr_apply]

theorem V2_k (r : Fin 8192) (n : Fin 768) :
    Gen.V2 m ρ c main_v11_1 (ix2 r n) = Attn.dense (fun k => Gen.V1 m ρ c main_v0 (ix2 r k)) (fun n' k => Gen.V1 m ρ c main_v2 (ix2 k n')) (fun n' => Gen.V1 m ρ c main_v6 (ix2 (0 : Fin 1) n')) n := by
  have e : Gen.V2 m ρ c main_v11_1 = denseArr (Gen.V1 m ρ c main_v0) (Gen.V1 m ρ c main_v2) (Gen.V1 m ρ c main_v6) :=
    (Gen.W2_arr m ρ c 8).trans (final8 (Gen.V1 m ρ) c)
  rw [e, denseArr_apply]

theorem V2_v (r : Fin 8192) (n : Fin 768) :
    Gen.V2 m ρ c main_v11_2 (ix2 r n) = Attn.dense (fun k => Gen.V1 m ρ c main_v0 (ix2 r k)) (fun n' k => Gen.V1 m ρ c main_v3 (ix2 k n')) (fun n' => Gen.V1 m ρ c main_v7 (ix2 (0 : Fin 1) n')) n := by
  have e : Gen.V2 m ρ c main_v11_2 = denseArr (Gen.V1 m ρ c main_v0) (Gen.V1 m ρ c main_v3) (Gen.V1 m ρ c main_v7) :=
    (Gen.W2_arr m ρ c 9).trans (final9 (Gen.V1 m ρ) c)
  rw [e, denseArr_apply]

end Cert.ReferenceIdeal.RV

end
-- ==== Proof.RReg1.lean ====
/-
  The second call's result read at an entry: block t of the 768 (batch, head) blocks is the normalise-first attention
  of block t of the three operands.

  The body at an entry: the three loaded blocks lose their leading unit axis; the scores are the dot products of the
  rows of the first two, times the scale; each row's maximum is subtracted, the exponential taken, each weight divided
  by its row's sum, and the weights' rows are multiplied against the columns of the third block.  That is `Attn.attnR`
  of the three blocks.  The call's 768 points each read and write slab t of their arrays, and the slabs tile the result,
  so the result array is slab by slab the attention of the operands' slabs.
-/
import proofs.«120191_g2000702396236789_pallasbulk_1056_11_alg».proof.Proof.Gen.ReferenceIdeal.Frame
import proofs.«120191_g2000702396236789_pallasbulk_1056_11_alg».proof.Proof.Spec
import Idealize.ShloMosaic.PureOps.Ideal.Laws
import Idealize.ShloMosaic.Lib.Pipeline.Value
import Idealize.ShloMosaic.Lib.ValueLayout

set_option maxRecDepth 16384

noncomputable section

namespace Cert.ReferenceIdeal.RV

open Idealize.ShloMosaic Idealize.ShloMosaic.ValueIdx Idealize.SL.Sem Cert.ReferenceIdeal
open Idealize.ShloMosaic.TcCoe
open scoped BigOperators

namespace Reg1

/-! ## Layout operations of the row statistics, read at an index -/

/-- A vector of `a` numbers cast to a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two products, read at an entry -/

theorem lhs_score_0 (i : S128x128.Idx) (q : dot_S128x64_S128x64_S128x128_1_1_0_0_n_n.contr.Idx) :
    (dot_S128x64_S128x64_S128x128_1_1_0_0_n_n.lhsIdx i q 0).val = (i 0).val := by
  unfold DotDims.lhsIdx
  rw [dif_neg (show ¬(0 : Fin S128x64.rank) ∈ dot_S128x64_S128x64_S128x128_1_1_0_0_n_n.lhsBatch by decide), dif_pos (show (0 : Fin S128x64.rank) ∈ dot_S128x64_S128x64_S128x128_1_1_0_0_n_n.lhsNonContracting by decide)]
  rfl
theorem lhs_score_1 (i : S128x128.Idx) (q : dot_S128x64_S128x64_S128x128_1_1_0_0_n_n.contr.Idx) :
    (dot_S128x64_S128x64_S128x128_1_1_0_0_n_n.lhsIdx i q 1).val = (q ⟨0, by decide⟩).val :=
  dot_S128x64_S128x64_S128x128_1_1_0_0_n_n.lhsIdx_val_of_single rfl i q
theorem rhs_score_0 (i : S128x128.Idx) (q : dot_S128x64_S128x64_S128x128_1_1_0_0_n_n.contr.Idx) :
    (dot_S128x64_S128x64_S128x128_1_1_0_0_n_n.rhsIdx i q 0).val = (i 1).val := by
  unfold DotDims.rhsIdx
  rw [dif_neg (show ¬(0 : Fin S128x64.rank) ∈ dot_S128x64_S128x64_S128x128_1_1_0_0_n_n.rhsBatch by decide), dif_pos (show (0 : Fin S128x64.rank) ∈ dot_S128x64_S128x64_S128x128_1_1_0_0_n_n.rhsNonContracting by decide)]
  rfl
theorem rhs_score_1 (i : S128x128.Idx) (q : dot_S128x64_S128x64_S128x128_1_1_0_0_n_n.contr.Idx) :
    (dot_S128x64_S128x64_S128x128_1_1_0_0_n_n.rhsIdx i q 1).val = (q ⟨0, by decide⟩).val :=
  dot_S128x64_S128x64_S128x128_1_1_0_0_n_n.rhsIdx_val_of_single rfl i q

/-- The first product at `(i, j)`: the dot of row `i` of the left operand with row `j` of the right one. -/
theorem score_apply (q k : FVec Ideal S128x64 .f32) (i j : Fin 128) :
    matmul dot_S128x64_S128x64_S128x128_1_1_0_0_n_n none q k (constant (F := Ideal) S128x128 .f32 0x00000000#32) (ix2 i j)
      = ∑ e : Fin 64, q (ix2 i e) * k (ix2 j e) := by
  simp only [matmul]
  rw [Ideal.matmul_constant_zero_apply, ← Equiv.sum_comp (contrEquiv1 dot_S128x64_S128x64_S128x128_1_1_0_0_n_n 64 rfl rfl).symm]
  refine Finset.sum_congr rfl fun e _ => ?_
  have hk := contrEquiv1_symm_val dot_S128x64_S128x64_S128x128_1_1_0_0_n_n 64 rfl rfl e
  have el : dot_S128x64_S128x64_S128x128_1_1_0_0_n_n.lhsIdx (ix2 i j) ((contrEquiv1 dot_S128x64_S128x64_S128x128_1_1_0_0_n_n 64 rfl rfl).symm e) = ix2 i e := funext fun a => Fin.ext (by
    match a with
    | ⟨0, _⟩ => exact lhs_score_0 _ _
    | ⟨1, _⟩ => exact (lhs_score_1 _ _).trans hk)
  have er : dot_S128x64_S128x64_S128x128_1_1_0_0_n_n.rhsIdx (ix2 i j) ((contrEquiv1 dot_S128x64_S128x64_S128x128_1_1_0_0_n_n 64 rfl rfl).symm e) = ix2 j e := funext fun a => Fin.ext (by
    match a with
    | ⟨0, _⟩ => exact rhs_score_0 _ _
    | ⟨1, _⟩ => exact (rhs_score_1 _ _).trans hk)
  rw [el, er]

theorem lhs_ctx_0 (i : S128x64.Idx) (q : dot_S128x128_S128x64_S128x64_1_0_0_1_n_n.contr.Idx) :
    (dot_S128x128_S128x64_S128x64_1_0_0_1_n_n.lhsIdx i q 0).val = (i 0).val := by
  unfold DotDims.lhsIdx
  rw [dif_neg (show ¬(0 : Fin S128x128.rank) ∈ dot_S128x128_S128x64_S128x64_1_0_0_1_n_n.lhsBatch by decide), dif_pos (show (0 : Fin S128x128.rank) ∈ dot_S128x128_S128x64_S128x64_1_0_0_1_n_n.lhsNonContracting by decide)]
  rfl
theorem lhs_ctx_1 (i : S128x64.Idx) (q : dot_S128x128_S128x64_S128x64_1_0_0_1_n_n.contr.Idx) :
    (dot_S128x128_S128x64_S128x64_1_0_0_1_n_n.lhsIdx i q 1).val = (q ⟨0, by decide⟩).val :=
  dot_S128x128_S128x64_S128x64_1_0_0_1_n_n.lhsIdx_val_of_single rfl i q
theorem rhs_ctx_0 (i : S128x64.Idx) (q : dot_S128x128_S128x64_S128x64_1_0_0_1_n_n.contr.Idx) :
    (dot_S128x128_S128x64_S128x64_1_0_0_1_n_n.rhsIdx i q 0).val = (q ⟨0, by decide⟩).val :=
  dot_S128x128_S128x64_S128x64_1_0_0_1_n_n.rhsIdx_val_of_single rfl i q
theorem rhs_ctx_1 (i : S128x64.Idx) (q : dot_S128x128_S128x64_S128x64_1_0_0_1_n_n.contr.Idx) :
    (dot_S128x128_S128x64_S128x64_1_0_0_1_n_n.rhsIdx i q 1).val = (i 1).val := by
  unfold DotDims.rhsIdx
  rw [dif_neg (show ¬(1 : Fin S128x64.rank) ∈ dot_S128x128_S128x64_S128x64_1_0_0_1_n_n.rhsBatch by decide), dif_pos (show (1 : Fin S128x64.rank) ∈ dot_S128x128_S128x64_S128x64_1_0_0_1_n_n.rhsNonContracting by decide)]
  rfl

/-- The second product at `(i, d)`: row `i` of the weights against column `d` of the values. -/
theorem ctx_apply (p : FVec Ideal S128x128 .f32) (v : FVec Ideal S128x64 .f32) (i : Fin 128) (d : Fin 64) :
    matmul dot_S128x128_S128x64_S128x64_1_0_0_1_n_n none p v (constant (F := Ideal) S128x64 .f32 0x00000000#32) (ix2 i d)
      = ∑ j : Fin 128, p (ix2 i j) * v (ix2 j d) := by
  simp only [matmul]
  rw [Ideal.matmul_constant_zero_apply, ← Equiv.sum_comp (contrEquiv1 dot_S128x128_S128x64_S128x64_1_0_0_1_n_n 128 rfl rfl).symm]
  refine Finset.sum_congr rfl fun j _ => ?_
  have hk := contrEquiv1_symm_val dot_S128x128_S128x64_S128x64_1_0_0_1_n_n 128 rfl rfl j
  have el : dot_S128x128_S128x64_S128x64_1_0_0_1_n_n.lhsIdx (ix2 i d) ((contrEquiv1 dot_S128x128_S128x64_S128x64_1_0_0_1_n_n 128 rfl rfl).symm j) = ix2 i j := funext fun a => Fin.ext (by
    match a with
    | ⟨0, _⟩ => exact lhs_ctx_0 _ _
    | ⟨1, _⟩ => exact (lhs_ctx_1 _ _).trans hk)
  have er : dot_S128x128_S128x64_S128x64_1_0_0_1_n_n.rhsIdx (ix2 i d) ((contrEquiv1 dot_S128x128_S128x64_S128x64_1_0_0_1_n_n 128 rfl rfl).symm j) = ix2 j d := funext fun a => Fin.ext (by
    match a with
    | ⟨0, _⟩ => exact (rhs_ctx_0 _ _).trans hk
    | ⟨1, _⟩ => exact rhs_ctx_1 _ _)
  rw [el, er]

/-! ## The two row statistics, read at a row -/

/-- The row maximum at row `i`: the fold of `max` from minus infinity over the row. -/
theorem rowMax_apply (s : FVec Ideal S128x128 .f32) (h : S128x128.Reduces [1] S128) (hφ : FKind.Formats .f32)
    (hacc : (0xFF800000#32 : BitVec FTy.f32.bits) = FKind.maximumf.neutral .f32 hφ) (i : Fin 128) :
    multiReduction (F := Ideal) .maximumf [1] S128 s 0xFF800000#32 h hφ hacc (ix1 i) = Attn.rowMax fun j => s (ix2 i j) := by
  refine (Ideal.multiReduction_maximumf_single s _ h hφ hacc (ix1 i)).trans ?_
  unfold Attn.rowMax
  have e : (s ∘ h.lift (ix1 i)) = fun j : Fin 128 => s (ix2 i j) := funext fun j => congrArg s (funext fun a => Fin.ext (by
    match a with
    | ⟨0, _⟩ => rfl
    | ⟨1, _⟩ => rfl))
  rw [e]; rfl

/-- The row sum at row `i`. -/
theorem rowSum_apply (s : FVec Ideal S128x128 .f32) (h : S128x128.Reduces [1] S128) (hφ : FKind.Formats .f32)
    (hacc : (0x00000000#32 : BitVec FTy.f32.bits) = FKind.add.neutral .f32 hφ) (i : Fin 128) :
    multiReduction (F := Ideal) .add [1] S128 s 0x00000000#32 h hφ hacc (ix1 i) = ∑ j : Fin 128, s (ix2 i j) := by
  refine (Ideal.multiReduction_add_single s _ h hφ hacc (ix1 i)).trans ?_
  refine Finset.sum_congr rfl fun j _ => congrArg s (funext fun a => Fin.ext ?_)
  match a with
  | ⟨0, _⟩ => rfl
  | ⟨1, _⟩ => rfl

/-! ## The body's result at an entry -/

/-- The scaled scores at `(i, j)`. -/
theorem scaled_apply (x0 x1 : FVec Ideal S1x128x64 .f32) (h0 h1 : S1x128x64.ShapeCasts S128x64) (i j : Fin 128) :
    mulf (matmul dot_S128x64_S128x64_S128x128_1_1_0_0_n_n none (shapeCast S128x64 x0 h0) (shapeCast S128x64 x1 h1)
          (constant (F := Ideal) S128x128 .f32 0x00000000#32))
        (broadcast S128x128 (Scalar.ofBits (F := Ideal) .f32 0x3E000000#32)) (ix2 i j)
      = Attn.scoreR (fun i' e => x0 (ix3 (0 : Fin 1) i' e)) (fun j' e => x1 (ix3 (0 : Fin 1) j' e)) i j := by
  refine (mulf_apply _ _ _).trans ?_
  unfold Attn.scoreR
  refine congrArg₂ (· * ·) ((score_apply _ _ i j).trans (Finset.sum_congr rfl fun e _ => ?_)) rfl
  exact congrArg₂ (· * ·) (shapeCast_1ab_ab_apply x0 h0 i e) (shapeCast_1ab_ab_apply x1 h1 j e)

/-- The unnormalised weights at `(i, j)`, over any scores. -/
theorem weight_apply (s : FVec Ideal S128x128 .f32) (sc : Fin 128 → Fin 128 → EReal) (hs : ∀ i j, s (ix2 i j) = sc i j)
    (hr : S128x128.Reduces [1] S128) (hφ : FKind.Formats .f32)
    (hacc : (0xFF800000#32 : BitVec FTy.f32.bits) = FKind.maximumf.neutral .f32 hφ)
    (hc : S128.ShapeCasts S128x1) (hb : S128x1.Broadcasts S128x128) (i j : Fin 128) :
    exp (subf s (broadcastTo S128x128 (shapeCast S128x1 (multiReduction (F := Ideal) .maximumf [1] S128 s 0xFF800000#32 hr hφ hacc) hc) hb)) (ix2 i j)
      = Ideal.exp (sc i j - Attn.rowMax fun j' => sc i j') := by
  show Ideal.exp (s (ix2 i j) - broadcastTo S128x128 _ hb (ix2 i j)) = _
  rw [broadcastTo_a1_ab_apply, shapeCast_a_a1_apply, rowMax_apply, hs]
  simp only [hs]

/-- The normalised weights at `(i, j)`, over any unnormalised ones. -/
theorem normed_apply (w : FVec Ideal S128x128 .f32) (wt : Fin 128 → Fin 128 → EReal) (hw : ∀ i j, w (ix2 i j) = wt i j)
    (hr : S128x128.Reduces [1] S128) (hφ : FKind.Formats .f32)
    (hacc : (0x00000000#32 : BitVec FTy.f32.bits) = FKind.add.neutral .f32 hφ)
    (hc : S128.ShapeCasts S128x1) (hb : S128x1.Broadcasts S128x128) (i j : Fin 128) :
    divf w (broadcastTo S128x128 (shapeCast S128x1 (multiReduction (F := Ideal) .add [1] S128 w 0x00000000#32 hr hφ hacc) hc) hb) (ix2 i j)
      = Ideal.div (wt i j) (∑ j' : Fin 128, wt i j') := by
  show Ideal.div (w (ix2 i j)) (broadcastTo S128x128 _ hb (ix2 i j)) = _
  rw [broadcastTo_a1_ab_apply, shapeCast_a_a1_apply, rowSum_apply, hw]
  simp only [hw]

/-- The body's result at `(u, i, d)`: the normalise-first attention of the three loaded blocks. -/
theorem pay_apply (x0 x1 x2 : Vec Ideal S1x128x64 .f32) (u : Fin 1) (i : Fin 128) (d : Fin 64) :
    Gen.k1_pay1 x0 x1 x2 (ix3 u i d)
      = Attn.attnR (fun i' e => x0 (ix3 (0 : Fin 1) i' e)) (fun j e => x1 (ix3 (0 : Fin 1) j e))
          (fun j e => x2 (ix3 (0 : Fin 1) j e)) i d := by
  unfold Gen.k1_pay1
  dsimp only
  refine (shapeCast_ab_1ab_apply _ _ u i d).trans ?_
  refine (ctx_apply _ _ i d).trans ?_
  unfold Attn.attnR
  refine Finset.sum_congr rfl fun j _ => ?_
  refine congrArg₂ (· * ·) ?_ (shapeCast_1ab_ab_apply x2 _ j d)
  refine normed_apply _ (Attn.wgtR (fun i' e => x0 (ix3 (0 : Fin 1) i' e)) (fun j e => x1 (ix3 (0 : Fin 1) j e))) (fun i' j' => ?_) _ _ _ _ _ i j
  unfold Attn.wgtR
  exact weight_apply _ _ (fun i'' j'' => scaled_apply x0 x1 _ _ i'' j'') _ _ _ _ _ i' j'

/-! ## From the blocks to the array -/

section Region

variable (V : (c : Dev nD) → (b : Ref sig .tc) → Buf (Elt Ideal) ((c : Thread nD τ).loc b))

theorem zero3 : (![0, 0, 0] : Fin 3 → Nat) = fun _ => 0 := funext fun a => by fin_cases a <;> rfl

/-- The call's result as one function of its three operand arrays: slab `t` of it is the attention of slab `t` of
    each of them. -/
def attnAll (A0 A1 A2 : S768x128x64.Idx → EReal) : S768x128x64.Idx → EReal := fun y =>
  Attn.attnR (fun i' e => A0 (ix3 (n0 := 768) (y 0) i' e)) (fun j e => A1 (ix3 (n0 := 768) (y 0) j e))
    (fun j e => A2 (ix3 (n0 := 768) (y 0) j e)) (y 1) (y 2)

/-- The four index maps, over the grid: point `t` has block index `(t, 0, 0)` in every window. -/
theorem index_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0 :=
  (by decide +kernel : ∀ t : Fin grid1.N, _)

/-- Block `t` of operand 0 is slab `t` of its array. -/
theorem iblk0_apply (c : Dev nD) (t : Fin cfg1.N) (x : S1x128x64.Idx) (k : S768x128x64.Idx)
    (hk0 : (k 0).val = t.val) (hk1 : (k 1).val = (x 1).val) (hk2 : (k 2).val = (x 2).val) :
    (Gen.iblk1 V c 0 t : Vec Ideal S1x128x64 .f32) x = (V c main_v14 : S768x128x64.Idx → EReal) k := by
  obtain ⟨e0, e1, e2, -⟩ := index_facts t
  have hx : (x 0).val < 1 := (x 0).isLt
  unfold Gen.iblk1
  rw [View.read_apply]
  show V c main_v14 _ = V c main_v14 _
  congr 1
  funext a
  apply Fin.ext
  match a with
  | ⟨0, _⟩ => show win1_0.index t 0 * 1 + 1 * (x 0).val = (k 0).val; rw [e0, hk0]; omega
  | ⟨1, _⟩ => show win1_0.index t 1 * 128 + 1 * (x 1).val = (k 1).val; rw [e1, hk1]; omega
  | ⟨2, _⟩ => show win1_0.index t 2 * 64 + 1 * (x 2).val = (k 2).val; rw [e2, hk2]; omega

/-- Block `t` of operand 1 is slab `t` of its array. -/
theorem iblk1_apply (c : Dev nD) (t : Fin cfg1.N) (x : S1x128x64.Idx) (k : S768x128x64.Idx)
    (hk0 : (k 0).val = t.val) (hk1 : (k 1).val = (x 1).val) (hk2 : (k 2).val = (x 2).val) :
    (Gen.iblk1 V c 1 t : Vec Ideal S1x128x64 .f32) x = (V c main_v17 : S768x128x64.Idx → EReal) k := by
  obtain ⟨-, -, -, e0, e1, e2, -⟩ := index_facts t
  have hx : (x 0).val < 1 := (x 0).isLt
  unfold Gen.iblk1
  rw [View.read_apply]
  show V c main_v17 _ = V c main_v17 _
  congr 1
  funext a
  apply Fin.ext
  match a with
  | ⟨0, _⟩ => show win1_1.index t 0 * 1 + 1 * (x 0).val = (k 0).val; rw [e0, hk0]; omega
  | ⟨1, _⟩ => show win1_1.index t 1 * 128 + 1 * (x 1).val = (k 1).val; rw [e1, hk1]; omega
  | ⟨2, _⟩ => show win1_1.index t 2 * 64 + 1 * (x 2).val = (k 2).val; rw [e2, hk2]; omega

/-- Block `t` of operand 2 is slab `t` of its array. -/
theorem iblk2_apply (c : Dev nD) (t : Fin cfg1.N) (x : S1x128x64.Idx) (k : S768x128x64.Idx)
    (hk0 : (k 0).val = t.val) (hk1 : (k 1).val = (x 1).val) (hk2 : (k 2).val = (x 2).val) :
    (Gen.iblk1 V c 2 t : Vec Ideal S1x128x64 .f32) x = (V c main_v20 : S768x128x64.Idx → EReal) k := by
  obtain ⟨-, -, -, -, -, -, e0, e1, e2, -⟩ := index_facts t
  have hx : (x 0).val < 1 := (x 0).isLt
  unfold Gen.iblk1
  rw [View.read_apply]
  show V c main_v20 _ = V c main_v20 _
  congr 1
  funext a
  apply Fin.ext
  match a with
  | ⟨0, _⟩ => show win1_2.index t 0 * 1 + 1 * (x 0).val = (k 0).val; rw [e0, hk0]; omega
  | ⟨1, _⟩ => show win1_2.index t 1 * 128 + 1 * (x 1).val = (k 1).val; rw [e1, hk1]; omega
  | ⟨2, _⟩ => show win1_2.index t 2 * 64 + 1 * (x 2).val = (k 2).val; rw [e2, hk2]; omega

/-- The body's result over three blocks that are slab `t` of three arrays is slab `t` of `attnAll` of the arrays. -/
theorem block_apply (x0 x1 x2 : Vec Ideal S1x128x64 .f32) (A0 A1 A2 : S768x128x64.Idx → EReal) (t : Fin 768)
    (h0 : ∀ (i : Fin 128) (e : Fin 64), x0 (ix3 (0 : Fin 1) i e) = A0 (ix3 t i e))
    (h1 : ∀ (i : Fin 128) (e : Fin 64), x1 (ix3 (0 : Fin 1) i e) = A1 (ix3 t i e))
    (h2 : ∀ (i : Fin 128) (e : Fin 64), x2 (ix3 (0 : Fin 1) i e) = A2 (ix3 t i e))
    (y : S1x128x64.Idx) (k : S768x128x64.Idx)
    (hk0 : (k 0).val = t.val) (hk1 : (k 1).val = (y 1).val) (hk2 : (k 2).val = (y 2).val) :
    Gen.k1_pay1 x0 x1 x2 y = attnAll A0 A1 A2 k := by
  obtain ⟨u, i, d, rfl⟩ : ∃ (u : Fin 1) (i : Fin 128) (d : Fin 64), y = ix3 u i d := ⟨y 0, y 1, y 2, eq_ix3 y⟩
  obtain ⟨t', i', d', rfl⟩ : ∃ (t' : Fin 768) (i' : Fin 128) (d' : Fin 64), k = ix3 t' i' d' := ⟨k 0, k 1, k 2, eq_ix3 k⟩
  obtain rfl : t' = t := Fin.ext hk0
  obtain rfl : i' = i := Fin.ext hk1
  obtain rfl : d' = d := Fin.ext hk2
  rw [pay_apply]
  have e0 : (fun i' e => x0 (ix3 (0 : Fin 1) i' e)) = fun i' e => A0 (ix3 t' i' e) := funext fun i' => funext fun e => h0 i' e
  have e1 : (fun i' e => x1 (ix3 (0 : Fin 1) i' e)) = fun i' e => A1 (ix3 t' i' e) := funext fun i' => funext fun e => h1 i' e
  have e2 : (fun i' e => x2 (ix3 (0 : Fin 1) i' e)) = fun i' e => A2 (ix3 t' i' e) := funext fun i' => funext fun e => h2 i' e
  rw [e0, e1, e2]
  rfl

/-- What point `t` writes back is block `t` of `attnAll` of the three operand arrays as the call finds them. -/
theorem flushed_eq (c : Dev nD) (t : Fin cfg1.N) :
    (Gen.dat1 V c).flushed 3 t
      = ((cfg1.win 3).blk t).view.read (Elt Ideal) (attnAll (V c main_v14) (V c main_v17) (V c main_v20)) := by
  show (cfg1.win 3).cut (grid1.coords t) ((Gen.dat1 V c).after 3 t) = _
  rw [Gen.after1_3]
  unfold Gen.out1_3
  rw [View.canon_unit_zero zero3]
  simp only [View.ld_unit_zero (S := S1x128x64) zero3]
  obtain ⟨-, -, -, -, -, -, -, -, -, e0, e1, e2⟩ := index_facts t
  funext y
  rw [View.read_apply]
  refine block_apply (Gen.iblk1 V c 0 t) (Gen.iblk1 V c 1 t) (Gen.iblk1 V c 2 t) _ _ _ (Fin.cast Gen.N_1 t)
    (fun i e => iblk0_apply V c t _ _ rfl rfl rfl) (fun i e => iblk1_apply V c t _ _ rfl rfl rfl)
    (fun i e => iblk2_apply V c t _ _ rfl rfl rfl) y _ ?_ ?_ ?_
  · show win1_3.index t 0 * 1 + 1 * (y 0).val = t.val
    have hy : (y 0).val < 1 := (y 0).isLt
    rw [e0]; omega
  · show win1_3.index t 1 * 128 + 1 * (y 1).val = (y 1).val
    rw [e1]; omega
  · show win1_3.index t 2 * 64 + 1 * (y 2).val = (y 2).val
    rw [e2]; omega

/-- Every entry of the result array is in the block of the point its first coordinate names. -/
theorem cover (i : S768x128x64.Idx) :
    ∃ t : Fin cfg1.N, (cfg1.win 3).flush t = true ∧ i ∈ ((cfg1.win 3).blk t).view.set := by
  have h0 : (i 0).val < 768 := (i 0).isLt
  have h1 : (i 1).val < 128 := (i 1).isLt
  have h2 : (i 2).val < 64 := (i 2).isLt
  have hN : cfg1.N = 768 := Gen.N_1
  obtain ⟨p, hp⟩ : ∃ p : Fin cfg1.N, p.val = (i 0).val := ⟨⟨(i 0).val, by rw [hN]; exact h0⟩, rfl⟩
  refine ⟨p, Gen.flush1_3 p, ?_⟩
  obtain ⟨-, -, -, -, -, -, -, -, -, e0, e1, e2⟩ := index_facts p
  show i ∈ ((View.whole main_v21).slice (win1_3.rect p)).set
  rw [View.set_slice_whole, Rect.mem_set_unit]
  intro a
  match a with
  | ⟨0, _⟩ =>
    show win1_3.index p 0 * 1 ≤ (i 0).val ∧ (i 0).val < win1_3.index p 0 * 1 + 1
    rw [e0]; omega
  | ⟨1, _⟩ =>
    show win1_3.index p 1 * 128 ≤ (i 1).val ∧ (i 1).val < win1_3.index p 1 * 128 + 128
    rw [e1]; omega
  | ⟨2, _⟩ =>
    show win1_3.index p 2 * 64 ≤ (i 2).val ∧ (i 2).val < win1_3.index p 2 * 64 + 64
    rw [e2]; omega

/-- The result array after the call: `attnAll` of the three operand arrays as the call finds them. -/
theorem final (c : Dev nD) :
    (Gen.dat1 V c).arrAt 3 cfg1.N = attnAll (V c main_v14) (V c main_v17) (V c main_v20) :=
  (Gen.dat1 V c).arrAt_eq_of_cover 3 (attnAll (V c main_v14) (V c main_v17) (V c main_v20))
    (fun t _ => flushed_eq V c t) cover

end Region

end Reg1

variable (m : (ℓ : Loc nD τ sig) → Buf (Elt Ideal) ℓ) (ρ : Dev nD → PrngReg) (c : Dev nD)

theorem V4_ctx (t : Fin 768) (i : Fin 128) (d : Fin 64) :
    Gen.V4 m ρ c main_v21 (ix3 t i d)
      = Attn.attnR (fun i' e => Gen.V3 m ρ c main_v14 (ix3 t i' e)) (fun j e => Gen.V3 m ρ c main_v17 (ix3 t j e))
          (fun j e => Gen.V3 m ρ c main_v20 (ix3 t j e)) i d := by
  have h : Gen.V4 m ρ c main_v21
      = Reg1.attnAll (Gen.V3 m ρ c main_v14) (Gen.V3 m ρ c main_v17) (Gen.V3 m ρ c main_v20) :=
    (Gen.W4_arr m ρ c 3).trans (Reg1.final (Gen.V3 m ρ) c)
  exact (congrFun h (ix3 t i d)).trans rfl

end Cert.ReferenceIdeal.RV

end
-- ==== Proof.RReg2.lean ====
/-
  The third call's result read at an entry: the layer normalisation of the row's dense layer plus bias plus residual.
-/
import proofs.«120191_g2000702396236789_pallasbulk_1056_11_alg».proof.Proof.Gen.ReferenceIdeal.Frame
import proofs.«120191_g2000702396236789_pallasbulk_1056_11_alg».proof.Proof.Spec
import Idealize.ShloMosaic.PureOps.Ideal.Laws
import Idealize.ShloMosaic.Lib.Pipeline.Value
import Idealize.ShloMosaic.Lib.ValueLayout

noncomputable section

namespace Cert.ReferenceIdeal.RV

open Idealize.ShloMosaic Idealize.ShloMosaic.ValueIdx Idealize.SL.Sem Cert.ReferenceIdeal
open scoped BigOperators

namespace Reg2

open Cert.ReferenceIdeal.Gen

/-! ## The block's dense product at an entry

The left operand is contracted on its second axis and the right operand on its first: entry (p, n) of the product is
the sum over k of the left operand at (p, k) times the right operand at (k, n). -/

/-- The left operand's row is the entry's row. -/
theorem lhs_dense_0 (i : S512x768.Idx) (q : dot_S512x768_S768x768_S512x768_1_0_0_1_n_n.contr.Idx) :
    (dot_S512x768_S768x768_S512x768_1_0_0_1_n_n.lhsIdx i q 0).val = (i 0).val := by
  unfold DotDims.lhsIdx
  rw [dif_neg (show ¬(0 : Fin S512x768.rank) ∈ dot_S512x768_S768x768_S512x768_1_0_0_1_n_n.lhsBatch by decide),
    dif_pos (show (0 : Fin S512x768.rank) ∈ dot_S512x768_S768x768_S512x768_1_0_0_1_n_n.lhsNonContracting by decide)]
  rfl

/-- The left operand's column is the contraction position. -/
theorem lhs_dense_1 (i : S512x768.Idx) (q : dot_S512x768_S768x768_S512x768_1_0_0_1_n_n.contr.Idx) :
    (dot_S512x768_S768x768_S512x768_1_0_0_1_n_n.lhsIdx i q 1).val = (q ⟨0, by decide⟩).val :=
  dot_S512x768_S768x768_S512x768_1_0_0_1_n_n.lhsIdx_val_of_single rfl i q

/-- The right operand's row is the contraction position. -/
theorem rhs_dense_0 (i : S512x768.Idx) (q : dot_S512x768_S768x768_S512x768_1_0_0_1_n_n.contr.Idx) :
    (dot_S512x768_S768x768_S512x768_1_0_0_1_n_n.rhsIdx i q 0).val = (q ⟨0, by decide⟩).val :=
  dot_S512x768_S768x768_S512x768_1_0_0_1_n_n.rhsIdx_val_of_single rfl i q

/-- The right operand's column is the entry's column. -/
theorem rhs_dense_1 (i : S512x768.Idx) (q : dot_S512x768_S768x768_S512x768_1_0_0_1_n_n.contr.Idx) :
    (dot_S512x768_S768x768_S512x768_1_0_0_1_n_n.rhsIdx i q 1).val = (i 1).val := by
  unfold DotDims.rhsIdx
  rw [dif_neg (show ¬(1 : Fin S768x768.rank) ∈ dot_S512x768_S768x768_S512x768_1_0_0_1_n_n.rhsBatch by decide),
    dif_pos (show (1 : Fin S768x768.rank) ∈ dot_S512x768_S768x768_S512x768_1_0_0_1_n_n.rhsNonContracting by decide)]
  rfl

/-- The product into the zero splat, at entry (p, n): the sum over k of left (p, k) times right (k, n). -/
theorem dense_matmul_apply (lhs : FVec Ideal S512x768 .f32) (rhs : FVec Ideal S768x768 .f32) (p : Fin 512) (n : Fin 768) :
    matmul dot_S512x768_S768x768_S512x768_1_0_0_1_n_n none lhs rhs (constant (F := Ideal) S512x768 .f32 0x00000000#32) (ix2 p n)
      = ∑ k : Fin 768, lhs (ix2 p k) * rhs (ix2 k n) := by
  simp only [matmul]
  rw [Ideal.matmul_constant_zero_apply, ← Equiv.sum_comp (contrEquiv1 dot_S512x768_S768x768_S512x768_1_0_0_1_n_n 768 rfl rfl).symm]
  refine Finset.sum_congr rfl fun k _ => ?_
  have hk := contrEquiv1_symm_val dot_S512x768_S768x768_S512x768_1_0_0_1_n_n 768 rfl rfl k
  have el : dot_S512x768_S768x768_S512x768_1_0_0_1_n_n.lhsIdx (ix2 p n) ((contrEquiv1 dot_S512x768_S768x768_S512x768_1_0_0_1_n_n 768 rfl rfl).symm k) = ix2 p k :=
    funext fun a => Fin.ext (by
      match a with
      | ⟨0, _⟩ => exact lhs_dense_0 _ _
      | ⟨1, _⟩ => exact (lhs_dense_1 _ _).trans hk)
  have er : dot_S512x768_S768x768_S512x768_1_0_0_1_n_n.rhsIdx (ix2 p n) ((contrEquiv1 dot_S512x768_S768x768_S512x768_1_0_0_1_n_n 768 rfl rfl).symm k) = ix2 k n :=
    funext fun a => Fin.ext (by
      match a with
      | ⟨0, _⟩ => exact (rhs_dense_0 _ _).trans hk
      | ⟨1, _⟩ => exact rhs_dense_1 _ _)
  rw [el, er]

/-- A row of 768 numbers broadcast over the block reads, at (p, n), the row's entry n. -/
theorem biasRow_apply (b : FVec Ideal S1x768 .f32) (p : Fin 512) (n : Fin 768) :
    broadcastTo S512x768 (shapeCast S1x768 b shapeCasts_S1x768_S1x768) broadcasts_S1x768_S512x768 (ix2 p n)
      = b (ix2 (0 : Fin 1) n) := by
  rw [shapeCast_self]
  exact broadcastTo_1b_ab_apply b broadcasts_S1x768_S512x768 p n

/-- The sum along a row of the block, at row p. -/
theorem rowSum_apply (src : FVec Ideal S512x768 .f32) (p : Fin 512) :
    multiReduction (F := Ideal) .add [1] S512 src 0x00000000#32 reduces_S512x768_S512 (.inl rfl) rfl (ix1 p)
      = ∑ k : Fin 768, src (ix2 p k) := by
  refine (Ideal.multiReduction_add_single src 0x00000000#32 reduces_S512x768_S512 (.inl rfl) rfl (ix1 p)).trans ?_
  refine Finset.sum_congr rfl fun k _ => congrArg src ?_
  funext a
  apply Fin.ext
  match a with
  | ⟨0, _⟩ => rfl
  | ⟨1, _⟩ => rfl

/-- A column of 512 numbers cast to a 512 x 1 block reads, at (p, u), the column at p. -/
theorem colCast_apply {α : Type} (v : S512.Idx → α) (p : Fin 512) (u : Fin 1) :
    shapeCast S512x1 v shapeCasts_S512_S512x1 (ix2 p u) = v (ix1 p) :=
  shapeCast_apply v shapeCasts_S512_S512x1 (ix2 p u) (ix1 p) (by
    have hu : u.val = 0 := by omega
    rw [Shape.rowMajor_val_two, Shape.rowMajor_val_one]
    show p.val = p.val * 1 + u.val
    omega)

/-- A 512 x 1 block broadcast along its rows reads, at (p, n), the block at (p, 0). -/
theorem colBroadcast_apply {α : Type} (v : S512x1.Idx → α) (p : Fin 512) (n : Fin 768) :
    broadcastTo S512x768 v broadcasts_S512x1_S512x768 (ix2 p n) = v (ix2 p (0 : Fin 1)) := by
  refine broadcastTo_apply v broadcasts_S512x1_S512x768 (ix2 p n) (ix2 p (0 : Fin 1)) fun ax => ?_
  match ax with
  | ⟨0, _⟩ =>
    show p.val = if (512 : ℕ) = 1 then 0 else p.val
    rw [if_neg (by decide)]
  | ⟨1, _⟩ => rfl

/-- The reciprocal square root of a block, at an entry. -/
theorem rsqrt_apply {s : Shape} (v : FVec Ideal s .f32) (i : s.Idx) : rsqrt v i = Ideal.rsqrt (v i) := rfl

/-- The output dense layer of the context block, plus its bias, plus the residual block. -/
def hresB (ctx x : FVec Ideal S512x768 .f32) (wo : FVec Ideal S768x768 .f32) (bo : FVec Ideal S1x768 .f32) :
    FVec Ideal S512x768 .f32 :=
  addf (addf (matmul dot_S512x768_S768x768_S512x768_1_0_0_1_n_n none (shapeCast S512x768 ctx shapeCasts_S512x768_S512x768)
          (shapeCast S768x768 wo shapeCasts_S768x768_S768x768) (constant S512x768 .f32 0x00000000#32))
        (broadcastTo S512x768 (shapeCast S1x768 bo shapeCasts_S1x768_S1x768) broadcasts_S1x768_S512x768))
    (shapeCast S512x768 x shapeCasts_S512x768_S512x768)

/-- The rows less their means. -/
def centredB (h : FVec Ideal S512x768 .f32) : FVec Ideal S512x768 .f32 :=
  subf h (broadcastTo S512x768 (divf (shapeCast S512x1 (multiReduction .add [1] S512 h 0x00000000#32
      reduces_S512x768_S512 (.inl rfl) rfl) shapeCasts_S512_S512x1) (broadcast S512x1 (Scalar.ofBits .f32 0x44400000#32)))
    broadcasts_S512x1_S512x768)

/-- Row-wise layer normalisation of a block with scale row `g` and shift row `be`. -/
def lnB (h : FVec Ideal S512x768 .f32) (g be : FVec Ideal S1x768 .f32) : FVec Ideal S512x768 .f32 :=
  addf (mulf (mulf (centredB h)
      (broadcastTo S512x768 (rsqrt (addf (divf (shapeCast S512x1 (multiReduction .add [1] S512
          (mulf (centredB h) (centredB h)) 0x00000000#32 reduces_S512x768_S512 (.inl rfl) rfl) shapeCasts_S512_S512x1)
          (broadcast S512x1 (Scalar.ofBits .f32 0x44400000#32))) (broadcast S512x1 (Scalar.ofBits .f32 0x2B8CBCCC#32))))
        broadcasts_S512x1_S512x768))
      (broadcastTo S512x768 (shapeCast S1x768 g shapeCasts_S1x768_S1x768) broadcasts_S1x768_S512x768))
    (broadcastTo S512x768 (shapeCast S1x768 be shapeCasts_S1x768_S1x768) broadcasts_S1x768_S512x768)

/-- The body's stored value is the normalisation of the residual sum. -/
theorem pay_eq (x0 : Vec Ideal S512x768 .f32) (x2 : Vec Ideal S768x768 .f32) (x3 : Vec Ideal S1x768 .f32)
    (x1 : Vec Ideal S512x768 .f32) (x4 x5 : Vec Ideal S1x768 .f32) :
    k2_pay1 (F := Ideal) x0 x2 x3 x1 x4 x5 = lnB (hresB x0 x1 x2 x3) x4 x5 := rfl

theorem hresB_apply (ctx x : FVec Ideal S512x768 .f32) (wo : FVec Ideal S768x768 .f32) (bo : FVec Ideal S1x768 .f32)
    (p : Fin 512) (n : Fin 768) :
    hresB ctx x wo bo (ix2 p n)
      = Attn.dense (fun k => ctx (ix2 p k)) (fun n' k => wo (ix2 k n')) (fun n' => bo (ix2 (0 : Fin 1) n')) n + x (ix2 p n) := by
  unfold hresB Attn.dense
  rw [addf_apply, addf_apply, biasRow_apply, dense_matmul_apply, shapeCast_self, shapeCast_self, shapeCast_self]

theorem centredB_apply (h : FVec Ideal S512x768 .f32) (p : Fin 512) (n : Fin 768) :
    centredB h (ix2 p n) = h (ix2 p n) - Ideal.div (∑ k : Fin 768, h (ix2 p k)) Attn.c768 := by
  unfold centredB
  rw [subf_apply, colBroadcast_apply, divf_apply, colCast_apply, rowSum_apply, broadcast_apply]
  rfl

theorem lnB_apply (h : FVec Ideal S512x768 .f32) (g be : FVec Ideal S1x768 .f32) (p : Fin 512) (n : Fin 768) :
    lnB h g be (ix2 p n)
      = Attn.lnRow (fun n' => h (ix2 p n')) (fun n' => g (ix2 (0 : Fin 1) n')) (fun n' => be (ix2 (0 : Fin 1) n')) n := by
  unfold lnB Attn.lnRow
  rw [addf_apply, mulf_apply, mulf_apply, biasRow_apply, biasRow_apply, colBroadcast_apply, rsqrt_apply, addf_apply,
    divf_apply, colCast_apply, rowSum_apply, broadcast_apply, broadcast_apply]
  simp only [mulf_apply, centredB_apply]
  rfl

/-- One entry of the third call's result, from the rows it reads. -/
def rowOut (f0 f1 : Fin 768 → EReal) (f2 : Fin 768 → Fin 768 → EReal) (f3 f4 f5 : Fin 768 → EReal) (n : Fin 768) : EReal :=
  Attn.lnRow (fun n' => Attn.dense f0 f2 f3 n' + f1 n') f4 f5 n

/-- The body's stored value at entry (p, n) of the block. -/
theorem pay_apply (x0 : Vec Ideal S512x768 .f32) (x2 : Vec Ideal S768x768 .f32) (x3 : Vec Ideal S1x768 .f32)
    (x1 : Vec Ideal S512x768 .f32) (x4 x5 : Vec Ideal S1x768 .f32) (p : Fin 512) (n : Fin 768) :
    k2_pay1 (F := Ideal) x0 x2 x3 x1 x4 x5 (ix2 p n)
      = rowOut (fun k => x0 (ix2 p k)) (fun n' => x1 (ix2 p n')) (fun n' k => x2 (ix2 k n'))
          (fun n' => x3 (ix2 (0 : Fin 1) n')) (fun n' => x4 (ix2 (0 : Fin 1) n')) (fun n' => x5 (ix2 (0 : Fin 1) n')) n := by
  rw [pay_eq, lnB_apply]
  unfold rowOut
  simp only [hresB_apply]

/-! ## From the blocks to the array

The call runs on 16 blocks of 512 rows; block t holds rows 512 t to 512 t + 511 of the context, of the residual input
and of the result, and the whole of the weights and of the three rows. -/

open Idealize.ShloMosaic.TcCoe

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the three 512-row windows at block row t, the others at the origin;
    and there are 16 points. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ t.val < 16 :=
  (by decide +kernel : ∀ t : Fin grid2.N, _)

/-- The context block at point t is rows 512 t onwards of the context array. -/
theorem iblk0_apply (c : Dev nD) (t : Fin cfg2.N) (p : Fin 512) (k : Fin 768) (r : Fin 8192) (hr : r.val = 512 * t.val + p.val) :
    (iblk2 V c 0 t : Vec Ideal S512x768 .f32) (ix2 p k) = (V c main_v24 : S8192x768.Idx → EReal) (ix2 r k) := by
  obtain ⟨e0, e1, -⟩ := idx_facts t
  unfold iblk2
  rw [View.read_apply]
  show V c main_v24 _ = V c main_v24 _
  congr 1
  funext a
  apply Fin.ext
  match a with
  | ⟨0, _⟩ => show win2_0.index t (0 : Fin 2) * 512 + 1 * p.val = r.val; rw [e0, hr]; omega
  | ⟨1, _⟩ => show win2_0.index t (1 : Fin 2) * 768 + 1 * k.val = k.val; rw [e1]; omega

/-- The residual block at point t is rows 512 t onwards of the input array. -/
theorem iblk1_apply (c : Dev nD) (t : Fin cfg2.N) (p : Fin 512) (k : Fin 768) (r : Fin 8192) (hr : r.val = 512 * t.val + p.val) :
    (iblk2 V c 1 t : Vec Ideal S512x768 .f32) (ix2 p k) = (V c main_v0 : S8192x768.Idx → EReal) (ix2 r k) := by
  obtain ⟨-, -, e0, e1, -⟩ := idx_facts t
  unfold iblk2
  rw [View.read_apply]
  show V c main_v0 _ = V c main_v0 _
  congr 1
  funext a
  apply Fin.ext
  match a with
  | ⟨0, _⟩ => show win2_1.index t (0 : Fin 2) * 512 + 1 * p.val = r.val; rw [e0, hr]; omega
  | ⟨1, _⟩ => show win2_1.index t (1 : Fin 2) * 768 + 1 * k.val = k.val; rw [e1]; omega

/-- The weights' block is the whole weights array. -/
theorem iblk2_apply (c : Dev nD) (t : Fin cfg2.N) (k n : Fin 768) :
    (iblk2 V c 2 t : Vec Ideal S768x768 .f32) (ix2 k n) = (V c main_v4 : S768x768.Idx → EReal) (ix2 k n) := by
  obtain ⟨-, -, -, -, e0, e1, -⟩ := idx_facts t
  unfold iblk2
  rw [View.read_apply]
  show V c main_v4 _ = V c main_v4 _
  congr 1
  funext a
  apply Fin.ext
  match a with
  | ⟨0, _⟩ => show win2_2.index t (0 : Fin 2) * 768 + 1 * k.val = k.val; rw [e0]; omega
  | ⟨1, _⟩ => show win2_2.index t (1 : Fin 2) * 768 + 1 * n.val = n.val; rw [e1]; omega

/-- The bias row's block is the whole row. -/
theorem iblk3_apply (c : Dev nD) (t : Fin cfg2.N) (u : Fin 1) (n : Fin 768) :
    (iblk2 V c 3 t : Vec Ideal S1x768 .f32) (ix2 u n) = (V c main_v8 : S1x768.Idx → EReal) (ix2 u n) := by
  obtain ⟨-, -, -, -, -, -, e0, e1, -⟩ := idx_facts t
  unfold iblk2
  rw [View.read_apply]
  show V c main_v8 _ = V c main_v8 _
  congr 1
  funext a
  apply Fin.ext
  match a with
  | ⟨0, _⟩ => show win2_3.index t (0 : Fin 2) * 1 + 1 * u.val = u.val; rw [e0]; omega
  | ⟨1, _⟩ => show win2_3.index t (1 : Fin 2) * 768 + 1 * n.val = n.val; rw [e1]; omega

/-- The scale row's block is the whole row. -/
theorem iblk4_apply (c : Dev nD) (t : Fin cfg2.N) (u : Fin 1) (n : Fin 768) :
    (iblk2 V c 4 t : Vec Ideal S1x768 .f32) (ix2 u n) = (V c main_v9 : S1x768.Idx → EReal) (ix2 u n) := by
  obtain ⟨-, -, -, -, -, -, -, -, e0, e1, -⟩ := idx_facts t
  unfold iblk2
  rw [View.read_apply]
  show V c main_v9 _ = V c main_v9 _
  congr 1
  funext a
  apply Fin.ext
  match a with
  | ⟨0, _⟩ => show win2_4.index t (0 : Fin 2) * 1 + 1 * u.val = u.val; rw [e0]; omega
  | ⟨1, _⟩ => show win2_4.index t (1 : Fin 2) * 768 + 1 * n.val = n.val; rw [e1]; omega

/-- The shift row's block is the whole row. -/
theorem iblk5_apply (c : Dev nD) (t : Fin cfg2.N) (u : Fin 1) (n : Fin 768) :
    (iblk2 V c 5 t : Vec Ideal S1x768 .f32) (ix2 u n) = (V c main_v10 : S1x768.Idx → EReal) (ix2 u n) := by
  obtain ⟨-, -, -, -, -, -, -, -, -, -, e0, e1, -⟩ := idx_facts t
  unfold iblk2
  rw [View.read_apply]
  show V c main_v10 _ = V c main_v10 _
  congr 1
  funext a
  apply Fin.ext
  match a with
  | ⟨0, _⟩ => show win2_5.index t (0 : Fin 2) * 1 + 1 * u.val = u.val; rw [e0]; omega
  | ⟨1, _⟩ => show win2_5.index t (1 : Fin 2) * 768 + 1 * n.val = n.val; rw [e1]; omega

/-- An entry of the result depends on the rows it reads entry by entry. -/
theorem rowOut_congr {f0 g0 f1 g1 f3 g3 f4 g4 f5 g5 : Fin 768 → EReal} {f2 g2 : Fin 768 → Fin 768 → EReal}
    (h0 : ∀ k, f0 k = g0 k) (h1 : ∀ k, f1 k = g1 k) (h2 : ∀ n k, f2 n k = g2 n k) (h3 : ∀ k, f3 k = g3 k)
    (h4 : ∀ k, f4 k = g4 k) (h5 : ∀ k, f5 k = g5 k) (n : Fin 768) :
    rowOut f0 f1 f2 f3 f4 f5 n = rowOut g0 g1 g2 g3 g4 g5 n := by
  obtain rfl : f0 = g0 := funext h0
  obtain rfl : f1 = g1 := funext h1
  obtain rfl : f2 = g2 := funext fun n => funext (h2 n)
  obtain rfl : f3 = g3 := funext h3
  obtain rfl : f4 = g4 := funext h4
  obtain rfl : f5 = g5 := funext h5
  rfl

/-- The whole result array as one function of the arrays the call reads. -/
def G (c : Dev nD) : S8192x768.Idx → EReal := fun i =>
  rowOut (fun k => (V c main_v24 : S8192x768.Idx → EReal) (ix2 (n0 := 8192) (i 0) k))
    (fun n' => (V c main_v0 : S8192x768.Idx → EReal) (ix2 (n0 := 8192) (i 0) n'))
    (fun n' k => (V c main_v4 : S768x768.Idx → EReal) (ix2 k n'))
    (fun n' => (V c main_v8 : S1x768.Idx → EReal) (ix2 (0 : Fin 1) n'))
    (fun n' => (V c main_v9 : S1x768.Idx → EReal) (ix2 (0 : Fin 1) n'))
    (fun n' => (V c main_v10 : S1x768.Idx → EReal) (ix2 (0 : Fin 1) n')) (i 1)

/-- What point t writes back is block t of that function. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S512x768) hz, View.ld_unit_zero (S := S768x768) hz, View.ld_unit_zero (S := S1x768) hz]
  obtain ⟨-, -, -, -, -, -, -, -, -, -, -, -, e60, e61, ht⟩ := idx_facts t
  funext j
  obtain ⟨p, q, rfl⟩ : ∃ (p : Fin 512) (q : Fin 768), j = ix2 p q := ⟨j 0, j 1, eq_ix2 j⟩
  have hp : p.val < 512 := p.isLt
  refine (pay_apply _ _ _ _ _ _ p q).trans ?_
  rw [View.read_apply]
  show _ = G V c (((cfg2.win 6).blk t).view.emb (ix2 p q))
  have hemb : ((cfg2.win 6).blk t).view.emb (ix2 p q)
      = (ix2 (⟨512 * t.val + p.val, by omega⟩ : Fin 8192) q : S8192x768.Idx) := by
    funext a
    apply Fin.ext
    match a with
    | ⟨0, _⟩ => show win2_6.index t (0 : Fin 2) * 512 + 1 * p.val = 512 * t.val + p.val; rw [e60]; omega
    | ⟨1, _⟩ => show win2_6.index t (1 : Fin 2) * 768 + 1 * q.val = q.val; rw [e61]; omega
  rw [hemb]
  exact rowOut_congr (fun k => iblk0_apply V c t p k _ rfl) (fun k => iblk1_apply V c t p k _ rfl)
    (fun n k => iblk2_apply V c t k n) (fun k => iblk3_apply V c t 0 k) (fun k => iblk4_apply V c t 0 k)
    (fun k => iblk5_apply V c t 0 k) q

/-- An index of the array is in point t's block iff each coordinate is in the block's range on its axis. -/
theorem mem_blk (t : Fin cfg2.N) (i : S8192x768.Idx) :
    i ∈ ((cfg2.win 6).blk t).view.set ↔ ∀ a : Fin 2, win2_6.index t a * S512x768.size a ≤ (i a).val ∧ (i a).val < win2_6.index t a * S512x768.size a + S512x768.size a := by
  show i ∈ ((View.whole main_v25).slice (win2_6.rect t)).set ↔ _
  rw [View.set_slice_whole, Rect.mem_set_unit]
  exact Iff.rfl

/-- The 16 blocks cover the array: row r is in block r / 512. So the array ends holding that function. -/
theorem final (c : Dev nD) : (dat2 V c).arrAt 6 cfg2.N = G V c :=
  (dat2 V c).arrAt_eq_of_cover 6 (G V c) (fun t _ => flushed_eq V c t) fun i => by
    have h0 : (i 0).val < 8192 := (i 0).isLt
    have h1 : (i 1).val < 768 := (i 1).isLt
    have hN : cfg2.N = 16 := N_2
    obtain ⟨t, ht⟩ : ∃ t : Fin cfg2.N, t.val = (i 0).val / 512 := ⟨⟨(i 0).val / 512, by rw [hN]; omega⟩, rfl⟩
    obtain ⟨-, -, -, -, -, -, -, -, -, -, -, -, e60, e61, -⟩ := idx_facts t
    refine ⟨t, flush2_6 t, ?_⟩
    rw [mem_blk]
    intro a
    match a with
    | ⟨0, _⟩ => show win2_6.index t (0 : Fin 2) * 512 ≤ (i 0).val ∧ (i 0).val < win2_6.index t (0 : Fin 2) * 512 + 512; rw [e60, ht]; omega
    | ⟨1, _⟩ => show win2_6.index t (1 : Fin 2) * 768 ≤ (i 1).val ∧ (i 1).val < win2_6.index t (1 : Fin 2) * 768 + 768; rw [e61]; omega

end Reg2

variable (m : (ℓ : Loc nD τ sig) → Buf (Elt Ideal) ℓ) (ρ : Dev nD → PrngReg) (c : Dev nD)

theorem V6_out (r : Fin 8192) (n : Fin 768) :
    Gen.V6 m ρ c main_v25 (ix2 r n)
      = Attn.lnRow (fun n' => Attn.dense (fun k => Gen.V5 m ρ c main_v24 (ix2 r k)) (fun n' k => Gen.V5 m ρ c main_v4 (ix2 k n')) (fun n' => Gen.V5 m ρ c main_v8 (ix2 (0 : Fin 1) n')) n' + Gen.V5 m ρ c main_v0 (ix2 r n'))
          (fun n' => Gen.V5 m ρ c main_v9 (ix2 (0 : Fin 1) n')) (fun n' => Gen.V5 m ρ c main_v10 (ix2 (0 : Fin 1) n')) n := by
  have e : (Gen.V6 m ρ c main_v25 : S8192x768.Idx → EReal) = Reg2.G (Gen.V5 m ρ) c :=
    (Gen.W6_arr m ρ c 6).trans (Reg2.final (Gen.V5 m ρ) c)
  rw [e]
  rfl

end Cert.ReferenceIdeal.RV

end
-- ==== Proof.RValue.lean ====
/-
  The idealized reference's run with its result named: every weakly fair execution ends with the result array holding
  the reference function of the parameters in memory, and the arguments unchanged.  Read backwards through the program:
  the result is the unflattened third call's array; an entry of that is the layer normalisation of the dense layer of
  the context row plus the residual; an entry of the context is the merged second call's array, whose block for
  (batch, head) is the normalise-first attention of that block of the split projections; and each projection entry is a
  dense layer of the flattened input row with the transposed weights.
-/
import proofs.«120191_g2000702396236789_pallasbulk_1056_11_alg».proof.Proof.RRun
import proofs.«120191_g2000702396236789_pallasbulk_1056_11_alg».proof.Proof.RHost
import proofs.«120191_g2000702396236789_pallasbulk_1056_11_alg».proof.Proof.RReg0
import proofs.«120191_g2000702396236789_pallasbulk_1056_11_alg».proof.Proof.RReg1
import proofs.«120191_g2000702396236789_pallasbulk_1056_11_alg».proof.Proof.RReg2
import proofs.«120191_g2000702396236789_pallasbulk_1056_11_alg».proof.Proof.Params

noncomputable section

namespace Cert.ReferenceIdeal.RV

open Idealize.ShloMosaic Idealize.ShloMosaic.ValueIdx Idealize.SL.Sem Cert.ReferenceIdeal
open scoped BigOperators

variable (m : (ℓ : Loc nD τ sig) → Buf (Elt Ideal) ℓ) (ρ : Dev nD → PrngReg) (c : Dev nD)

/-- A projection entry of the first call, as the parameters' dense layer. -/
theorem q_entry (b : Fin 64) (i : Fin 128) (n : Fin 768) :
    Gen.V2 m ρ c main_v11_0 (ix2 (Attn.rowOf b i) n) = Attn.qM (Cert.RP m c) b i n := by
  rw [V2_q]
  unfold Attn.qM
  congr 1
  · funext k; exact V1_x m ρ c b i k
  · funext n' k; exact V1_w1 m ρ c k n'
  · funext n'; exact V1_b5 m ρ c n'

theorem k_entry (b : Fin 64) (i : Fin 128) (n : Fin 768) :
    Gen.V2 m ρ c main_v11_1 (ix2 (Attn.rowOf b i) n) = Attn.kM (Cert.RP m c) b i n := by
  rw [V2_k]
  unfold Attn.kM
  congr 1
  · funext k; exact V1_x m ρ c b i k
  · funext n' k; exact V1_w2 m ρ c k n'
  · funext n'; exact V1_b6 m ρ c n'

theorem v_entry (b : Fin 64) (i : Fin 128) (n : Fin 768) :
    Gen.V2 m ρ c main_v11_2 (ix2 (Attn.rowOf b i) n) = Attn.vM (Cert.RP m c) b i n := by
  rw [V2_v]
  unfold Attn.vM
  congr 1
  · funext k; exact V1_x m ρ c b i k
  · funext n' k; exact V1_w3 m ρ c k n'
  · funext n'; exact V1_b7 m ρ c n'

/-- An entry of the merged context, as the parameters' normalise-first context. -/
theorem ctx_entry (b : Fin 64) (i : Fin 128) (k : Fin 768) :
    Gen.V5 m ρ c main_v24 (ix2 (Attn.rowOf b i) k) = Attn.ctxR (Cert.RP m c) b i k := by
  conv_lhs => rw [← Attn.colOf_headOf_laneOf k]
  rw [V5_ctx, V4_ctx]
  unfold Attn.ctxR
  congr 1
  · funext i' e; rw [V3_q, q_entry]
  · funext j e; rw [V3_k, k_entry]
  · funext j e; rw [V3_v, v_entry]

/-- The result array is the reference function of the parameters. -/
theorem W7_value : Gen.W7 m ρ c (Proc.devRef .tc main_v26) = Cert.resOf (Attn.outR (Cert.RP m c)) := by
  show (Gen.W7 m ρ c (Proc.devRef .tc main_v26) : (⟨3, ![64, 128, 768]⟩ : Shape).Idx → EReal) = _
  funext j
  obtain ⟨b, i, n, rfl⟩ : ∃ (b : Fin 64) (i : Fin 128) (n : Fin 768), j = ix3 b i n := ⟨j 0, j 1, j 2, eq_ix3 j⟩
  rw [Cert.resOf_ix3, W7_res, V6_out]
  unfold Attn.outR Attn.outOf
  congr 1
  · funext n'
    congr 1
    · congr 1
      · funext k; exact ctx_entry m ρ c b i k
      · funext n'' k; rw [V5_keep_main_v4]; exact V1_w4 m ρ c k n''
      · funext n''; rw [V5_keep_main_v8]; exact V1_b8 m ρ c n''
    · rw [V5_keep_main_v0]; exact V1_x m ρ c b i n'
  · funext n'; rw [V5_keep_main_v9]; exact V1_b9 m ρ c n'
  · funext n'; rw [V5_keep_main_v10]; exact V1_b10 m ρ c n'

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v26) = Cert.resOf (Attn.outR (Cert.RP m c))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)) :=
  (θ_run (defs (F := Ideal)) _ _).mono (fun r h c => ⟨(h c).1.trans (W7_value m ρ c), (h c).2⟩) (run_W7 m ρ)

end Cert.ReferenceIdeal.RV

end
-- ==== Proof.Algebra.lean ====
/-
  The two orders of attention agree on finite inputs, and with them the two whole outputs.
-/
import proofs.«120191_g2000702396236789_pallasbulk_1056_11_alg».proof.Proof.Spec
import Mathlib.Data.EReal.Basic
import Mathlib.Data.EReal.Operations
import Mathlib.Data.Finset.Fold
import Mathlib.Algebra.BigOperators.Ring.Finset
import Mathlib.Algebra.Order.BigOperators.Group.Finset
import Mathlib.Analysis.SpecialFunctions.Exp
import Mathlib.Tactic.Ring
import Mathlib.Tactic.NormNum

noncomputable section

open Idealize.ShloMosaic
open scoped BigOperators

namespace Cert.Attn

/-- The scale word is the real number one eighth. -/
theorem cS_eq : cS = (((1 : ℝ) / 8 : ℝ) : EReal) := by
  show Ideal.ofBits .f32 0x3E000000#32 = _
  simp [Ideal.ofBits, Ideal.ieee, -EReal.coe_mul]; norm_num

/-- The bf16 one is the real number one. -/
theorem oneB_eq : oneB = ((1 : ℝ) : EReal) := by
  show Ideal.ofBits .bf16 0x3F80#16 = _
  simp [Ideal.ofBits, Ideal.ieee, -EReal.coe_mul]; norm_num

/-- The starting value of the running maximum is minus infinity. -/
theorem negInf_eq : negInf = ⊥ := by
  show Ideal.ofBits .f32 0xFF800000#32 = _
  simp [Ideal.ofBits, Ideal.ieee]

/-- The embedding of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of 128 reals, folded from minus infinity, is a real. -/
theorem rowMax_real (s : Fin 128 → ℝ) : ∃ m : ℝ, rowMax (fun j => (s j : EReal)) = (m : EReal) := by
  have key : ∀ t : Finset (Fin 128), t.Nonempty →
      ∃ m : ℝ, t.fold max (⊥ : EReal) (fun j => (s j : EReal)) = (m : EReal) := by
    intro t ht
    induction ht using Finset.Nonempty.cons_induction with
    | singleton a => exact ⟨s a, by simp⟩
    | cons a t ha ht ih =>
      obtain ⟨m, hm⟩ := ih
      refine ⟨max (s a) m, ?_⟩
      rw [Finset.fold_cons, hm]
      exact (EReal.coe_strictMono.monotone.map_max).symm
  unfold rowMax
  rw [negInf_eq]
  exact key _ Finset.univ_nonempty

/-- A dense layer of real inputs, weights and bias is real. -/
theorem dense_real {x : Fin 768 → EReal} {w : Fin 768 → Fin 768 → EReal} {b : Fin 768 → EReal}
    (hx : ∀ k, ∃ r : ℝ, x k = (r : EReal)) (hw : ∀ n k, ∃ r : ℝ, w n k = (r : EReal)) (hb : ∀ n, ∃ r : ℝ, b n = (r : EReal))
    (n : Fin 768) : ∃ r : ℝ, dense x w b n = (r : EReal) := by
  choose xr hxr using hx
  choose wr hwr using hw
  choose br hbr using hb
  refine ⟨(∑ k : Fin 768, xr k * wr n k) + br n, ?_⟩
  unfold dense
  simp only [hxr, hwr, hbr, EReal.coe_add, coe_sum, EReal.coe_mul]

/-- On real queries, keys and values, scaling the queries first and dividing last gives the same attention as scaling
    the scores and normalising the weights first. -/
theorem attnK_eq_attnR (q k v : Fin 128 → Fin 64 → EReal)
    (hq : ∀ i e, ∃ r : ℝ, q i e = (r : EReal)) (hk : ∀ i e, ∃ r : ℝ, k i e = (r : EReal))
    (hv : ∀ i e, ∃ r : ℝ, v i e = (r : EReal)) (i : Fin 128) (d : Fin 64) :
    attnK (fun i' e => q i' e * cS) k v i d = attnR q k v i d := by
  obtain ⟨qr, rfl⟩ : ∃ qr : Fin 128 → Fin 64 → ℝ, q = fun i e => (qr i e : EReal) :=
    ⟨fun i e => (hq i e).choose, funext fun i => funext fun e => (hq i e).choose_spec⟩
  obtain ⟨kr, rfl⟩ : ∃ kr : Fin 128 → Fin 64 → ℝ, k = fun i e => (kr i e : EReal) :=
    ⟨fun i e => (hk i e).choose, funext fun i => funext fun e => (hk i e).choose_spec⟩
  obtain ⟨vr, rfl⟩ : ∃ vr : Fin 128 → Fin 64 → ℝ, v = fun i e => (vr i e : EReal) :=
    ⟨fun i e => (hv i e).choose, funext fun i => funext fun e => (hv i e).choose_spec⟩
  -- both score matrices are the same real matrix: the real scale moves across the finite sum
  have hsK : ∀ j : Fin 128, scoreK (fun i' e => (qr i' e : EReal) * cS) (fun j e => (kr j e : EReal)) j i
      = (((∑ e : Fin 64, qr i e * kr j e) * (1 / 8) : ℝ) : EReal) := by
    intro j
    simp only [scoreK, cS_eq, ← EReal.coe_mul, ← coe_sum]
    congr 1
    rw [Finset.sum_mul]
    exact Finset.sum_congr rfl fun e _ => by ring
  have hsR : ∀ j : Fin 128, scoreR (fun i' e => (qr i' e : EReal)) (fun j e => (kr j e : EReal)) i j
      = (((∑ e : Fin 64, qr i e * kr j e) * (1 / 8) : ℝ) : EReal) := by
    intro j
    simp only [scoreR, cS_eq, ← EReal.coe_mul, ← coe_sum]
  -- the row maximum is a real, so every weight is the exponential of a real: a positive real
  obtain ⟨m, hm⟩ := rowMax_real (fun j' => (∑ e : Fin 64, qr i e * kr j' e) * (1 / 8))
  obtain ⟨w, hwpos, hwK, hwR⟩ : ∃ w : Fin 128 → ℝ, (∀ j, 0 < w j)
      ∧ (∀ j, wgtK (fun i' e => (qr i' e : EReal) * cS) (fun j e => (kr j e : EReal)) j i = (w j : EReal))
      ∧ (∀ j, wgtR (fun i' e => (qr i' e : EReal)) (fun j e => (kr j e : EReal)) i j = (w j : EReal)) := by
    refine ⟨fun j => Real.exp ((∑ e : Fin 64, qr i e * kr j e) * (1 / 8) - m), fun j => Real.exp_pos _, ?_, ?_⟩
    · intro j
      unfold wgtK
      simp only [hsK]
      rw [hm, ← EReal.coe_sub, Ideal.exp_coe]
    · intro j
      unfold wgtR
      simp only [hsR]
      rw [hm, ← EReal.coe_sub, Ideal.exp_coe]
  -- the sum of the weights is a positive real, so dividing by it is multiplying by its reciprocal
  have hZ : (0 : ℝ) < ∑ j : Fin 128, w j := Finset.sum_pos (fun j _ => hwpos j) Finset.univ_nonempty
  unfold attnK attnR
  simp only [hwK, hwR, oneB_eq, ← EReal.coe_mul, ← coe_sum, mul_one]
  simp only [Ideal.div_coe hZ.ne', ← EReal.coe_mul, ← coe_sum]
  congr 1
  rw [Finset.sum_mul]
  exact Finset.sum_congr rfl fun j _ => by ring

/-- On real parameters the fused kernel's function is the reference's. -/
theorem outK_eq_outR (P : Params) (hP : P.Real) : outK P = outR P := by
  have h : ctxK P = ctxR P := by
    funext b i n
    unfold ctxK ctxR
    exact attnK_eq_attnR _ _ _ (fun i' e => dense_real (hP.X b i') hP.wq hP.bq _)
      (fun j e => dense_real (hP.X b j) hP.wk hP.bk _) (fun j e => dense_real (hP.X b j) hP.wv hP.bv _) i (laneOf n)
  unfold outK outR
  rw [h]

end Cert.Attn

end
-- ==== Proof.Finite.lean ====
/-
  From the precondition (every float input finite) to: every parameter entry is a real number.

  The precondition is a conjunction of eleven statements, one per input array: "the conjunction over all entries of
  |x| < +infinity is one". A conjunction of bits that is one has every conjunct one; a conjunction over all entries
  that is one has every entry one; and an extended real x with max x (-x) < +infinity is neither +infinity nor
  -infinity, hence a real.
-/
import proofs.«120191_g2000702396236789_pallasbulk_1056_11_alg».proof.Proof.Params
import proofs.«120191_g2000702396236789_pallasbulk_1056_11_alg».proof.Proof.Gen.Pre_finite_inputs
import Idealize.ShloMosaic.Lib.ReduceAll

noncomputable section

open Idealize.ShloMosaic Idealize.ShloMosaic.ValueIdx Idealize.SL.Sem

namespace Cert

namespace FinitePre

/-- The shape with no axes has exactly one index. -/
instance subsingletonScalarIdx : Subsingleton Cert.Pre_finite_inputs.S_.Idx := ⟨fun a b => funext fun d => d.elim0⟩

/-- An extended real whose absolute value lies strictly below plus infinity is a real. -/
theorem real_of_abs_lt (x : EReal)
    (e : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at e
  rw [htop] at e
  unfold Ideal.cmp at e
  induction x using EReal.rec with
  | bot => simp at e
  | top => simp at e
  | coe r => exact ⟨r, rfl⟩

/-- If the conjunction over all entries of "absolute value below plus infinity" is one, every entry is a real. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
          (cmpf .olt (Host.absf x) (broadcastInDim s ![] hb (constant (F := Ideal) Cert.Pre_finite_inputs.S_ .f32 0x7F800000#32)))
          init hr hu ix0 = 1#1)
    (i : s.Idx) : ∃ r : ℝ, x i = (r : EReal) := by
  have h1 := Host.reduce_andi_all _ init hr hu ix0 e i
  exact real_of_abs_lt (x i) h1

end FinitePre

open FinitePre in
theorem KP_real (m : (ℓ : Loc Cert.KernelIdeal.nD Cert.KernelIdeal.τ Cert.KernelIdeal.sig) → Buf (Elt Ideal) ℓ)
    (h : Cert.Pre_KernelIdeal m) (c : Dev Cert.KernelIdeal.nD) : (Cert.KP m c).Real := by
  have h0 := congrFun (h c) ix0
  dsimp only [Cert.Pre_finite_inputs.fn, Cert.Pre_finite_inputs.fn_part1, Cert.Pre_finite_inputs.fn_part2,
    Cert.Pre_finite_inputs.fn_part3] at h0
  change IntOp.andi _ _ = 1#1 at h0
  obtain ⟨h0, e10⟩ := IntOp.andi_eq_one.1 h0
  change IntOp.andi _ _ = 1#1 at h0
  obtain ⟨h0, e9⟩ := IntOp.andi_eq_one.1 h0
  change IntOp.andi _ _ = 1#1 at h0
  obtain ⟨h0, e8⟩ := IntOp.andi_eq_one.1 h0
  change IntOp.andi _ _ = 1#1 at h0
  obtain ⟨h0, e7⟩ := IntOp.andi_eq_one.1 h0
  change IntOp.andi _ _ = 1#1 at h0
  obtain ⟨h0, e6⟩ := IntOp.andi_eq_one.1 h0
  change IntOp.andi _ _ = 1#1 at h0
  obtain ⟨h0, e5⟩ := IntOp.andi_eq_one.1 h0
  change IntOp.andi _ _ = 1#1 at h0
  obtain ⟨h0, e4⟩ := IntOp.andi_eq_one.1 h0
  change IntOp.andi _ _ = 1#1 at h0
  obtain ⟨h0, e3⟩ := IntOp.andi_eq_one.1 h0
  change IntOp.andi _ _ = 1#1 at h0
  obtain ⟨h0, e2⟩ := IntOp.andi_eq_one.1 h0
  change IntOp.andi _ _ = 1#1 at h0
  obtain ⟨e0, e1⟩ := IntOp.andi_eq_one.1 h0
  exact
    { X := fun b i n => real_of_all _ _ _ _ _ e0 (ix3 b i n)
      wq := fun n k => real_of_all _ _ _ _ _ e1 (ix2 n k)
      wk := fun n k => real_of_all _ _ _ _ _ e2 (ix2 n k)
      wv := fun n k => real_of_all _ _ _ _ _ e3 (ix2 n k)
      wo := fun n k => real_of_all _ _ _ _ _ e4 (ix2 n k)
      bq := fun n => real_of_all _ _ _ _ _ e5 (ix1 n)
      bk := fun n => real_of_all _ _ _ _ _ e6 (ix1 n)
      bv := fun n => real_of_all _ _ _ _ _ e7 (ix1 n)
      bo := fun n => real_of_all _ _ _ _ _ e8 (ix1 n)
      g := fun n => real_of_all _ _ _ _ _ e9 (ix1 n)
      be := fun n => real_of_all _ _ _ _ _ e10 (ix1 n) }

end Cert

end
-- ==== Proof.lean ====
/-
  The certificate of the fused BERT self-attention kernel against its three-call reference.

  The three frames are the generated ones.  The idealization rewrote nothing, so `preserves` is trivial.  For the
  algebraic claim both runs end with the same function of the parameters in memory: the fused kernel's run ends with
  the result array at `outK` of its parameters, the reference's at `outR` of its own; the memories agree on the
  arguments, so the parameters are the same; and on finite parameters (the precondition) `outK = outR`: scaling the
  queries before or the scores after the dot product, and dividing the softmax weights before or the weighted sum
  after the product with the values, give the same real numbers.
-/
import proofs.«120191_g2000702396236789_pallasbulk_1056_11_alg».proof.Defs
import proofs.«120191_g2000702396236789_pallasbulk_1056_11_alg».proof.Proof.Gen.Kernel.Frame
import proofs.«120191_g2000702396236789_pallasbulk_1056_11_alg».proof.Proof.Gen.KernelIdeal.Frame
import proofs.«120191_g2000702396236789_pallasbulk_1056_11_alg».proof.Proof.Gen.ReferenceIdeal.Frame
import proofs.«120191_g2000702396236789_pallasbulk_1056_11_alg».proof.Proof.Gen.Pre_finite_inputs
import proofs.«120191_g2000702396236789_pallasbulk_1056_11_alg».proof.Proof.KRun
import proofs.«120191_g2000702396236789_pallasbulk_1056_11_alg».proof.Proof.RValue
import proofs.«120191_g2000702396236789_pallasbulk_1056_11_alg».proof.Proof.Algebra
import proofs.«120191_g2000702396236789_pallasbulk_1056_11_alg».proof.Proof.Finite
import Idealize.ShloMosaic.Adequacy
import Idealize.ShloMosaic.Init

noncomputable section

namespace Cert.Proof

open Idealize.ShloMosaic Idealize.SL.Sem

/-- Memories that agree on the eleven arguments hold the same parameters. -/
theorem params_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.RP m' c = Cert.KP m c := by
  obtain ⟨h0, h1, h2, h3, h4, h5, h6, h7, h8, h9, h10⟩ := h
  unfold Cert.RP Cert.KP
  rw [h0, h1, h2, h3, h4, h5, h6, h7, h8, h9, h10]

theorem algebraic : Cert.algebraic_KernelIdeal_ReferenceIdeal := by
  intro m ρ m' ρ' hpre hagree
  refine ⟨fun c => Cert.resOf (Cert.Attn.outK (Cert.KP m c)), Cert.KernelIdeal.KV.run m ρ, ?_⟩
  refine (θ_run Cert.ReferenceIdeal.defs _ _).mono (fun r h c => ⟨(h c).1.trans ?_, (h c).2⟩)
    (Cert.ReferenceIdeal.RV.run m' ρ')
  show Cert.resOf (Cert.Attn.outR (Cert.RP m' c)) = Cert.resOf (Cert.Attn.outK (Cert.KP m c))
  rw [params_agree m m' c (hagree c), Cert.Attn.outK_eq_outR _ (Cert.KP_real m hpre c)]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
